-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000 : Shape := ⟨1, ![320000]⟩
abbrev S10000x32 : Shape := ⟨2, ![10000, 32]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x32 : S_.BroadcastsInDim S10000x32 (![] : Fin 0 → Fin S10000x32.rank)
  reducesTo_S10000x32_S_d0_1 : S10000x32.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S320000 : S_.BroadcastsInDim S320000 (![] : Fin 0 → Fin S320000.rank)
  reducesTo_S320000_S_d0 : S320000.ReducesTo [0] S_

variable [Facts]

def fn_part3 {F : FTy → Type} [FloatOps F] (main_arg1 : IVec S320000 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_c_20 : IVec S_ 32 := constantI S_ 32 0#32
  let main_v54 : IVec S320000 32 := broadcastInDim S320000 ![] bcast_S_S320000 main_c_20
  let main_v55 : IVec S320000 1 := cmpi .sge main_arg1 main_v54
  let main_c_21 : IVec S_ 32 := constantI S_ 32 10000#32
  let main_v56 : IVec S320000 32 := broadcastInDim S320000 ![] bcast_S_S320000 main_c_21
  let main_v57 : IVec S320000 1 := cmpi .slt main_arg1 main_v56
  let main_v58 : IVec S320000 1 := andi main_v55 main_v57
  let main_c_22 : IVec S_ 1 := constantI S_ 1 1#1
  let main_v59 : IVec S_ 1 := (fun x v => Host.reduce IntOp.andi x v reducesTo_S320000_S_d0 h_S_) main_v58 main_c_22
  let main_v60 : IVec S_ 1 := andi main_v53 main_v59
  main_v60

def fn_part2 {F : FTy → Type} [FloatOps F] (main_arg1 : IVec S320000 32) (main_arg9 : FVec F S32 .f32) (main_arg10 : FVec F S32x32 .f32) (main_arg11 : FVec F S32x32 .f32) (main_arg12 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg1 main_v48 main_v49 main_v50

def fn_part1 {F : FTy → Type} [FloatOps F] (main_arg1 : IVec S320000 32) (main_arg6 : FVec F S32 .f32) (main_arg7 : FVec F S32x32 .f32) (main_arg8 : FVec F S32x32 .f32) (main_arg9 : FVec F S32 .f32) (main_arg10 : FVec F S32x32 .f32) (main_arg11 : FVec F S32x32 .f32) (main_arg12 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S10000x128 .f32) (main_arg1 : IVec S320000 32) (main_arg2 : IVec S320000 32) (main_arg3 : FVec F S10000x32 .f32) (main_arg4 : FVec F S128x32 .f32) (main_arg5 : FVec F S128x32 .f32) (main_arg6 : FVec F S32 .f32) (main_arg7 : FVec F S32x32 .f32) (main_arg8 : FVec F S32x32 .f32) (main_arg9 : FVec F S32 .f32) (main_arg10 : FVec F S32x32 .f32) (main_arg11 : FVec F S32x32 .f32) (main_arg12 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x32 .f32 := Host.absf main_arg3
  let main_cst_0 : FVec F S_ .f32 := constant S_ .f32 0x7F800000#32
  let main_v5 : FVec F S10000x32 .f32 := broadcastInDim S10000x32 ![] bcast_S_S10000x32 main_cst_0
  let main_v6 : IVec S10000x32 1 := cmpf .olt main_v4 main_v5
  let main_c_1 : IVec S_ 1 := constantI S_ 1 1#1
  let main_v7 : IVec S_ 1 := (fun x v => Host.reduce IntOp.andi x v reducesTo_S10000x32_S_d0_1 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg1 main_arg6 main_arg7 main_arg8 main_arg9 main_arg10 main_arg11 main_arg12 main_v13 main_v16
-- ==== Kernel.lean ====
abbrev S10000x128 : Shape := ⟨2, ![10000, 128]⟩
abbrev S320000 : Shape := ⟨1, ![320000]⟩
abbrev S10000x32 : Shape := ⟨2, ![10000, 32]⟩
abbrev S128x32 : Shape := ⟨2, ![128, 32]⟩
abbrev S32 : Shape := ⟨1, ![32]⟩
abbrev S32x32 : Shape := ⟨2, ![32, 32]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S10240x128 : Shape := ⟨2, ![10240, 128]⟩
abbrev S320000x128 : Shape := ⟨2, ![320000, 128]⟩
abbrev S1x32 : Shape := ⟨2, ![1, 32]⟩
abbrev S10240x32 : Shape := ⟨2, ![10240, 32]⟩
abbrev S1024x128 : Shape := ⟨2, ![1024, 128]⟩
abbrev S1024x32 : Shape := ⟨2, ![1024, 32]⟩
abbrev S320000x32 : Shape := ⟨2, ![320000, 32]⟩
abbrev S10240x10240 : Shape := ⟨2, ![10240, 10240]⟩
abbrev S1024x1024 : Shape := ⟨2, ![1024, 1024]⟩
abbrev S10000x10000 : Shape := ⟨2, ![10000, 10000]⟩

abbrev nBuf : Space → Nat
  | .hbm => 81
  | .vmem => 33
  | .smem => 0
  | _ => 0

abbrev bufTy : (tb : Table) → Fin (tcTables nBuf tb) → BufTy
  | .hbm, ⟨0, _⟩ => ⟨S10000x128, .f32⟩
  | .hbm, ⟨1, _⟩ => ⟨S320000, .i32⟩
  | .hbm, ⟨2, _⟩ => ⟨S320000, .i32⟩
  | .hbm, ⟨3, _⟩ => ⟨S10000x32, .f32⟩
  | .hbm, ⟨4, _⟩ => ⟨S128x32, .f32⟩
  | .hbm, ⟨5, _⟩ => ⟨S128x32, .f32⟩
  | .hbm, ⟨6, _⟩ => ⟨S32, .f32⟩
  | .hbm, ⟨7, _⟩ => ⟨S32x32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32x32, .f32⟩
  | .hbm, ⟨12, _⟩ => ⟨S32, .f32⟩
  | .hbm, ⟨13, _⟩ => ⟨S_, .f32⟩
  | .hbm, ⟨14, _⟩ => ⟨S320000, .f32⟩
  | .hbm, ⟨15, _⟩ => ⟨S_, .f32⟩
  | .hbm, ⟨16, _⟩ => ⟨S10000, .f32⟩
  | .hbm, ⟨17, _⟩ => ⟨S320000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000x1, .f32⟩
  | .hbm, ⟨26, _⟩ => ⟨S_, .i32⟩
  | .hbm, ⟨27, _⟩ => ⟨S_, .f32⟩
  | .hbm, ⟨28, _⟩ => ⟨S10240x128, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x128, .f32⟩
  | .hbm, ⟨38, _⟩ => ⟨S_, .f32⟩
  | .hbm, ⟨39, _⟩ => ⟨S10000x128, .f32⟩
  | .hbm, ⟨40, _⟩ => ⟨S320000x1, .i32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S_, .i32⟩
  | .hbm, ⟨45, _⟩ => ⟨S_, .f32⟩
  | .hbm, ⟨46, _⟩ => ⟨S10240x128, .f32⟩
  | .hbm, ⟨47, _⟩ => ⟨S1x32, .f32⟩
  | .hbm, ⟨48, _⟩ => ⟨S10240x32, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S320000x32, .f32⟩
  | .hbm, ⟨58, _⟩ => ⟨S_, .f32⟩
  | .hbm, ⟨59, _⟩ => ⟨S10000x32, .f32⟩
  | .hbm, ⟨60, _⟩ => ⟨S320000x1, .i32⟩
  | .hbm, ⟨61, _⟩ => ⟨S10000x32, .f32⟩
  | .hbm, ⟨62, _⟩ => ⟨S10000x32, .f32⟩
  | .hbm, ⟨63, _⟩ => ⟨S10000x32, .f32⟩
  | .hbm, ⟨64, _⟩ => ⟨S_, .i32⟩
  | .hbm, ⟨65, _⟩ => ⟨S_, .f32⟩
  | .hbm, ⟨66, _⟩ => ⟨S10240x32, .f32⟩
  | .hbm, ⟨67, _⟩ => ⟨S1x32, .f32⟩
  | .hbm, ⟨68, _⟩ => ⟨S10240x32, .f32⟩
  | .hbm, ⟨69, _⟩ => ⟨S1x32, .f32⟩
  | .hbm, ⟨70, _⟩ => ⟨S10240x32, .f32⟩
  | .hbm, ⟨71, _⟩ => ⟨S10000x32, .f32⟩
  | .hbm, ⟨72, _⟩ => ⟨S10000x32, .f32⟩
  | .hbm, ⟨73, _⟩ => ⟨S10000x32, .f32⟩
  | .hbm, ⟨74, _⟩ => ⟨S10000x32, .f32⟩
  | .hbm, ⟨75, _⟩ => ⟨S10000x32, .f32⟩
  | .hbm, ⟨76, _⟩ => ⟨S_, .i32⟩
  | .hbm, ⟨77, _⟩ => ⟨S_, .f32⟩
  | .hbm, ⟨78, _⟩ => ⟨S10240x32, .f32⟩
  | .hbm, ⟨79, _⟩ => ⟨S10240x10240, .f32⟩
  | .hbm, ⟨80, _⟩ => ⟨S10000x10000, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S128x32, .f32⟩
  | .local _ .vmem, ⟨5, _⟩ => ⟨S128x32, .f32⟩
  | .local _ .vmem, ⟨6, _⟩ => ⟨S1x32, .f32⟩
  | .local _ .vmem, ⟨7, _⟩ => ⟨S1024x32, .f32⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S32x32, .f32⟩
  | .local _ .vmem, ⟨14, _⟩ => ⟨S32x32, .f32⟩
  | .local _ .vmem, ⟨15, _⟩ => ⟨S1x32, .f32⟩
  | .local _ .vmem, ⟨16, _⟩ => ⟨S1024x32, .f32⟩
  | .local _ .vmem, ⟨17, _⟩ => ⟨S1024x32, .f32⟩
  | .local _ .vmem, ⟨18, _⟩ => ⟨S1024x32, .f32⟩
  | .local _ .vmem, ⟨19, _⟩ => ⟨S1024x32, .f32⟩
  | .local _ .vmem, ⟨20, _⟩ => ⟨S1024x32, .f32⟩
  | .local _ .vmem, ⟨21, _⟩ => ⟨S1024x32, .f32⟩
  | .local _ .vmem, ⟨22, _⟩ => ⟨S32x32, .f32⟩
  | .local _ .vmem, ⟨23, _⟩ => ⟨S32x32, .f32⟩
  | .local _ .vmem, ⟨24, _⟩ => ⟨S1x32, .f32⟩
  | .local _ .vmem, ⟨25, _⟩ => ⟨S1024x32, .f32⟩
  | .local _ .vmem, ⟨26, _⟩ => ⟨S1024x32, .f32⟩
  | .local _ .vmem, ⟨27, _⟩ => ⟨S1024x32, .f32⟩
  | .local _ .vmem, ⟨28, _⟩ => ⟨S1024x32, .f32⟩
  | .local _ .vmem, ⟨29, _⟩ => ⟨S1024x32, .f32⟩
  | .local _ .vmem, ⟨30, _⟩ => ⟨S1024x32, .f32⟩
  | .local _ .vmem, ⟨31, _⟩ => ⟨S1024x1024, .f32⟩
  | .local _ .vmem, ⟨32, _⟩ => ⟨S1024x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_call0_v0 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_6 : Ref sig .tc := ⟨.hbm, 44, rfl⟩
abbrev main_call1_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_7 : Ref sig .tc := ⟨.hbm, 49, rfl⟩
abbrev main_v25 : Ref sig .tc := ⟨.hbm, 50, rfl⟩
abbrev main_v26 : Ref sig .tc := ⟨.hbm, 51, rfl⟩
abbrev main_c_8 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_9 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_call2_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_call3_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![10, 10], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  pads_S10000x128_S10240x128_02400_000 : S10000x128.Pads (![0, 0] : Fin 2 → Nat) ![240, 0] ![0, 0] S10240x128
  h_S_ : 0 < S_.numel
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  shapeCasts_S32_S1x32 : S32.ShapeCasts S1x32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1024x32_S1024x32_0_0 : ∀ a, (![0, 0] : Fin 2 → Nat) a + S1024x32.size a ≤ S1024x32.size a
  h_S1024x32 : 0 < S1024x32.numel
  bcast_S_S10000x32 : S_.BroadcastsInDim S10000x32 (![] : Fin 0 → Fin S10000x32.rank)
  bcast_S10000x1_S10000x32_0_1 : S10000x1.BroadcastsInDim S10000x32 (![0, 1] : Fin 2 → Fin S10000x32.rank)
  pads_S10000x32_S10240x32_02400_000 : S10000x32.Pads (![0, 0] : Fin 2 → Nat) ![240, 0] ![0, 0] S10240x32
  shapeCasts_S1024x32_S1024x32 : S1024x32.ShapeCasts S1024x32
  inb_S32x32_S32x32_0_0 : ∀ a, (![0, 0] : Fin 2 → Nat) a + S32x32.size a ≤ S32x32.size a
  h_S32x32 : 0 < S32x32.numel
  slices_S10240x32_S10000x32_0_0 : S10240x32.Slices ![0, 0] S10000x32
  inb_S1024x1024_S1024x1024_0_0 : ∀ a, (![0, 0] : Fin 2 → Nat) a + S1024x1024.size a ≤ S1024x1024.size a
  h_S1024x1024 : 0 < S1024x1024.numel
  slices_S10240x10240_S10000x10000_0_0 : S10240x10240.Slices ![0, 0] S10000x10000
  scatter_S10000_S320000x1_S320000_n_0_0_1_wf : ScatterDims.WF S10000 S320000x1 S320000 [] [0] [0] 1
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S1024x128_S128x32_S1024x32_1_0_0_1_n_n_wf : DotDims.WF S1024x128 S128x32 S1024x32 [1] [0] [0] [1] [] []
  gather_S10240x32_S320000x1_S320000x32_1_0_n_n_0_1_132_wf : GatherDims.WF S10240x32 S320000x1 S320000x32 [1] [0] [] [0] [] 1 ![1, 32]
  scatter_S10000x32_S320000x1_S320000x32_1_0_0_1_wf : ScatterDims.WF S10000x32 S320000x1 S320000x32 [1] [0] [0] 1
  dot_S1024x32_S32x32_S1024x32_1_0_0_1_n_n_wf : DotDims.WF S1024x32 S32x32 S1024x32 [1] [0] [0] [1] [] []
  dot_S1024x32_S1024x32_S1024x1024_1_1_0_0_n_n_wf : DotDims.WF S1024x32 S1024x32 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S10240x128.size a
  hwx0_0 : ∀ i : grid0.Coords, EltTy.bits .f32 = 32 ∨ (Rect.block (s := S10240x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S10240x128.size a
  hwx0_1 : ∀ i : grid0.Coords, EltTy.bits .f32 = 32 ∨ (Rect.block (s := S10240x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x32.size a ≤ S10240x32.size a
  hwx0_5 : ∀ i : grid0.Coords, EltTy.bits .f32 = 32 ∨ (Rect.block (s := S10240x32) S1024x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S10240x32.size a
  hwx1_0 : ∀ i : grid1.Coords, EltTy.bits .f32 = 32 ∨ (Rect.block (s := S10240x32) S1024x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S10240x32.size a
  hwx1_1 : ∀ i : grid1.Coords, EltTy.bits .f32 = 32 ∨ (Rect.block (s := S10240x32) S1024x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x32.size a ≤ S10240x32.size a
  hwx1_5 : ∀ i : grid1.Coords, EltTy.bits .f32 = 32 ∨ (Rect.block (s := S10240x32) S1024x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x32.size a ≤ S10240x32.size a
  hwx2_0 : ∀ i : grid2.Coords, EltTy.bits .f32 = 32 ∨ (Rect.block (s := S10240x32) S1024x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S10240x32.size a
  hwx2_1 : ∀ i : grid2.Coords, EltTy.bits .f32 = 32 ∨ (Rect.block (s := S10240x32) S1024x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x32.size a ≤ S10240x32.size a
  hwx2_5 : ∀ i : grid2.Coords, EltTy.bits .f32 = 32 ∨ (Rect.block (s := S10240x32) S1024x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x32.size a ≤ S10240x32.size a
  hwx3_0 : ∀ i : grid3.Coords, EltTy.bits .f32 = 32 ∨ (Rect.block (s := S10240x32) S1024x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x32.size a ≤ S10240x32.size a
  hwx3_1 : ∀ i : grid3.Coords, EltTy.bits .f32 = 32 ∨ (Rect.block (s := S10240x32) S1024x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S10240x10240.size a
  hwx3_2 : ∀ i : grid3.Coords, EltTy.bits .f32 = 32 ∨ (Rect.block (s := S10240x10240) S1024x1024.size (cc3_transform_2 i) (hinb3_2 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def gather_S10240x32_S320000x1_S320000x32_1_0_n_n_0_1_132 : GatherDims S10240x32 S320000x1 S320000x32 where
  offsetDims := [1]
  collapsedSliceDims := [0]
  operandBatchingDims := []
  startIndicesBatchingDims := []
  startIndexMap := [0]
  indexVectorDim := 1
  sliceSizes := ![1, 32]
  wf := gather_S10240x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.ofSpec (Memref.whole main_v9) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1024x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1024x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S1024x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1024x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1024x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S1024x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1024x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S320000 : Shape := ⟨1, ![320000]⟩
abbrev S10000x32 : Shape := ⟨2, ![10000, 32]⟩
abbrev S128x32 : Shape := ⟨2, ![128, 32]⟩
abbrev S32 : Shape := ⟨1, ![32]⟩
abbrev S32x32 : Shape := ⟨2, ![32, 32]⟩
abbrev S_ : Shape := ⟨0, ![]⟩
abbrev S320000x1 : Shape := ⟨2, ![320000, 1]⟩
abbrev S320000x128 : Shape := ⟨2, ![320000, 128]⟩
abbrev S10000 : Shape := ⟨1, ![10000]⟩
abbrev S10000x1 : Shape := ⟨2, ![10000, 1]⟩
abbrev S1x32 : Shape := ⟨2, ![1, 32]⟩
abbrev S320000x32 : Shape := ⟨2, ![320000, 32]⟩
abbrev S32x10000 : Shape := ⟨2, ![32, 10000]⟩
abbrev S10000x10000 : Shape := ⟨2, ![10000, 10000]⟩

abbrev nBuf : Space → Nat
  | .hbm => 122
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000, .i32⟩
  | .hbm, ⟨2, _⟩ => ⟨S320000, .i32⟩
  | .hbm, ⟨3, _⟩ => ⟨S10000x32, .f32⟩
  | .hbm, ⟨4, _⟩ => ⟨S128x32, .f32⟩
  | .hbm, ⟨5, _⟩ => ⟨S128x32, .f32⟩
  | .hbm, ⟨6, _⟩ => ⟨S32, .f32⟩
  | .hbm, ⟨7, _⟩ => ⟨S32x32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32x32, .f32⟩
  | .hbm, ⟨12, _⟩ => ⟨S32, .f32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S320000x128, .f32⟩
  | .hbm, ⟨22, _⟩ => ⟨S_, .f32⟩
  | .hbm, ⟨23, _⟩ => ⟨S10000x128, .f32⟩
  | .hbm, ⟨24, _⟩ => ⟨S320000x1, .i32⟩
  | .hbm, ⟨25, _⟩ => ⟨S10000x128, .f32⟩
  | .hbm, ⟨26, _⟩ => ⟨S_, .f32⟩
  | .hbm, ⟨27, _⟩ => ⟨S320000, .f32⟩
  | .hbm, ⟨28, _⟩ => ⟨S_, .f32⟩
  | .hbm, ⟨29, _⟩ => ⟨S10000, .f32⟩
  | .hbm, ⟨30, _⟩ => ⟨S320000x1, .i32⟩
  | .hbm, ⟨31, _⟩ => ⟨S10000, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S10000x1, .f32⟩
  | .hbm, ⟨36, _⟩ => ⟨S10000x128, .f32⟩
  | .hbm, ⟨37, _⟩ => ⟨S10000x128, .f32⟩
  | .hbm, ⟨38, _⟩ => ⟨S10000x32, .f32⟩
  | .hbm, ⟨39, _⟩ => ⟨S10000x32, .f32⟩
  | .hbm, ⟨40, _⟩ => ⟨S10000x32, .f32⟩
  | .hbm, ⟨41, _⟩ => ⟨S1x32, .f32⟩
  | .hbm, ⟨42, _⟩ => ⟨S10000x32, .f32⟩
  | .hbm, ⟨43, _⟩ => ⟨S10000x32, .f32⟩
  | .hbm, ⟨44, _⟩ => ⟨S_, .f32⟩
  | .hbm, ⟨45, _⟩ => ⟨S10000x32, .f32⟩
  | .hbm, ⟨46, _⟩ => ⟨S10000x32, .f32⟩
  | .hbm, ⟨47, _⟩ => ⟨S_, .i32⟩
  | .hbm, ⟨48, _⟩ => ⟨S320000, .i32⟩
  | .hbm, ⟨49, _⟩ => ⟨S320000, .i1⟩
  | .hbm, ⟨50, _⟩ => ⟨S_, .i32⟩
  | .hbm, ⟨51, _⟩ => ⟨S320000, .i32⟩
  | .hbm, ⟨52, _⟩ => ⟨S320000, .i32⟩
  | .hbm, ⟨53, _⟩ => ⟨S320000, .i32⟩
  | .hbm, ⟨54, _⟩ => ⟨S320000x1, .i32⟩
  | .hbm, ⟨55, _⟩ => ⟨S320000x32, .f32⟩
  | .hbm, ⟨56, _⟩ => ⟨S_, .f32⟩
  | .hbm, ⟨57, _⟩ => ⟨S10000x32, .f32⟩
  | .hbm, ⟨58, _⟩ => ⟨S320000x1, .i32⟩
  | .hbm, ⟨59, _⟩ => ⟨S10000x32, .f32⟩
  | .hbm, ⟨60, _⟩ => ⟨S_, .f32⟩
  | .hbm, ⟨61, _⟩ => ⟨S320000, .f32⟩
  | .hbm, ⟨62, _⟩ => ⟨S_, .f32⟩
  | .hbm, ⟨63, _⟩ => ⟨S10000, .f32⟩
  | .hbm, ⟨64, _⟩ => ⟨S320000x1, .i32⟩
  | .hbm, ⟨65, _⟩ => ⟨S10000, .f32⟩
  | .hbm, ⟨66, _⟩ => ⟨S_, .f32⟩
  | .hbm, ⟨67, _⟩ => ⟨S10000, .f32⟩
  | .hbm, ⟨68, _⟩ => ⟨S10000, .f32⟩
  | .hbm, ⟨69, _⟩ => ⟨S10000x1, .f32⟩
  | .hbm, ⟨70, _⟩ => ⟨S10000x32, .f32⟩
  | .hbm, ⟨71, _⟩ => ⟨S10000x32, .f32⟩
  | .hbm, ⟨72, _⟩ => ⟨S10000x32, .f32⟩
  | .hbm, ⟨73, _⟩ => ⟨S10000x32, .f32⟩
  | .hbm, ⟨74, _⟩ => ⟨S10000x32, .f32⟩
  | .hbm, ⟨75, _⟩ => ⟨S1x32, .f32⟩
  | .hbm, ⟨76, _⟩ => ⟨S10000x32, .f32⟩
  | .hbm, ⟨77, _⟩ => ⟨S10000x32, .f32⟩
  | .hbm, ⟨78, _⟩ => ⟨S_, .i32⟩
  | .hbm, ⟨79, _⟩ => ⟨S320000, .i32⟩
  | .hbm, ⟨80, _⟩ => ⟨S320000, .i1⟩
  | .hbm, ⟨81, _⟩ => ⟨S_, .i32⟩
  | .hbm, ⟨82, _⟩ => ⟨S320000, .i32⟩
  | .hbm, ⟨83, _⟩ => ⟨S320000, .i32⟩
  | .hbm, ⟨84, _⟩ => ⟨S320000, .i32⟩
  | .hbm, ⟨85, _⟩ => ⟨S320000x1, .i32⟩
  | .hbm, ⟨86, _⟩ => ⟨S320000x32, .f32⟩
  | .hbm, ⟨87, _⟩ => ⟨S_, .f32⟩
  | .hbm, ⟨88, _⟩ => ⟨S10000x32, .f32⟩
  | .hbm, ⟨89, _⟩ => ⟨S320000x1, .i32⟩
  | .hbm, ⟨90, _⟩ => ⟨S10000x32, .f32⟩
  | .hbm, ⟨91, _⟩ => ⟨S_, .f32⟩
  | .hbm, ⟨92, _⟩ => ⟨S320000, .f32⟩
  | .hbm, ⟨93, _⟩ => ⟨S_, .f32⟩
  | .hbm, ⟨94, _⟩ => ⟨S10000, .f32⟩
  | .hbm, ⟨95, _⟩ => ⟨S320000x1, .i32⟩
  | .hbm, ⟨96, _⟩ => ⟨S10000, .f32⟩
  | .hbm, ⟨97, _⟩ => ⟨S_, .f32⟩
  | .hbm, ⟨98, _⟩ => ⟨S10000, .f32⟩
  | .hbm, ⟨99, _⟩ => ⟨S10000, .f32⟩
  | .hbm, ⟨100, _⟩ => ⟨S10000x1, .f32⟩
  | .hbm, ⟨101, _⟩ => ⟨S10000x32, .f32⟩
  | .hbm, ⟨102, _⟩ => ⟨S10000x32, .f32⟩
  | .hbm, ⟨103, _⟩ => ⟨S10000x32, .f32⟩
  | .hbm, ⟨104, _⟩ => ⟨S10000x32, .f32⟩
  | .hbm, ⟨105, _⟩ => ⟨S10000x32, .f32⟩
  | .hbm, ⟨106, _⟩ => ⟨S1x32, .f32⟩
  | .hbm, ⟨107, _⟩ => ⟨S10000x32, .f32⟩
  | .hbm, ⟨108, _⟩ => ⟨S10000x32, .f32⟩
  | .hbm, ⟨109, _⟩ => ⟨S10000x32, .f32⟩
  | .hbm, ⟨110, _⟩ => ⟨S10000x32, .f32⟩
  | .hbm, ⟨111, _⟩ => ⟨S10000x32, .f32⟩
  | .hbm, ⟨112, _⟩ => ⟨S32x10000, .f32⟩
  | .hbm, ⟨113, _⟩ => ⟨S10000x10000, .f32⟩
  | .hbm, ⟨114, _⟩ => ⟨S10000x10000, .f32⟩
  | .hbm, ⟨115, _⟩ => ⟨S10000x10000, .f32⟩
  | .hbm, ⟨116, _⟩ => ⟨S_, .f32⟩
  | .hbm, ⟨117, _⟩ => ⟨S10000x10000, .f32⟩
  | .hbm, ⟨118, _⟩ => ⟨S10000x10000, .f32⟩
  | .hbm, ⟨119, _⟩ => ⟨S_, .f32⟩
  | .hbm, ⟨120, _⟩ => ⟨S10000x10000, .f32⟩
  | .hbm, ⟨121, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_cst : Ref sig .tc := ⟨.hbm, 44, rfl⟩
abbrev main_call0_v0 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_16 : Ref sig .tc := ⟨.hbm, 116, rfl⟩
abbrev main_v83 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S10000x1_S10000x32_0_1 : S10000x1.BroadcastsInDim S10000x32 (![0, 1] : Fin 2 → Fin S10000x32.rank)
  transposes_S10000x32_S32x10000_1_0 : S10000x32.Transposes [1, 0] S32x10000
  bcast_S_S10000x10000 : S_.BroadcastsInDim S10000x10000 (![] : Fin 0 → Fin S10000x10000.rank)
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  scatter_S10000_S320000x1_S320000_n_0_0_1_wf : ScatterDims.WF S10000 S320000x1 S320000 [] [0] [0] 1
  dot_S10000x128_S128x32_S10000x32_1_0_0_1_n_n_wf : DotDims.WF S10000x128 S128x32 S10000x32 [1] [0] [0] [1] [] []
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  dot_S10000x32_S32x32_S10000x32_1_0_0_1_n_n_wf : DotDims.WF S10000x32 S32x32 S10000x32 [1] [0] [0] [1] [] []
  dot_S10000x32_S32x10000_S10000x10000_1_0_0_1_n_n_wf : DotDims.WF S10000x32 S32x10000 S10000x10000 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.Kernel.Region0.lean ====
/-
  The first combine call (the hidden layer), as one region of the program, at the contents V the region is entered with.

  The call walks ten row tiles.  At tile t it reads rows 1024 t .. 1024 t + 1023 of the padded features (window 0) and of
  the padded neighbour means (window 1), the two whole weight matrices (windows 2 and 3, fetched once and left in place)
  and the bias row (window 4); it writes the same rows of the result (window 5) as
      max (x W_self + m W_neigh + b, 0).
  Here: each window's block at a tile read off V, the tile's result as one function of the five input blocks, the body run
  on whole staging buffers, and the pipeline's proof data with its body obligation at every tile.
-/
import proofs.«401770_j62697932587536_1_alg».proof.Proof.Gen.Kernel.Launch
import proofs.«401770_j62697932587536_1_alg».proof.Proof.Gen.Kernel.Skeleton
import proofs.«401770_j62697932587536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every tile, whether or not it was fetched there: an unfetched
    window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S1024x128 := Rect.unit (s := S1024x128) ![0, 0] S1024x128.size inb_S1024x128_S1024x128_0_0
abbrev r0_w : Rect S128x32 := Rect.unit (s := S128x32) ![0, 0] S128x32.size inb_S128x32_S128x32_0_0
abbrev r0_b : Rect S1x32 := Rect.unit (s := S1x32) ![0, 0] S1x32.size inb_S1x32_S1x32_0_0
abbrev r0_o : Rect S1024x32 := Rect.unit (s := S1024x32) ![0, 0] S1024x32.size inb_S1024x32_S1024x32_0_0

/-! ## What the body leaves in the result window's buffer -/

/-- The result tile from the five input blocks: the body's one store, of the combine of the blocks read whole. -/
def out0_5 (x0 : Vec F S1024x128 .f32) (x1 : Vec F S1024x128 .f32) (x2 : Vec F S128x32 .f32) (x3 : Vec F S128x32 .f32) (x4 : Vec F S1x32 .f32) :
    Vec F S1024x32 .f32 :=
  View.canon [⟨r0_o, k0_pay1 (View.ld x0 r0_x) (View.ld x2 r0_w) (View.ld x1 r0_x) (View.ld x3 r0_w) (View.ld x4 r0_b)⟩]

/-- The one store covers the buffer. -/
theorem cover0_5 (p0 : Vec F S1024x32 .f32) (y : S1024x32.Idx) :
    ∃ pc ∈ ([⟨r0_o, p0⟩] : List (View.Piece (Elt F) S1024x32 .f32)), y ∈ pc.1.set :=
  View.cover_of_tiled [⟨r0_o, p0⟩] S1024x32.size (by rfl) y

/-! ## The body on whole staging buffers -/

set_option maxHeartbeats 1000000 in
/-- The body, its input buffers at x0 .. x4 and its result buffer at anything, runs to the continuation with the inputs
    as they were and the result buffer at the tile's result. -/
theorem sound_kernel0 (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S128x32 .f32) (harg3 : arg3.IsWhole) (arg4 : Memref sig .tc .vmem S128x32 .f32) (harg4 : arg4.IsWhole)
    (arg5 : Memref sig .tc .vmem S1x32 .f32) (harg5 : arg5.IsWhole) (arg6 : Memref sig .tc .vmem S1024x32 .f32) (harg6 : arg6.IsWhole)
    (x0 : Vec F S1024x128 .f32) (x1 : Vec F S1024x128 .f32) (x2 : Vec F S128x32 .f32) (x3 : Vec F S128x32 .f32) (x4 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_combine_kernel i arg1 harg1 arg2 harg2 arg3 harg3 arg4 harg4 arg5 harg5 arg6 harg6) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the call on core c: the arrays as the region finds them; after the body at tile t each input
    buffer at its block and the result buffer at the tile's result; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a tile -/

/-- What the body is called with at tile t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any tile: the input buffers hold their blocks, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every tile. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
/-
  The second combine call (the mean), as one region of the program, at the contents V the region is entered with.

  The call walks ten row tiles.  At tile t it reads rows 1024 t .. 1024 t + 1023 of the hidden rows (window 0) and of
  the padded neighbour means (window 1), the two whole weight matrices (windows 2 and 3, fetched once and left in place)
  and the bias row (window 4); it writes the same rows of the result (window 5) as
      x W_self + m W_neigh + b.
  Here: each window's block at a tile read off V, the tile's result as one function of the five input blocks, the body run
  on whole staging buffers, and the pipeline's proof data with its body obligation at every tile.
-/
import proofs.«401770_j62697932587536_1_alg».proof.Proof.Gen.Kernel.Launch
import proofs.«401770_j62697932587536_1_alg».proof.Proof.Gen.Kernel.Skeleton
import proofs.«401770_j62697932587536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every tile, whether or not it was fetched there: an unfetched
    window's block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_x : Rect S1024x32 := Rect.unit (s := S1024x32) ![0, 0] S1024x32.size inb_S1024x32_S1024x32_0_0
abbrev r1_w : Rect S32x32 := Rect.unit (s := S32x32) ![0, 0] S32x32.size inb_S32x32_S32x32_0_0
abbrev r1_b : Rect S1x32 := Rect.unit (s := S1x32) ![0, 0] S1x32.size inb_S1x32_S1x32_0_0
abbrev r1_o : Rect S1024x32 := Rect.unit (s := S1024x32) ![0, 0] S1024x32.size inb_S1024x32_S1024x32_0_0

/-! ## What the body leaves in the result window's buffer -/

/-- The result tile from the five input blocks: the body's one store, of the combine of the blocks read whole. -/
def out1_5 (x0 : Vec F S1024x32 .f32) (x1 : Vec F S1024x32 .f32) (x2 : Vec F S32x32 .f32) (x3 : Vec F S32x32 .f32) (x4 : Vec F S1x32 .f32) :
    Vec F S1024x32 .f32 :=
  View.canon [⟨r1_o, k1_pay1 (View.ld x0 r1_x) (View.ld x2 r1_w) (View.ld x1 r1_x) (View.ld x3 r1_w) (View.ld x4 r1_b)⟩]

/-- The one store covers the buffer. -/
theorem cover1_5 (p0 : Vec F S1024x32 .f32) (y : S1024x32.Idx) :
    ∃ pc ∈ ([⟨r1_o, p0⟩] : List (View.Piece (Elt F) S1024x32 .f32)), y ∈ pc.1.set :=
  View.cover_of_tiled [⟨r1_o, p0⟩] S1024x32.size (by rfl) y

/-! ## The body on whole staging buffers -/

set_option maxHeartbeats 1000000 in
/-- The body, its input buffers at x0 .. x4 and its result buffer at anything, runs to the continuation with the inputs
    as they were and the result buffer at the tile's result. -/
theorem sound_kernel1 (c : Dev nD) (E : Set ℕ) (i : grid1.Coords)
    (arg1 : Memref sig .tc .vmem S1024x32 .f32) (harg1 : arg1.IsWhole) (arg2 : Memref sig .tc .vmem S1024x32 .f32) (harg2 : arg2.IsWhole)
    (arg3 : Memref sig .tc .vmem S32x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S1024x32 .f32) (harg6 : arg6.IsWhole)
    (x0 : Vec F S1024x32 .f32) (x1 : Vec F S1024x32 .f32) (x2 : Vec F S32x32 .f32) (x3 : Vec F S32x32 .f32) (x4 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_combine_kernel i arg1 harg1 arg2 harg2 arg3 harg3 arg4 harg4 arg5 harg5 arg6 harg6) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the call on core c: the arrays as the region finds them; after the body at tile t each input
    buffer at its block and the result buffer at the tile's result; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a tile -/

/-- What the body is called with at tile t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the input buffers hold their blocks, so the body's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every tile. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Region2.lean ====
/-
  The third combine call (the log-deviation), as one region of the program, at the contents V the region is entered with.

  The call walks ten row tiles.  At tile t it reads rows 1024 t .. 1024 t + 1023 of the hidden rows (window 0) and of
  the padded neighbour means (window 1), the two whole weight matrices (windows 2 and 3, fetched once and left in place)
  and the bias row (window 4); it writes the same rows of the result (window 5) as
      x W_self + m W_neigh + b.
  Here: each window's block at a tile read off V, the tile's result as one function of the five input blocks, the body run
  on whole staging buffers, and the pipeline's proof data with its body obligation at every tile.
-/
import proofs.«401770_j62697932587536_1_alg».proof.Proof.Gen.Kernel.Launch
import proofs.«401770_j62697932587536_1_alg».proof.Proof.Gen.Kernel.Skeleton
import proofs.«401770_j62697932587536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every tile, whether or not it was fetched there: an unfetched
    window's block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S1024x32 := Rect.unit (s := S1024x32) ![0, 0] S1024x32.size inb_S1024x32_S1024x32_0_0
abbrev r2_w : Rect S32x32 := Rect.unit (s := S32x32) ![0, 0] S32x32.size inb_S32x32_S32x32_0_0
abbrev r2_b : Rect S1x32 := Rect.unit (s := S1x32) ![0, 0] S1x32.size inb_S1x32_S1x32_0_0
abbrev r2_o : Rect S1024x32 := Rect.unit (s := S1024x32) ![0, 0] S1024x32.size inb_S1024x32_S1024x32_0_0

/-! ## What the body leaves in the result window's buffer -/

/-- The result tile from the five input blocks: the body's one store, of the combine of the blocks read whole. -/
def out2_5 (x0 : Vec F S1024x32 .f32) (x1 : Vec F S1024x32 .f32) (x2 : Vec F S32x32 .f32) (x3 : Vec F S32x32 .f32) (x4 : Vec F S1x32 .f32) :
    Vec F S1024x32 .f32 :=
  View.canon [⟨r2_o, k2_pay1 (View.ld x0 r2_x) (View.ld x2 r2_w) (View.ld x1 r2_x) (View.ld x3 r2_w) (View.ld x4 r2_b)⟩]

/-- The one store covers the buffer. -/
theorem cover2_5 (p0 : Vec F S1024x32 .f32) (y : S1024x32.Idx) :
    ∃ pc ∈ ([⟨r2_o, p0⟩] : List (View.Piece (Elt F) S1024x32 .f32)), y ∈ pc.1.set :=
  View.cover_of_tiled [⟨r2_o, p0⟩] S1024x32.size (by rfl) y

/-! ## The body on whole staging buffers -/

set_option maxHeartbeats 1000000 in
/-- The body, its input buffers at x0 .. x4 and its result buffer at anything, runs to the continuation with the inputs
    as they were and the result buffer at the tile's result. -/
theorem sound_kernel2 (c : Dev nD) (E : Set ℕ) (i : grid2.Coords)
    (arg1 : Memref sig .tc .vmem S1024x32 .f32) (harg1 : arg1.IsWhole) (arg2 : Memref sig .tc .vmem S1024x32 .f32) (harg2 : arg2.IsWhole)
    (arg3 : Memref sig .tc .vmem S32x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S1024x32 .f32) (harg6 : arg6.IsWhole)
    (x0 : Vec F S1024x32 .f32) (x1 : Vec F S1024x32 .f32) (x2 : Vec F S32x32 .f32) (x3 : Vec F S32x32 .f32) (x4 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__sage_combine_kernel i arg1 harg1 arg2 harg2 arg3 harg3 arg4 harg4 arg5 harg5 arg6 harg6) K := by
  simp only [cc2__sage_combine_kernel_eq_skeleton]; unfold cc2__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the call on core c: the arrays as the region finds them; after the body at tile t each input
    buffer at its block and the result buffer at the tile's result; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a tile -/

/-- What the body is called with at tile t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any tile: the input buffers hold their blocks, so the body's run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every tile. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Region3.lean ====
/-
  The decode call, as one region of the program, at the contents V the region is entered with.

  The call walks a 10 x 10 grid of tiles.  At tile (i, j) it reads rows 1024 i .. of the padded codes (window 0) and rows
  1024 j .. of the same array (window 1), and writes the tile (i, j) of the result (window 2): the logistic of the inner
  products of the rows of the first block with the rows of the second.  The two input windows read ONE array; each holds
  it at half the share.
  Here: each window's block at a tile read off V, the tile's result as one function of the two input blocks, the body run
  on whole staging buffers, and the pipeline's proof data with its body obligation at every tile.
-/
import proofs.«401770_j62697932587536_1_alg».proof.Proof.Gen.Kernel.Launch
import proofs.«401770_j62697932587536_1_alg».proof.Proof.Gen.Kernel.Skeleton
import proofs.«401770_j62697932587536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every tile, whether or not it was fetched there: an unfetched
    window's block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_z : Rect S1024x32 := Rect.unit (s := S1024x32) ![0, 0] S1024x32.size inb_S1024x32_S1024x32_0_0
abbrev r3_o : Rect S1024x1024 := Rect.unit (s := S1024x1024) ![0, 0] S1024x1024.size inb_S1024x1024_S1024x1024_0_0

/-! ## What the body leaves in the result window's buffer -/

/-- The result tile from the two input blocks: the body's one store. -/
def out3_2 (x0 : Vec F S1024x32 .f32) (x1 : Vec F S1024x32 .f32) : Vec F S1024x1024 .f32 :=
  View.canon [⟨r3_o, k3_pay1 (View.ld x0 r3_z) (View.ld x1 r3_z)⟩]

/-- The one store covers the buffer. -/
theorem cover3_2 (p0 : Vec F S1024x1024 .f32) (y : S1024x1024.Idx) :
    ∃ pc ∈ ([⟨r3_o, p0⟩] : List (View.Piece (Elt F) S1024x1024 .f32)), y ∈ pc.1.set :=
  View.cover_of_tiled [⟨r3_o, p0⟩] S1024x1024.size (by rfl) y

/-! ## The body on whole staging buffers -/

set_option maxHeartbeats 1000000 in
/-- The body, its input buffers at x0, x1 and its result buffer at anything, runs to the continuation with the inputs
    as they were and the result buffer at the tile's result. -/
theorem sound_kernel3 (c : Dev nD) (E : Set ℕ) (i : grid3.Coords)
    (arg2 : Memref sig .tc .vmem S1024x32 .f32) (harg2 : arg2.IsWhole) (arg3 : Memref sig .tc .vmem S1024x32 .f32) (harg3 : arg3.IsWhole)
    (arg4 : Memref sig .tc .vmem S1024x1024 .f32) (harg4 : arg4.IsWhole)
    (x0 : Vec F S1024x32 .f32) (x1 : Vec F S1024x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the call on core c: the arrays as the region finds them; after the body at tile t each input
    buffer at its block and the result buffer at the tile's result; nothing owed; the array the two input windows read
    held at one half of the share by each. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation at a tile -/

/-- What the body is called with at tile t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any tile: the input buffers hold their blocks, so the body's run applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every tile. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Fold.lean ====
/-
  The contents of the core's buffers at every boundary of the program, from the launch to the return.

  The program is sixteen items: stretches of host operations and the four calls.  A host stretch leaves every buffer at
  what its operations compute from the contents before it; a call leaves its result array at what its tiles wrote and
  every other buffer as it found it.  W0 is the launch memory, W(J+1) the contents after item J; V(J) is W(J) read at the
  TensorCore's references, which is what a call's proof data take.
-/
import proofs.«401770_j62697932587536_1_alg».proof.Proof.Kernel.Region0
import proofs.«401770_j62697932587536_1_alg».proof.Proof.Kernel.Region1
import proofs.«401770_j62697932587536_1_alg».proof.Proof.Kernel.Region2
import proofs.«401770_j62697932587536_1_alg».proof.Proof.Kernel.Region3
import proofs.«401770_j62697932587536_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The first call's entry. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- The first call's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
abbrev W8 : Dev nD → Valuation τ sig (Elt F) := fun c => StableHlo.after hostOps1_1 (W7 m ρ c)
/-- The second call's entry. -/
abbrev W9 : Dev nD → Valuation τ sig (Elt F) := fun c => StableHlo.after hostOps1_2 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev V10 : (c : Dev nD) → (b : Ref sig .tc) → Buf (Elt F) ((c : Thread nD τ).loc b) := fun c b => W10 m ρ c b
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

/-- The third call's entry. -/
abbrev W11 : Dev nD → Valuation τ sig (Elt F) := fun c => StableHlo.after hostOps2 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps3 (W12 m ρ c)
/-- The decode call's entry. -/
abbrev W14 : Dev nD → Valuation τ sig (Elt F) := fun c => StableHlo.after hostOps3_1 (W13 m ρ c)
abbrev V14 : (c : Dev nD) → (b : Ref sig .tc) → Buf (Elt F) ((c : Thread nD τ).loc b) := fun c b => W14 m ρ c b
/-- The decode call's exit: its one result array at what the pipeline leaves, every other buffer (the array its two
    input windows read among them) as entered. -/
def W15 (c : Dev nD) : Valuation τ sig (Elt F) :=
  Function.update (W14 m ρ c) (Proc.devRef .tc main_v48) ((dat3 (V14 m ρ) c).arrAt 2 cfg3.N)
theorem W15_out (c : Dev nD) : W15 m ρ c (Proc.devRef .tc main_v48) = (dat3 (V14 m ρ) c).arrAt 2 cfg3.N := by
  unfold W15; exact Function.update_self _ _ _
theorem W15_of_ne (c : Dev nD) (b : Ref sig .tc) (hb : b ≠ main_v48) :
    W15 m ρ c (Proc.devRef .tc b) = W14 m ρ c (Proc.devRef .tc b) := by
  unfold W15; exact Function.update_of_ne (StableHlo.devRef_ne_of_ne hb) _ _
abbrev V15 : (c : Dev nD) → (b : Ref sig .tc) → Buf (Elt F) ((c : Thread nD τ).loc b) := fun c b => W15 m ρ c b
/-- The contents at the return. -/
abbrev W16 : Dev nD → Valuation τ sig (Elt F) := fun c => StableHlo.after hostOps4 (W15 m ρ c)

/-! ## A buffer no item writes ends as launched -/

/-- A reference that no host stretch writes and that is no call's result array ends holding its launch contents. -/
theorem W16_of_unwritten (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : ∀ w, Pipeline.arrRef spec0 w = r → (cfg0.win w).isOut = false)
    (h6 : r ∉ hostOps1_W) (h7 : r ∉ hostOps1_1_W) (h8 : r ∉ hostOps1_2_W)
    (h9 : ∀ w, Pipeline.arrRef spec1 w = r → (cfg1.win w).isOut = false)
    (h10 : r ∉ hostOps2_W)
    (h11 : ∀ w, Pipeline.arrRef spec2 w = r → (cfg2.win w).isOut = false)
    (h12 : r ∉ hostOps3_W) (h13 : r ∉ hostOps3_1_W) (h14 : r ≠ main_v48) (h15 : r ∉ hostOps4_W) :
    W16 m ρ c (Proc.devRef .tc r) = m ((c : Thread nD τ).loc r) := by
  have e16 : W16 m ρ c (Proc.devRef .tc r) = W15 m ρ c (Proc.devRef .tc r) := StableHlo.after_of_writes_sub hostOps4 _ hostOps4_writes h15
  have e15 : W15 m ρ c (Proc.devRef .tc r) = W14 m ρ c (Proc.devRef .tc r) := W15_of_ne m ρ c r h14
  have e14 : W14 m ρ c (Proc.devRef .tc r) = W13 m ρ c (Proc.devRef .tc r) := StableHlo.after_of_writes_sub hostOps3_1 _ hostOps3_1_writes h13
  have e13 : W13 m ρ c (Proc.devRef .tc r) = W12 m ρ c (Proc.devRef .tc r) := StableHlo.after_of_writes_sub hostOps3 _ hostOps3_writes h12
  have e12 : W12 m ρ c (Proc.devRef .tc r) = W11 m ρ c (Proc.devRef .tc r) := by
    by_cases hw : ∃ w, Pipeline.arrRef spec2 w = r
    · obtain ⟨w, rfl⟩ := hw
      exact (W12_arr m ρ c w).trans (((dat2 (V11 m ρ) c).arrAt_in w (h11 w rfl) _).trans (A_eq2 (V11 m ρ) c w))
    · exact W12_of_ne m ρ c r fun w e => hw ⟨w, e⟩
  have e11 : W11 m ρ c (Proc.devRef .tc r) = W10 m ρ c (Proc.devRef .tc r) := StableHlo.after_of_writes_sub hostOps2 _ hostOps2_writes h10
  have e10 : W10 m ρ c (Proc.devRef .tc r) = W9 m ρ c (Proc.devRef .tc r) := by
    by_cases hw : ∃ w, Pipeline.arrRef spec1 w = r
    · obtain ⟨w, rfl⟩ := hw
      exact (W10_arr m ρ c w).trans (((dat1 (V9 m ρ) c).arrAt_in w (h9 w rfl) _).trans (A_eq1 (V9 m ρ) c w))
    · exact W10_of_ne m ρ c r fun w e => hw ⟨w, e⟩
  have e9 : W9 m ρ c (Proc.devRef .tc r) = W8 m ρ c (Proc.devRef .tc r) := StableHlo.after_of_writes_sub hostOps1_2 _ hostOps1_2_writes h8
  have e8 : W8 m ρ c (Proc.devRef .tc r) = W7 m ρ c (Proc.devRef .tc r) := StableHlo.after_of_writes_sub hostOps1_1 _ hostOps1_1_writes h7
  have e7 : W7 m ρ c (Proc.devRef .tc r) = W6 m ρ c (Proc.devRef .tc r) := StableHlo.after_of_writes_sub hostOps1 _ hostOps1_writes h6
  have e6 : W6 m ρ c (Proc.devRef .tc r) = W5 m ρ c (Proc.devRef .tc r) := by
    by_cases hw : ∃ w, Pipeline.arrRef spec0 w = r
    · obtain ⟨w, rfl⟩ := hw
      exact (W6_arr m ρ c w).trans (((dat0 (V5 m ρ) c).arrAt_in w (h5 w rfl) _).trans (A_eq0 (V5 m ρ) c w))
    · exact W6_of_ne m ρ c r fun w e => hw ⟨w, e⟩
  have e5 : W5 m ρ c (Proc.devRef .tc r) = W4 m ρ c (Proc.devRef .tc r) := StableHlo.after_of_writes_sub hostOps0_4 _ hostOps0_4_writes h4
  have e4 : W4 m ρ c (Proc.devRef .tc r) = W3 m ρ c (Proc.devRef .tc r) := StableHlo.after_of_writes_sub hostOps0_3 _ hostOps0_3_writes h3
  have e3 : W3 m ρ c (Proc.devRef .tc r) = W2 m ρ c (Proc.devRef .tc r) := StableHlo.after_of_writes_sub hostOps0_2 _ hostOps0_2_writes h2
  have e2 : W2 m ρ c (Proc.devRef .tc r) = W1 m ρ c (Proc.devRef .tc r) := StableHlo.after_of_writes_sub hostOps0_1 _ hostOps0_1_writes h1
  have e1 : W1 m ρ c (Proc.devRef .tc r) = W0 m ρ c (Proc.devRef .tc r) := StableHlo.after_of_writes_sub hostOps0 _ hostOps0_writes h0
  exact e16.trans (e15.trans (e14.trans (e13.trans (e12.trans (e11.trans (e10.trans (e9.trans (e8.trans (e7.trans (e6.trans
    (e5.trans (e4.trans (e3.trans (e2.trans (e1.trans rfl)))))))))))))))

end Cert.Kernel.Hand

end
-- ==== Proof.Kernel.Data.lean ====
/-
  Every call's proof data at its entry contents, and the state a core carries between the program's items: every unscoped
  buffer held whole at the boundary's contents, the generator register at some state, and nothing owed.
-/
import proofs.«401770_j62697932587536_1_alg».proof.Proof.Kernel.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No call prefetches a table. -/
abbrev adm : (p : Fin 4) → (pcfgs (F := F) p).Adm := fun p => (cfgs p).toPCfg_adm

/-- Every call's proof data, each at its entry contents. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V9 m ρ) c
  | ⟨2, _⟩ => fun c => dat2 (V11 m ρ) c
  | ⟨3, _⟩ => fun c => dat3 (V14 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state and the core owing nothing. -/
abbrev R (c : Dev nD) : sProp 𝕄 := iprop((∃ r, prngReg c r) ∗ ∃ W, owes (c : Thread nD τ) (0 : CellTallies nD τ sig Unit) W)

/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without what the core owes: every unscoped buffer at the return's contents, the generator register. -/
abbrev Tₙ (c : Dev nD) : sProp 𝕄 := iprop(StableHlo.held (c : Thread nD τ) (Pipeline.ucRefs τ sig) (W16 m ρ c) ∗ ∃ r, prngReg c r)

end Cert.Kernel.Hand

end
-- ==== Proof.Kernel.Reg0.lean ====
/-
  Call 0 of the program as one item: entered from every unscoped buffer at the contents before it, left with its result
  array at what its tiles wrote and every other buffer as found.  Its arrays are split out of the unscoped buffers on
  entry and put back on exit; the generator register passes through the call's invariant; nothing is owed.
-/
import proofs.«401770_j62697932587536_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Reg1.lean ====
/-
  Call 1 of the program as one item: entered from every unscoped buffer at the contents before it, left with its result
  array at what its tiles wrote and every other buffer as found.  Its arrays are split out of the unscoped buffers on
  entry and put back on exit; the generator register passes through the call's invariant; nothing is owed.
-/
import proofs.«401770_j62697932587536_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Reg2.lean ====
/-
  Call 2 of the program as one item: entered from every unscoped buffer at the contents before it, left with its result
  array at what its tiles wrote and every other buffer as found.  Its arrays are split out of the unscoped buffers on
  entry and put back on exit; the generator register passes through the call's invariant; nothing is owed.
-/
import proofs.«401770_j62697932587536_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Reg3.lean ====
/-
  The decode call as one item of the program.  Its two input windows read ONE array, the padded codes; each holds it at
  one half of the share.  On entry the unscoped buffers give the two arrays behind the windows whole; the padded codes'
  holding is cut into its two halves, one per input window.  On exit the halves, still at the contents found, are joined
  again, the result array is held at what the tiles wrote, and every other buffer is as found.
-/
import proofs.«401770_j62697932587536_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the call's three windows are two: the padded codes and the result. -/
theorem image_arr3 : (Finset.univ.image (Pipeline.arrRef spec3) : Finset (Ref sig .tc)) = {main_v47, main_v48} := by decide

section
variable (V : (c : Dev nD) → (b : Ref sig .tc) → Buf (Elt F) ((c : Thread nD τ).loc b))

/-- The two buffers whole, one by one. -/
theorem arrBufs3_eq (c : Dev nD) (Vc : (b : Ref sig .tc) → Buf (Elt F) ((c : Thread nD τ).loc b)) :
    (Pipeline.arrBufs (Ix := Unit) (Name := ℕ) (U := UR sig nD τ) (Lvl := ℕ) spec3 c Vc : sProp 𝕄)
      = iprop((((c : Thread nD τ).loc main_v47) ↦{fullShare} Vc main_v47) ∗ (((c : Thread nD τ).loc main_v48) ↦{fullShare} Vc main_v48)) := by
  unfold Pipeline.arrBufs
  rw [image_arr3, bigSep_insert (by decide), bigSep_singleton]
  rfl

/-- The call's arrays at contents Fa, one window at a time: the padded codes at the two halves, the result whole. -/
theorem arrays3_eq (c : Dev nD) (Fa : (w : Fin cfg3.W) → Buf (Elt F) ((cfg3.win w).arr.view.loc (c : Thread nD τ))) :
    ((dat3 V c).arrays Fa : sProp 𝕄)
      = iprop((((c : Thread nD τ).loc main_v47) ↦{fullShare.left} Fa 0) ∗ (((c : Thread nD τ).loc main_v47) ↦{fullShare.right} Fa 1)
          ∗ (((c : Thread nD τ).loc main_v48) ↦{fullShare} Fa 2)) := by
  unfold Dat.arrays
  rw [bigSep_W3, (arr_whole3 0).set_eq_univ, (arr_whole3 2).set_eq_univ]
  rfl
end

/-- ENTRY: the unscoped buffers at the entry contents give the call's arrays at their entry contents and the rest. -/
theorem arrays3_of_unscopedBufs (c : Dev nD) :
    (unscopedBufs (Ix := Unit) (Name := ℕ) (U := UR sig nD τ) (Lvl := ℕ) c (V14 m ρ c) : sProp 𝕄)
      ⊢ iprop((pdats m ρ 3 c).arrays ((pdats m ρ 3 c).arrAt · 0) ∗ Pipeline.unscopedRest spec3 c (V14 m ρ c)) := by
  rw [Pipeline.unscopedBufs_split₀ (Pipeline.pin (pcfgs (F := F)) adm) 3 winFacts₀3.arr_unscoped c (V14 m ρ c)]
  show iprop(Pipeline.arrBufs spec3 c (V14 m ρ c) ∗ Pipeline.unscopedRest spec3 c (V14 m ρ c))
    ⊢ iprop((dat3 (V14 m ρ) c).arrays ((dat3 (V14 m ρ) c).arrAt · 0) ∗ Pipeline.unscopedRest spec3 c (V14 m ρ c))
  rw [arrBufs3_eq c (V14 m ρ c), arrays3_eq (V14 m ρ) c]
  iintro ⟨⟨Hz, Ho⟩, Hrest⟩
  ihave Hz' := (pointsTo_share (PosShare.mem_left_op_right fullShare)).1 $$ Hz
  icases Hz' with ⟨Hl, Hr⟩
  isplitl [Hl Hr Ho]
  · isplitl [Hl]; · iexact Hl
    isplitl [Hr]; · iexact Hr
    iexact Ho
  iexact Hrest

/-- EXIT: the call's arrays at their exit contents and the rest give the unscoped buffers at the exit contents. -/
theorem unscopedBufs_of_arrays3 (c : Dev nD) :
    iprop((pdats m ρ 3 c).arrays ((pdats m ρ 3 c).arrAt · cfg3.N) ∗ Pipeline.unscopedRest spec3 c (V14 m ρ c))
      ⊢ (unscopedBufs (Ix := Unit) (Name := ℕ) (U := UR sig nD τ) (Lvl := ℕ) c (V15 m ρ c) : sProp 𝕄) := by
  rw [Pipeline.unscopedBufs_split₀ (Pipeline.pin (pcfgs (F := F)) adm) 3 winFacts₀3.arr_unscoped c (V15 m ρ c)]
  show iprop((dat3 (V14 m ρ) c).arrays ((dat3 (V14 m ρ) c).arrAt · cfg3.N) ∗ Pipeline.unscopedRest spec3 c (V14 m ρ c))
    ⊢ iprop(Pipeline.arrBufs spec3 c (V15 m ρ c) ∗ Pipeline.unscopedRest spec3 c (V15 m ρ c))
  rw [arrBufs3_eq c (V15 m ρ c), arrays3_eq (V14 m ρ) c]
  have h0 : (dat3 (V14 m ρ) c).arrAt 0 cfg3.N = V15 m ρ c main_v47 :=
    (((dat3 (V14 m ρ) c).arrAt_in 0 rfl _).trans (A_eq3 (V14 m ρ) c 0)).trans (W15_of_ne m ρ c main_v47 (by decide)).symm
  have h1 : (dat3 (V14 m ρ) c).arrAt 1 cfg3.N = V15 m ρ c main_v47 :=
    (((dat3 (V14 m ρ) c).arrAt_in 1 rfl _).trans (A_eq3 (V14 m ρ) c 1)).trans (W15_of_ne m ρ c main_v47 (by decide)).symm
  have h2 : (dat3 (V14 m ρ) c).arrAt 2 cfg3.N = V15 m ρ c main_v48 := (W15_out m ρ c).symm
  have hrest : (Pipeline.unscopedRest (Ix := Unit) (Name := ℕ) (U := UR sig nD τ) (Lvl := ℕ) spec3 c (V14 m ρ c) : sProp 𝕄)
      = Pipeline.unscopedRest spec3 c (V15 m ρ c) := by
    unfold Pipeline.unscopedRest
    refine bigSep_congr fun b hb => ?_
    have hb' : b ∉ Finset.univ.image (Pipeline.arrRef spec3) := (Finset.mem_sdiff.mp hb).2
    rw [image_arr3] at hb'
    have hne : b ≠ main_v48 := fun e => hb' (by rw [e]; exact Finset.mem_insert_of_mem (Finset.mem_singleton_self _))
    rw [show V15 m ρ c b = V14 m ρ c b from W15_of_ne m ρ c b hne]
  rw [h0, h1, h2, hrest]
  iintro ⟨⟨Hl, Hr, Ho⟩, Hrest⟩
  isplitl [Hl Hr Ho]
  · isplitl [Hl Hr]
    · iapply (pointsTo_share (PosShare.mem_left_op_right fullShare)).2
      isplitl [Hl] <;> iassumption
    iexact Ho
  iexact Hrest

set_option backward.isDefEq.respectTransparency.types false in
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V14 m ρ) c).loose
  hwaits := Pipeline.hwaits_of_owed_zero _ _ _ _ L lv 3 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec3 c (V14 m ρ c)
  hentry c := by
    rw [Pipeline.ownSems0_none]
    have hsplit := arrays3_of_unscopedBufs m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Run.lean ====
/-
  The run of the program: from any memory with zero counters, every weakly fair execution terminates, nothing faulting,
  and at the return every unscoped buffer of every core holds the contents W16 of Fold.lean.

  The program is the sequence of its sixteen items; each item is entered from the state the one before it left (every
  unscoped buffer at that boundary's contents, the generator register, nothing owed), so the states chain by definition.
  The launch deals the first state; the last is read against the final memory.
-/
import proofs.«401770_j62697932587536_1_alg».proof.Proof.Kernel.Reg0
import proofs.«401770_j62697932587536_1_alg».proof.Proof.Kernel.Reg1
import proofs.«401770_j62697932587536_1_alg».proof.Proof.Kernel.Reg2
import proofs.«401770_j62697932587536_1_alg».proof.Proof.Kernel.Reg3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's sixteen items in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .region (reg1 m ρ),
    .host (hseg hostOps2 hostOps2_sub hostOps2_fresh (W10 m ρ)),
    .region (reg2 m ρ),
    .host (hseg hostOps3 hostOps3_sub hostOps3_fresh (W12 m ρ)),
    .host (hseg hostOps3_1 hostOps3_1_sub hostOps3_1_fresh (W13 m ρ)),
    .region (reg3 m ρ),
    .host (hseg hostOps4 hostOps4_sub hostOps4_fresh (W15 m ρ)) ]

/-- The program IS the run of the segments. -/
theorem main_run (c : Dev nD) : main (F := F) c = Pipeline.Seg.run (segs m ρ) := (main_chain c).trans (by chain_rfl)

set_option backward.isDefEq.respectTransparency.types false in
/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W16 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- A TensorCore reference's buffer at the return. -/
theorem run_ref : θ_run defs (onTc (τ := τ) (main (F := F))) ⟨m, fun _ => 0, ρ⟩ (fun r => ∀ c : Dev nD,
      ∀ (b : Ref sig .tc), ¬ (Proc.devRef .tc b : DevRef τ sig).isScoped → r.2.mem ((c.tc : Thread nD τ).loc b) = W16 m ρ c (Proc.devRef .tc b)) :=
  (θ_run defs _ _).mono (fun _ h c b hb => h c _ (mem_uc b hb)) (run_all m ρ)

end Cert.Kernel.Hand

end
-- ==== Proof.Kernel.Frame.lean ====
/-
  The program's frame: every weakly fair execution terminates, nothing faulting, and each of the thirteen argument arrays
  ends holding what it held at launch.  No host operation writes an argument and no call has one as its result array, so at
  the return's contents an argument's buffer reads back, item by item, to the launch memory.
-/
import proofs.«401770_j62697932587536_1_alg».proof.Proof.Kernel.Run

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ) (ρ : Dev nD → PrngReg)

/-- The argument arrays' references. -/
abbrev argRefs : List (Ref sig .tc) := [main_arg0, main_arg1, main_arg2, main_arg3, main_arg4, main_arg5, main_arg6, main_arg7, main_arg8, main_arg9, main_arg10, main_arg11, main_arg12]

/-- An argument's buffer at the return holds its launch contents. -/
theorem W16_arg (c : Dev nD) (r : Ref sig .tc) (hr : r ∈ argRefs) :
    W16 m ρ c (Proc.devRef .tc r) = m ((c : Thread nD τ).loc r) :=
  W16_of_unwritten m ρ c r
    ((by decide : ∀ r ∈ argRefs, r ∉ hostOps0_W) r hr)
    ((by decide : ∀ r ∈ argRefs, r ∉ hostOps0_1_W) r hr)
    ((by decide : ∀ r ∈ argRefs, r ∉ hostOps0_2_W) r hr)
    ((by decide : ∀ r ∈ argRefs, r ∉ hostOps0_3_W) r hr)
    ((by decide : ∀ r ∈ argRefs, r ∉ hostOps0_4_W) r hr)
    ((by decide : ∀ r ∈ argRefs, ∀ w, Pipeline.arrRef spec0 w = r → (cfg0.win w).isOut = false) r hr)
    ((by decide : ∀ r ∈ argRefs, r ∉ hostOps1_W) r hr)
    ((by decide : ∀ r ∈ argRefs, r ∉ hostOps1_1_W) r hr)
    ((by decide : ∀ r ∈ argRefs, r ∉ hostOps1_2_W) r hr)
    ((by decide : ∀ r ∈ argRefs, ∀ w, Pipeline.arrRef spec1 w = r → (cfg1.win w).isOut = false) r hr)
    ((by decide : ∀ r ∈ argRefs, r ∉ hostOps2_W) r hr)
    ((by decide : ∀ r ∈ argRefs, ∀ w, Pipeline.arrRef spec2 w = r → (cfg2.win w).isOut = false) r hr)
    ((by decide : ∀ r ∈ argRefs, r ∉ hostOps3_W) r hr)
    ((by decide : ∀ r ∈ argRefs, r ∉ hostOps3_1_W) r hr)
    ((by decide : ∀ r ∈ argRefs, r ≠ main_v48) r hr)
    ((by decide : ∀ r ∈ argRefs, r ∉ hostOps4_W) r hr)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c main_arg0 (by decide)).trans (W16_arg m ρ c main_arg0 (by decide)),
     (h c main_arg1 (by decide)).trans (W16_arg m ρ c main_arg1 (by decide)),
     (h c main_arg2 (by decide)).trans (W16_arg m ρ c main_arg2 (by decide)),
     (h c main_arg3 (by decide)).trans (W16_arg m ρ c main_arg3 (by decide)),
     (h c main_arg4 (by decide)).trans (W16_arg m ρ c main_arg4 (by decide)),
     (h c main_arg5 (by decide)).trans (W16_arg m ρ c main_arg5 (by decide)),
     (h c main_arg6 (by decide)).trans (W16_arg m ρ c main_arg6 (by decide)),
     (h c main_arg7 (by decide)).trans (W16_arg m ρ c main_arg7 (by decide)),
     (h c main_arg8 (by decide)).trans (W16_arg m ρ c main_arg8 (by decide)),
     (h c main_arg9 (by decide)).trans (W16_arg m ρ c main_arg9 (by decide)),
     (h c main_arg10 (by decide)).trans (W16_arg m ρ c main_arg10 (by decide)),
     (h c main_arg11 (by decide)).trans (W16_arg m ρ c main_arg11 (by decide)),
     (h c main_arg12 (by decide)).trans (W16_arg m ρ c main_arg12 (by decide))⟩)
    (run_ref m ρ)

end Cert.Kernel.Hand

end
-- ==== Proof.KernelIdeal.Region0.lean ====
/-
  The first combine call (the hidden layer), as one region of the program, at the contents V the region is entered with.

  The call walks ten row tiles.  At tile t it reads rows 1024 t .. 1024 t + 1023 of the padded features (window 0) and of
  the padded neighbour means (window 1), the two whole weight matrices (windows 2 and 3, fetched once and left in place)
  and the bias row (window 4); it writes the same rows of the result (window 5) as
      max (x W_self + m W_neigh + b, 0).
  Here: each window's block at a tile read off V, the tile's result as one function of the five input blocks, the body run
  on whole staging buffers, and the pipeline's proof data with its body obligation at every tile.
-/
import proofs.«401770_j62697932587536_1_alg».proof.Proof.Gen.KernelIdeal.Launch
import proofs.«401770_j62697932587536_1_alg».proof.Proof.Gen.KernelIdeal.Skeleton
import proofs.«401770_j62697932587536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every tile, whether or not it was fetched there: an unfetched
    window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S1024x128 := Rect.unit (s := S1024x128) ![0, 0] S1024x128.size inb_S1024x128_S1024x128_0_0
abbrev r0_w : Rect S128x32 := Rect.unit (s := S128x32) ![0, 0] S128x32.size inb_S128x32_S128x32_0_0
abbrev r0_b : Rect S1x32 := Rect.unit (s := S1x32) ![0, 0] S1x32.size inb_S1x32_S1x32_0_0
abbrev r0_o : Rect S1024x32 := Rect.unit (s := S1024x32) ![0, 0] S1024x32.size inb_S1024x32_S1024x32_0_0

/-! ## What the body leaves in the result window's buffer -/

/-- The result tile from the five input blocks: the body's one store, of the combine of the blocks read whole. -/
def out0_5 (x0 : Vec F S1024x128 .f32) (x1 : Vec F S1024x128 .f32) (x2 : Vec F S128x32 .f32) (x3 : Vec F S128x32 .f32) (x4 : Vec F S1x32 .f32) :
    Vec F S1024x32 .f32 :=
  View.canon [⟨r0_o, k0_pay1 (View.ld x0 r0_x) (View.ld x2 r0_w) (View.ld x1 r0_x) (View.ld x3 r0_w) (View.ld x4 r0_b)⟩]

/-- The one store covers the buffer. -/
theorem cover0_5 (p0 : Vec F S1024x32 .f32) (y : S1024x32.Idx) :
    ∃ pc ∈ ([⟨r0_o, p0⟩] : List (View.Piece (Elt F) S1024x32 .f32)), y ∈ pc.1.set :=
  View.cover_of_tiled [⟨r0_o, p0⟩] S1024x32.size (by rfl) y

/-! ## The body on whole staging buffers -/

set_option maxHeartbeats 1000000 in
/-- The body, its input buffers at x0 .. x4 and its result buffer at anything, runs to the continuation with the inputs
    as they were and the result buffer at the tile's result. -/
theorem sound_kernel0 (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S128x32 .f32) (harg3 : arg3.IsWhole) (arg4 : Memref sig .tc .vmem S128x32 .f32) (harg4 : arg4.IsWhole)
    (arg5 : Memref sig .tc .vmem S1x32 .f32) (harg5 : arg5.IsWhole) (arg6 : Memref sig .tc .vmem S1024x32 .f32) (harg6 : arg6.IsWhole)
    (x0 : Vec F S1024x128 .f32) (x1 : Vec F S1024x128 .f32) (x2 : Vec F S128x32 .f32) (x3 : Vec F S128x32 .f32) (x4 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_combine_kernel i arg1 harg1 arg2 harg2 arg3 harg3 arg4 harg4 arg5 harg5 arg6 harg6) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the call on core c: the arrays as the region finds them; after the body at tile t each input
    buffer at its block and the result buffer at the tile's result; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a tile -/

/-- What the body is called with at tile t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any tile: the input buffers hold their blocks, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
/-
  The second combine call (the mean), as one region of the program, at the contents V the region is entered with.

  The call walks ten row tiles.  At tile t it reads rows 1024 t .. 1024 t + 1023 of the hidden rows (window 0) and of
  the padded neighbour means (window 1), the two whole weight matrices (windows 2 and 3, fetched once and left in place)
  and the bias row (window 4); it writes the same rows of the result (window 5) as
      x W_self + m W_neigh + b.
  Here: each window's block at a tile read off V, the tile's result as one function of the five input blocks, the body run
  on whole staging buffers, and the pipeline's proof data with its body obligation at every tile.
-/
import proofs.«401770_j62697932587536_1_alg».proof.Proof.Gen.KernelIdeal.Launch
import proofs.«401770_j62697932587536_1_alg».proof.Proof.Gen.KernelIdeal.Skeleton
import proofs.«401770_j62697932587536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every tile, whether or not it was fetched there: an unfetched
    window's block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_x : Rect S1024x32 := Rect.unit (s := S1024x32) ![0, 0] S1024x32.size inb_S1024x32_S1024x32_0_0
abbrev r1_w : Rect S32x32 := Rect.unit (s := S32x32) ![0, 0] S32x32.size inb_S32x32_S32x32_0_0
abbrev r1_b : Rect S1x32 := Rect.unit (s := S1x32) ![0, 0] S1x32.size inb_S1x32_S1x32_0_0
abbrev r1_o : Rect S1024x32 := Rect.unit (s := S1024x32) ![0, 0] S1024x32.size inb_S1024x32_S1024x32_0_0

/-! ## What the body leaves in the result window's buffer -/

/-- The result tile from the five input blocks: the body's one store, of the combine of the blocks read whole. -/
def out1_5 (x0 : Vec F S1024x32 .f32) (x1 : Vec F S1024x32 .f32) (x2 : Vec F S32x32 .f32) (x3 : Vec F S32x32 .f32) (x4 : Vec F S1x32 .f32) :
    Vec F S1024x32 .f32 :=
  View.canon [⟨r1_o, k1_pay1 (View.ld x0 r1_x) (View.ld x2 r1_w) (View.ld x1 r1_x) (View.ld x3 r1_w) (View.ld x4 r1_b)⟩]

/-- The one store covers the buffer. -/
theorem cover1_5 (p0 : Vec F S1024x32 .f32) (y : S1024x32.Idx) :
    ∃ pc ∈ ([⟨r1_o, p0⟩] : List (View.Piece (Elt F) S1024x32 .f32)), y ∈ pc.1.set :=
  View.cover_of_tiled [⟨r1_o, p0⟩] S1024x32.size (by rfl) y

/-! ## The body on whole staging buffers -/

set_option maxHeartbeats 1000000 in
/-- The body, its input buffers at x0 .. x4 and its result buffer at anything, runs to the continuation with the inputs
    as they were and the result buffer at the tile's result. -/
theorem sound_kernel1 (c : Dev nD) (E : Set ℕ) (i : grid1.Coords)
    (arg1 : Memref sig .tc .vmem S1024x32 .f32) (harg1 : arg1.IsWhole) (arg2 : Memref sig .tc .vmem S1024x32 .f32) (harg2 : arg2.IsWhole)
    (arg3 : Memref sig .tc .vmem S32x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S1024x32 .f32) (harg6 : arg6.IsWhole)
    (x0 : Vec F S1024x32 .f32) (x1 : Vec F S1024x32 .f32) (x2 : Vec F S32x32 .f32) (x3 : Vec F S32x32 .f32) (x4 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_combine_kernel i arg1 harg1 arg2 harg2 arg3 harg3 arg4 harg4 arg5 harg5 arg6 harg6) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the call on core c: the arrays as the region finds them; after the body at tile t each input
    buffer at its block and the result buffer at the tile's result; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a tile -/

/-- What the body is called with at tile t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the input buffers hold their blocks, so the body's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Region2.lean ====
/-
  The third combine call (the log-deviation), as one region of the program, at the contents V the region is entered with.

  The call walks ten row tiles.  At tile t it reads rows 1024 t .. 1024 t + 1023 of the hidden rows (window 0) and of
  the padded neighbour means (window 1), the two whole weight matrices (windows 2 and 3, fetched once and left in place)
  and the bias row (window 4); it writes the same rows of the result (window 5) as
      x W_self + m W_neigh + b.
  Here: each window's block at a tile read off V, the tile's result as one function of the five input blocks, the body run
  on whole staging buffers, and the pipeline's proof data with its body obligation at every tile.
-/
import proofs.«401770_j62697932587536_1_alg».proof.Proof.Gen.KernelIdeal.Launch
import proofs.«401770_j62697932587536_1_alg».proof.Proof.Gen.KernelIdeal.Skeleton
import proofs.«401770_j62697932587536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every tile, whether or not it was fetched there: an unfetched
    window's block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S1024x32 := Rect.unit (s := S1024x32) ![0, 0] S1024x32.size inb_S1024x32_S1024x32_0_0
abbrev r2_w : Rect S32x32 := Rect.unit (s := S32x32) ![0, 0] S32x32.size inb_S32x32_S32x32_0_0
abbrev r2_b : Rect S1x32 := Rect.unit (s := S1x32) ![0, 0] S1x32.size inb_S1x32_S1x32_0_0
abbrev r2_o : Rect S1024x32 := Rect.unit (s := S1024x32) ![0, 0] S1024x32.size inb_S1024x32_S1024x32_0_0

/-! ## What the body leaves in the result window's buffer -/

/-- The result tile from the five input blocks: the body's one store, of the combine of the blocks read whole. -/
def out2_5 (x0 : Vec F S1024x32 .f32) (x1 : Vec F S1024x32 .f32) (x2 : Vec F S32x32 .f32) (x3 : Vec F S32x32 .f32) (x4 : Vec F S1x32 .f32) :
    Vec F S1024x32 .f32 :=
  View.canon [⟨r2_o, k2_pay1 (View.ld x0 r2_x) (View.ld x2 r2_w) (View.ld x1 r2_x) (View.ld x3 r2_w) (View.ld x4 r2_b)⟩]

/-- The one store covers the buffer. -/
theorem cover2_5 (p0 : Vec F S1024x32 .f32) (y : S1024x32.Idx) :
    ∃ pc ∈ ([⟨r2_o, p0⟩] : List (View.Piece (Elt F) S1024x32 .f32)), y ∈ pc.1.set :=
  View.cover_of_tiled [⟨r2_o, p0⟩] S1024x32.size (by rfl) y

/-! ## The body on whole staging buffers -/

set_option maxHeartbeats 1000000 in
/-- The body, its input buffers at x0 .. x4 and its result buffer at anything, runs to the continuation with the inputs
    as they were and the result buffer at the tile's result. -/
theorem sound_kernel2 (c : Dev nD) (E : Set ℕ) (i : grid2.Coords)
    (arg1 : Memref sig .tc .vmem S1024x32 .f32) (harg1 : arg1.IsWhole) (arg2 : Memref sig .tc .vmem S1024x32 .f32) (harg2 : arg2.IsWhole)
    (arg3 : Memref sig .tc .vmem S32x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S1024x32 .f32) (harg6 : arg6.IsWhole)
    (x0 : Vec F S1024x32 .f32) (x1 : Vec F S1024x32 .f32) (x2 : Vec F S32x32 .f32) (x3 : Vec F S32x32 .f32) (x4 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__sage_combine_kernel i arg1 harg1 arg2 harg2 arg3 harg3 arg4 harg4 arg5 harg5 arg6 harg6) K := by
  simp only [cc2__sage_combine_kernel_eq_skeleton]; unfold cc2__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the call on core c: the arrays as the region finds them; after the body at tile t each input
    buffer at its block and the result buffer at the tile's result; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a tile -/

/-- What the body is called with at tile t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any tile: the input buffers hold their blocks, so the body's run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every tile. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Region3.lean ====
/-
  The decode call, as one region of the program, at the contents V the region is entered with.

  The call walks a 10 x 10 grid of tiles.  At tile (i, j) it reads rows 1024 i .. of the padded codes (window 0) and rows
  1024 j .. of the same array (window 1), and writes the tile (i, j) of the result (window 2): the logistic of the inner
  products of the rows of the first block with the rows of the second.  The two input windows read ONE array; each holds
  it at half the share.
  Here: each window's block at a tile read off V, the tile's result as one function of the two input blocks, the body run
  on whole staging buffers, and the pipeline's proof data with its body obligation at every tile.
-/
import proofs.«401770_j62697932587536_1_alg».proof.Proof.Gen.KernelIdeal.Launch
import proofs.«401770_j62697932587536_1_alg».proof.Proof.Gen.KernelIdeal.Skeleton
import proofs.«401770_j62697932587536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every tile, whether or not it was fetched there: an unfetched
    window's block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_z : Rect S1024x32 := Rect.unit (s := S1024x32) ![0, 0] S1024x32.size inb_S1024x32_S1024x32_0_0
abbrev r3_o : Rect S1024x1024 := Rect.unit (s := S1024x1024) ![0, 0] S1024x1024.size inb_S1024x1024_S1024x1024_0_0

/-! ## What the body leaves in the result window's buffer -/

/-- The result tile from the two input blocks: the body's one store. -/
def out3_2 (x0 : Vec F S1024x32 .f32) (x1 : Vec F S1024x32 .f32) : Vec F S1024x1024 .f32 :=
  View.canon [⟨r3_o, k3_pay1 (View.ld x0 r3_z) (View.ld x1 r3_z)⟩]

/-- The one store covers the buffer. -/
theorem cover3_2 (p0 : Vec F S1024x1024 .f32) (y : S1024x1024.Idx) :
    ∃ pc ∈ ([⟨r3_o, p0⟩] : List (View.Piece (Elt F) S1024x1024 .f32)), y ∈ pc.1.set :=
  View.cover_of_tiled [⟨r3_o, p0⟩] S1024x1024.size (by rfl) y

/-! ## The body on whole staging buffers -/

set_option maxHeartbeats 1000000 in
/-- The body, its input buffers at x0, x1 and its result buffer at anything, runs to the continuation with the inputs
    as they were and the result buffer at the tile's result. -/
theorem sound_kernel3 (c : Dev nD) (E : Set ℕ) (i : grid3.Coords)
    (arg2 : Memref sig .tc .vmem S1024x32 .f32) (harg2 : arg2.IsWhole) (arg3 : Memref sig .tc .vmem S1024x32 .f32) (harg3 : arg3.IsWhole)
    (arg4 : Memref sig .tc .vmem S1024x1024 .f32) (harg4 : arg4.IsWhole)
    (x0 : Vec F S1024x32 .f32) (x1 : Vec F S1024x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the call on core c: the arrays as the region finds them; after the body at tile t each input
    buffer at its block and the result buffer at the tile's result; nothing owed; the array the two input windows read
    held at one half of the share by each. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation at a tile -/

/-- What the body is called with at tile t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any tile: the input buffers hold their blocks, so the body's run applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every tile. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Fold.lean ====
/-
  The contents of the core's buffers at every boundary of the program, from the launch to the return.

  The program is sixteen items: stretches of host operations and the four calls.  A host stretch leaves every buffer at
  what its operations compute from the contents before it; a call leaves its result array at what its tiles wrote and
  every other buffer as it found it.  W0 is the launch memory, W(J+1) the contents after item J; V(J) is W(J) read at the
  TensorCore's references, which is what a call's proof data take.
-/
import proofs.«401770_j62697932587536_1_alg».proof.Proof.KernelIdeal.Region0
import proofs.«401770_j62697932587536_1_alg».proof.Proof.KernelIdeal.Region1
import proofs.«401770_j62697932587536_1_alg».proof.Proof.KernelIdeal.Region2
import proofs.«401770_j62697932587536_1_alg».proof.Proof.KernelIdeal.Region3
import proofs.«401770_j62697932587536_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The first call's entry. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- The first call's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
abbrev W8 : Dev nD → Valuation τ sig (Elt F) := fun c => StableHlo.after hostOps1_1 (W7 m ρ c)
/-- The second call's entry. -/
abbrev W9 : Dev nD → Valuation τ sig (Elt F) := fun c => StableHlo.after hostOps1_2 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev V10 : (c : Dev nD) → (b : Ref sig .tc) → Buf (Elt F) ((c : Thread nD τ).loc b) := fun c b => W10 m ρ c b
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

/-- The third call's entry. -/
abbrev W11 : Dev nD → Valuation τ sig (Elt F) := fun c => StableHlo.after hostOps2 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps3 (W12 m ρ c)
/-- The decode call's entry. -/
abbrev W14 : Dev nD → Valuation τ sig (Elt F) := fun c => StableHlo.after hostOps3_1 (W13 m ρ c)
abbrev V14 : (c : Dev nD) → (b : Ref sig .tc) → Buf (Elt F) ((c : Thread nD τ).loc b) := fun c b => W14 m ρ c b
/-- The decode call's exit: its one result array at what the pipeline leaves, every other buffer (the array its two
    input windows read among them) as entered. -/
def W15 (c : Dev nD) : Valuation τ sig (Elt F) :=
  Function.update (W14 m ρ c) (Proc.devRef .tc main_v48) ((dat3 (V14 m ρ) c).arrAt 2 cfg3.N)
theorem W15_out (c : Dev nD) : W15 m ρ c (Proc.devRef .tc main_v48) = (dat3 (V14 m ρ) c).arrAt 2 cfg3.N := by
  unfold W15; exact Function.update_self _ _ _
theorem W15_of_ne (c : Dev nD) (b : Ref sig .tc) (hb : b ≠ main_v48) :
    W15 m ρ c (Proc.devRef .tc b) = W14 m ρ c (Proc.devRef .tc b) := by
  unfold W15; exact Function.update_of_ne (StableHlo.devRef_ne_of_ne hb) _ _
abbrev V15 : (c : Dev nD) → (b : Ref sig .tc) → Buf (Elt F) ((c : Thread nD τ).loc b) := fun c b => W15 m ρ c b
/-- The contents at the return. -/
abbrev W16 : Dev nD → Valuation τ sig (Elt F) := fun c => StableHlo.after hostOps4 (W15 m ρ c)

/-! ## A buffer no item writes ends as launched -/

/-- A reference that no host stretch writes and that is no call's result array ends holding its launch contents. -/
theorem W16_of_unwritten (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : ∀ w, Pipeline.arrRef spec0 w = r → (cfg0.win w).isOut = false)
    (h6 : r ∉ hostOps1_W) (h7 : r ∉ hostOps1_1_W) (h8 : r ∉ hostOps1_2_W)
    (h9 : ∀ w, Pipeline.arrRef spec1 w = r → (cfg1.win w).isOut = false)
    (h10 : r ∉ hostOps2_W)
    (h11 : ∀ w, Pipeline.arrRef spec2 w = r → (cfg2.win w).isOut = false)
    (h12 : r ∉ hostOps3_W) (h13 : r ∉ hostOps3_1_W) (h14 : r ≠ main_v48) (h15 : r ∉ hostOps4_W) :
    W16 m ρ c (Proc.devRef .tc r) = m ((c : Thread nD τ).loc r) := by
  have e16 : W16 m ρ c (Proc.devRef .tc r) = W15 m ρ c (Proc.devRef .tc r) := StableHlo.after_of_writes_sub hostOps4 _ hostOps4_writes h15
  have e15 : W15 m ρ c (Proc.devRef .tc r) = W14 m ρ c (Proc.devRef .tc r) := W15_of_ne m ρ c r h14
  have e14 : W14 m ρ c (Proc.devRef .tc r) = W13 m ρ c (Proc.devRef .tc r) := StableHlo.after_of_writes_sub hostOps3_1 _ hostOps3_1_writes h13
  have e13 : W13 m ρ c (Proc.devRef .tc r) = W12 m ρ c (Proc.devRef .tc r) := StableHlo.after_of_writes_sub hostOps3 _ hostOps3_writes h12
  have e12 : W12 m ρ c (Proc.devRef .tc r) = W11 m ρ c (Proc.devRef .tc r) := by
    by_cases hw : ∃ w, Pipeline.arrRef spec2 w = r
    · obtain ⟨w, rfl⟩ := hw
      exact (W12_arr m ρ c w).trans (((dat2 (V11 m ρ) c).arrAt_in w (h11 w rfl) _).trans (A_eq2 (V11 m ρ) c w))
    · exact W12_of_ne m ρ c r fun w e => hw ⟨w, e⟩
  have e11 : W11 m ρ c (Proc.devRef .tc r) = W10 m ρ c (Proc.devRef .tc r) := StableHlo.after_of_writes_sub hostOps2 _ hostOps2_writes h10
  have e10 : W10 m ρ c (Proc.devRef .tc r) = W9 m ρ c (Proc.devRef .tc r) := by
    by_cases hw : ∃ w, Pipeline.arrRef spec1 w = r
    · obtain ⟨w, rfl⟩ := hw
      exact (W10_arr m ρ c w).trans (((dat1 (V9 m ρ) c).arrAt_in w (h9 w rfl) _).trans (A_eq1 (V9 m ρ) c w))
    · exact W10_of_ne m ρ c r fun w e => hw ⟨w, e⟩
  have e9 : W9 m ρ c (Proc.devRef .tc r) = W8 m ρ c (Proc.devRef .tc r) := StableHlo.after_of_writes_sub hostOps1_2 _ hostOps1_2_writes h8
  have e8 : W8 m ρ c (Proc.devRef .tc r) = W7 m ρ c (Proc.devRef .tc r) := StableHlo.after_of_writes_sub hostOps1_1 _ hostOps1_1_writes h7
  have e7 : W7 m ρ c (Proc.devRef .tc r) = W6 m ρ c (Proc.devRef .tc r) := StableHlo.after_of_writes_sub hostOps1 _ hostOps1_writes h6
  have e6 : W6 m ρ c (Proc.devRef .tc r) = W5 m ρ c (Proc.devRef .tc r) := by
    by_cases hw : ∃ w, Pipeline.arrRef spec0 w = r
    · obtain ⟨w, rfl⟩ := hw
      exact (W6_arr m ρ c w).trans (((dat0 (V5 m ρ) c).arrAt_in w (h5 w rfl) _).trans (A_eq0 (V5 m ρ) c w))
    · exact W6_of_ne m ρ c r fun w e => hw ⟨w, e⟩
  have e5 : W5 m ρ c (Proc.devRef .tc r) = W4 m ρ c (Proc.devRef .tc r) := StableHlo.after_of_writes_sub hostOps0_4 _ hostOps0_4_writes h4
  have e4 : W4 m ρ c (Proc.devRef .tc r) = W3 m ρ c (Proc.devRef .tc r) := StableHlo.after_of_writes_sub hostOps0_3 _ hostOps0_3_writes h3
  have e3 : W3 m ρ c (Proc.devRef .tc r) = W2 m ρ c (Proc.devRef .tc r) := StableHlo.after_of_writes_sub hostOps0_2 _ hostOps0_2_writes h2
  have e2 : W2 m ρ c (Proc.devRef .tc r) = W1 m ρ c (Proc.devRef .tc r) := StableHlo.after_of_writes_sub hostOps0_1 _ hostOps0_1_writes h1
  have e1 : W1 m ρ c (Proc.devRef .tc r) = W0 m ρ c (Proc.devRef .tc r) := StableHlo.after_of_writes_sub hostOps0 _ hostOps0_writes h0
  exact e16.trans (e15.trans (e14.trans (e13.trans (e12.trans (e11.trans (e10.trans (e9.trans (e8.trans (e7.trans (e6.trans
    (e5.trans (e4.trans (e3.trans (e2.trans (e1.trans rfl)))))))))))))))

end Cert.KernelIdeal.Hand

end
-- ==== Proof.KernelIdeal.Data.lean ====
/-
  Every call's proof data at its entry contents, and the state a core carries between the program's items: every unscoped
  buffer held whole at the boundary's contents, the generator register at some state, and nothing owed.
-/
import proofs.«401770_j62697932587536_1_alg».proof.Proof.KernelIdeal.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No call prefetches a table. -/
abbrev adm : (p : Fin 4) → (pcfgs (F := F) p).Adm := fun p => (cfgs p).toPCfg_adm

/-- Every call's proof data, each at its entry contents. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V9 m ρ) c
  | ⟨2, _⟩ => fun c => dat2 (V11 m ρ) c
  | ⟨3, _⟩ => fun c => dat3 (V14 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state and the core owing nothing. -/
abbrev R (c : Dev nD) : sProp 𝕄 := iprop((∃ r, prngReg c r) ∗ ∃ W, owes (c : Thread nD τ) (0 : CellTallies nD τ sig Unit) W)

/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without what the core owes: every unscoped buffer at the return's contents, the generator register. -/
abbrev Tₙ (c : Dev nD) : sProp 𝕄 := iprop(StableHlo.held (c : Thread nD τ) (Pipeline.ucRefs τ sig) (W16 m ρ c) ∗ ∃ r, prngReg c r)

end Cert.KernelIdeal.Hand

end
-- ==== Proof.KernelIdeal.Reg0.lean ====
/-
  Call 0 of the program as one item: entered from every unscoped buffer at the contents before it, left with its result
  array at what its tiles wrote and every other buffer as found.  Its arrays are split out of the unscoped buffers on
  entry and put back on exit; the generator register passes through the call's invariant; nothing is owed.
-/
import proofs.«401770_j62697932587536_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Reg1.lean ====
/-
  Call 1 of the program as one item: entered from every unscoped buffer at the contents before it, left with its result
  array at what its tiles wrote and every other buffer as found.  Its arrays are split out of the unscoped buffers on
  entry and put back on exit; the generator register passes through the call's invariant; nothing is owed.
-/
import proofs.«401770_j62697932587536_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Reg2.lean ====
/-
  Call 2 of the program as one item: entered from every unscoped buffer at the contents before it, left with its result
  array at what its tiles wrote and every other buffer as found.  Its arrays are split out of the unscoped buffers on
  entry and put back on exit; the generator register passes through the call's invariant; nothing is owed.
-/
import proofs.«401770_j62697932587536_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Reg3.lean ====
/-
  The decode call as one item of the program.  Its two input windows read ONE array, the padded codes; each holds it at
  one half of the share.  On entry the unscoped buffers give the two arrays behind the windows whole; the padded codes'
  holding is cut into its two halves, one per input window.  On exit the halves, still at the contents found, are joined
  again, the result array is held at what the tiles wrote, and every other buffer is as found.
-/
import proofs.«401770_j62697932587536_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the call's three windows are two: the padded codes and the result. -/
theorem image_arr3 : (Finset.univ.image (Pipeline.arrRef spec3) : Finset (Ref sig .tc)) = {main_v47, main_v48} := by decide

section
variable (V : (c : Dev nD) → (b : Ref sig .tc) → Buf (Elt F) ((c : Thread nD τ).loc b))

/-- The two buffers whole, one by one. -/
theorem arrBufs3_eq (c : Dev nD) (Vc : (b : Ref sig .tc) → Buf (Elt F) ((c : Thread nD τ).loc b)) :
    (Pipeline.arrBufs (Ix := Unit) (Name := ℕ) (U := UR sig nD τ) (Lvl := ℕ) spec3 c Vc : sProp 𝕄)
      = iprop((((c : Thread nD τ).loc main_v47) ↦{fullShare} Vc main_v47) ∗ (((c : Thread nD τ).loc main_v48) ↦{fullShare} Vc main_v48)) := by
  unfold Pipeline.arrBufs
  rw [image_arr3, bigSep_insert (by decide), bigSep_singleton]
  rfl

/-- The call's arrays at contents Fa, one window at a time: the padded codes at the two halves, the result whole. -/
theorem arrays3_eq (c : Dev nD) (Fa : (w : Fin cfg3.W) → Buf (Elt F) ((cfg3.win w).arr.view.loc (c : Thread nD τ))) :
    ((dat3 V c).arrays Fa : sProp 𝕄)
      = iprop((((c : Thread nD τ).loc main_v47) ↦{fullShare.left} Fa 0) ∗ (((c : Thread nD τ).loc main_v47) ↦{fullShare.right} Fa 1)
          ∗ (((c : Thread nD τ).loc main_v48) ↦{fullShare} Fa 2)) := by
  unfold Dat.arrays
  rw [bigSep_W3, (arr_whole3 0).set_eq_univ, (arr_whole3 2).set_eq_univ]
  rfl
end

/-- ENTRY: the unscoped buffers at the entry contents give the call's arrays at their entry contents and the rest. -/
theorem arrays3_of_unscopedBufs (c : Dev nD) :
    (unscopedBufs (Ix := Unit) (Name := ℕ) (U := UR sig nD τ) (Lvl := ℕ) c (V14 m ρ c) : sProp 𝕄)
      ⊢ iprop((pdats m ρ 3 c).arrays ((pdats m ρ 3 c).arrAt · 0) ∗ Pipeline.unscopedRest spec3 c (V14 m ρ c)) := by
  rw [Pipeline.unscopedBufs_split₀ (Pipeline.pin (pcfgs (F := F)) adm) 3 winFacts₀3.arr_unscoped c (V14 m ρ c)]
  show iprop(Pipeline.arrBufs spec3 c (V14 m ρ c) ∗ Pipeline.unscopedRest spec3 c (V14 m ρ c))
    ⊢ iprop((dat3 (V14 m ρ) c).arrays ((dat3 (V14 m ρ) c).arrAt · 0) ∗ Pipeline.unscopedRest spec3 c (V14 m ρ c))
  rw [arrBufs3_eq c (V14 m ρ c), arrays3_eq (V14 m ρ) c]
  iintro ⟨⟨Hz, Ho⟩, Hrest⟩
  ihave Hz' := (pointsTo_share (PosShare.mem_left_op_right fullShare)).1 $$ Hz
  icases Hz' with ⟨Hl, Hr⟩
  isplitl [Hl Hr Ho]
  · isplitl [Hl]; · iexact Hl
    isplitl [Hr]; · iexact Hr
    iexact Ho
  iexact Hrest

/-- EXIT: the call's arrays at their exit contents and the rest give the unscoped buffers at the exit contents. -/
theorem unscopedBufs_of_arrays3 (c : Dev nD) :
    iprop((pdats m ρ 3 c).arrays ((pdats m ρ 3 c).arrAt · cfg3.N) ∗ Pipeline.unscopedRest spec3 c (V14 m ρ c))
      ⊢ (unscopedBufs (Ix := Unit) (Name := ℕ) (U := UR sig nD τ) (Lvl := ℕ) c (V15 m ρ c) : sProp 𝕄) := by
  rw [Pipeline.unscopedBufs_split₀ (Pipeline.pin (pcfgs (F := F)) adm) 3 winFacts₀3.arr_unscoped c (V15 m ρ c)]
  show iprop((dat3 (V14 m ρ) c).arrays ((dat3 (V14 m ρ) c).arrAt · cfg3.N) ∗ Pipeline.unscopedRest spec3 c (V14 m ρ c))
    ⊢ iprop(Pipeline.arrBufs spec3 c (V15 m ρ c) ∗ Pipeline.unscopedRest spec3 c (V15 m ρ c))
  rw [arrBufs3_eq c (V15 m ρ c), arrays3_eq (V14 m ρ) c]
  have h0 : (dat3 (V14 m ρ) c).arrAt 0 cfg3.N = V15 m ρ c main_v47 :=
    (((dat3 (V14 m ρ) c).arrAt_in 0 rfl _).trans (A_eq3 (V14 m ρ) c 0)).trans (W15_of_ne m ρ c main_v47 (by decide)).symm
  have h1 : (dat3 (V14 m ρ) c).arrAt 1 cfg3.N = V15 m ρ c main_v47 :=
    (((dat3 (V14 m ρ) c).arrAt_in 1 rfl _).trans (A_eq3 (V14 m ρ) c 1)).trans (W15_of_ne m ρ c main_v47 (by decide)).symm
  have h2 : (dat3 (V14 m ρ) c).arrAt 2 cfg3.N = V15 m ρ c main_v48 := (W15_out m ρ c).symm
  have hrest : (Pipeline.unscopedRest (Ix := Unit) (Name := ℕ) (U := UR sig nD τ) (Lvl := ℕ) spec3 c (V14 m ρ c) : sProp 𝕄)
      = Pipeline.unscopedRest spec3 c (V15 m ρ c) := by
    unfold Pipeline.unscopedRest
    refine bigSep_congr fun b hb => ?_
    have hb' : b ∉ Finset.univ.image (Pipeline.arrRef spec3) := (Finset.mem_sdiff.mp hb).2
    rw [image_arr3] at hb'
    have hne : b ≠ main_v48 := fun e => hb' (by rw [e]; exact Finset.mem_insert_of_mem (Finset.mem_singleton_self _))
    rw [show V15 m ρ c b = V14 m ρ c b from W15_of_ne m ρ c b hne]
  rw [h0, h1, h2, hrest]
  iintro ⟨⟨Hl, Hr, Ho⟩, Hrest⟩
  isplitl [Hl Hr Ho]
  · isplitl [Hl Hr]
    · iapply (pointsTo_share (PosShare.mem_left_op_right fullShare)).2
      isplitl [Hl] <;> iassumption
    iexact Ho
  iexact Hrest

set_option backward.isDefEq.respectTransparency.types false in
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V14 m ρ) c).loose
  hwaits := Pipeline.hwaits_of_owed_zero _ _ _ _ L lv 3 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec3 c (V14 m ρ c)
  hentry c := by
    rw [Pipeline.ownSems0_none]
    have hsplit := arrays3_of_unscopedBufs m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Run.lean ====
/-
  The run of the program: from any memory with zero counters, every weakly fair execution terminates, nothing faulting,
  and at the return every unscoped buffer of every core holds the contents W16 of Fold.lean.

  The program is the sequence of its sixteen items; each item is entered from the state the one before it left (every
  unscoped buffer at that boundary's contents, the generator register, nothing owed), so the states chain by definition.
  The launch deals the first state; the last is read against the final memory.
-/
import proofs.«401770_j62697932587536_1_alg».proof.Proof.KernelIdeal.Reg0
import proofs.«401770_j62697932587536_1_alg».proof.Proof.KernelIdeal.Reg1
import proofs.«401770_j62697932587536_1_alg».proof.Proof.KernelIdeal.Reg2
import proofs.«401770_j62697932587536_1_alg».proof.Proof.KernelIdeal.Reg3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's sixteen items in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .region (reg1 m ρ),
    .host (hseg hostOps2 hostOps2_sub hostOps2_fresh (W10 m ρ)),
    .region (reg2 m ρ),
    .host (hseg hostOps3 hostOps3_sub hostOps3_fresh (W12 m ρ)),
    .host (hseg hostOps3_1 hostOps3_1_sub hostOps3_1_fresh (W13 m ρ)),
    .region (reg3 m ρ),
    .host (hseg hostOps4 hostOps4_sub hostOps4_fresh (W15 m ρ)) ]

/-- The program IS the run of the segments. -/
theorem main_run (c : Dev nD) : main (F := F) c = Pipeline.Seg.run (segs m ρ) := (main_chain c).trans (by chain_rfl)

set_option backward.isDefEq.respectTransparency.types false in
/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W16 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- A TensorCore reference's buffer at the return. -/
theorem run_ref : θ_run defs (onTc (τ := τ) (main (F := F))) ⟨m, fun _ => 0, ρ⟩ (fun r => ∀ c : Dev nD,
      ∀ (b : Ref sig .tc), ¬ (Proc.devRef .tc b : DevRef τ sig).isScoped → r.2.mem ((c.tc : Thread nD τ).loc b) = W16 m ρ c (Proc.devRef .tc b)) :=
  (θ_run defs _ _).mono (fun _ h c b hb => h c _ (mem_uc b hb)) (run_all m ρ)

end Cert.KernelIdeal.Hand

end
-- ==== Proof.KernelIdeal.Frame.lean ====
/-
  The program's frame: every weakly fair execution terminates, nothing faulting, and each of the thirteen argument arrays
  ends holding what it held at launch.  No host operation writes an argument and no call has one as its result array, so at
  the return's contents an argument's buffer reads back, item by item, to the launch memory.
-/
import proofs.«401770_j62697932587536_1_alg».proof.Proof.KernelIdeal.Run

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ) (ρ : Dev nD → PrngReg)

/-- The argument arrays' references. -/
abbrev argRefs : List (Ref sig .tc) := [main_arg0, main_arg1, main_arg2, main_arg3, main_arg4, main_arg5, main_arg6, main_arg7, main_arg8, main_arg9, main_arg10, main_arg11, main_arg12]

/-- An argument's buffer at the return holds its launch contents. -/
theorem W16_arg (c : Dev nD) (r : Ref sig .tc) (hr : r ∈ argRefs) :
    W16 m ρ c (Proc.devRef .tc r) = m ((c : Thread nD τ).loc r) :=
  W16_of_unwritten m ρ c r
    ((by decide : ∀ r ∈ argRefs, r ∉ hostOps0_W) r hr)
    ((by decide : ∀ r ∈ argRefs, r ∉ hostOps0_1_W) r hr)
    ((by decide : ∀ r ∈ argRefs, r ∉ hostOps0_2_W) r hr)
    ((by decide : ∀ r ∈ argRefs, r ∉ hostOps0_3_W) r hr)
    ((by decide : ∀ r ∈ argRefs, r ∉ hostOps0_4_W) r hr)
    ((by decide : ∀ r ∈ argRefs, ∀ w, Pipeline.arrRef spec0 w = r → (cfg0.win w).isOut = false) r hr)
    ((by decide : ∀ r ∈ argRefs, r ∉ hostOps1_W) r hr)
    ((by decide : ∀ r ∈ argRefs, r ∉ hostOps1_1_W) r hr)
    ((by decide : ∀ r ∈ argRefs, r ∉ hostOps1_2_W) r hr)
    ((by decide : ∀ r ∈ argRefs, ∀ w, Pipeline.arrRef spec1 w = r → (cfg1.win w).isOut = false) r hr)
    ((by decide : ∀ r ∈ argRefs, r ∉ hostOps2_W) r hr)
    ((by decide : ∀ r ∈ argRefs, ∀ w, Pipeline.arrRef spec2 w = r → (cfg2.win w).isOut = false) r hr)
    ((by decide : ∀ r ∈ argRefs, r ∉ hostOps3_W) r hr)
    ((by decide : ∀ r ∈ argRefs, r ∉ hostOps3_1_W) r hr)
    ((by decide : ∀ r ∈ argRefs, r ≠ main_v48) r hr)
    ((by decide : ∀ r ∈ argRefs, r ∉ hostOps4_W) r hr)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c main_arg0 (by decide)).trans (W16_arg m ρ c main_arg0 (by decide)),
     (h c main_arg1 (by decide)).trans (W16_arg m ρ c main_arg1 (by decide)),
     (h c main_arg2 (by decide)).trans (W16_arg m ρ c main_arg2 (by decide)),
     (h c main_arg3 (by decide)).trans (W16_arg m ρ c main_arg3 (by decide)),
     (h c main_arg4 (by decide)).trans (W16_arg m ρ c main_arg4 (by decide)),
     (h c main_arg5 (by decide)).trans (W16_arg m ρ c main_arg5 (by decide)),
     (h c main_arg6 (by decide)).trans (W16_arg m ρ c main_arg6 (by decide)),
     (h c main_arg7 (by decide)).trans (W16_arg m ρ c main_arg7 (by decide)),
     (h c main_arg8 (by decide)).trans (W16_arg m ρ c main_arg8 (by decide)),
     (h c main_arg9 (by decide)).trans (W16_arg m ρ c main_arg9 (by decide)),
     (h c main_arg10 (by decide)).trans (W16_arg m ρ c main_arg10 (by decide)),
     (h c main_arg11 (by decide)).trans (W16_arg m ρ c main_arg11 (by decide)),
     (h c main_arg12 (by decide)).trans (W16_arg m ρ c main_arg12 (by decide))⟩)
    (run_ref m ρ)

end Cert.KernelIdeal.Hand

end
-- ==== Proof.KerSpec.lean ====
/-
  What each of the program's four calls leaves in its result array, entry by entry, as a function of the arrays it reads.

  The combine calls work on arrays of 10240 rows (the 10000 nodes' rows followed by 240 rows of padding): entry (r, j) of
  the result is the row r of the first array times column j of one weight matrix, plus row r of the second array times
  column j of the other, plus entry j of the bias row — cut off below at zero in the first call only.  The decode call's
  result entry (i, j) is the logistic of the inner product of rows i and j of the padded codes.
-/
import Idealize.ShloMosaic.PureOps.Ideal
import Idealize.ShloMosaic.PureOps.Ideal.Laws
import Idealize.ShloMosaic.Lib.ValueIdx

noncomputable section

namespace Vgae

open Idealize.ShloMosaic Idealize.ShloMosaic.ValueIdx

abbrev SP128 : Shape := ⟨2, ![10240, 128]⟩
abbrev SP32 : Shape := ⟨2, ![10240, 32]⟩
abbrev SPP : Shape := ⟨2, ![10240, 10240]⟩
abbrev SW128 : Shape := ⟨2, ![128, 32]⟩
abbrev SW32 : Shape := ⟨2, ![32, 32]⟩
abbrev SB : Shape := ⟨2, ![1, 32]⟩

/-- Own rows times one weight matrix, plus second rows times the other, plus the bias row: 128 columns in. -/
def comb128 (X M : SP128.Idx → EReal) (Ws Wn : SW128.Idx → EReal) (B : SB.Idx → EReal) (r : Fin 10240) (j : Fin 32) : EReal :=
  ((∑ k : Fin 128, X (ix2 r k) * Ws (ix2 k j)) + (∑ k : Fin 128, M (ix2 r k) * Wn (ix2 k j))) + B (ix2 (0 : Fin 1) j)

/-- The same with 32 columns in. -/
def comb32 (X M : SP32.Idx → EReal) (Ws Wn : SW32.Idx → EReal) (B : SB.Idx → EReal) (r : Fin 10240) (j : Fin 32) : EReal :=
  ((∑ k : Fin 32, X (ix2 r k) * Ws (ix2 k j)) + (∑ k : Fin 32, M (ix2 r k) * Wn (ix2 k j))) + B (ix2 (0 : Fin 1) j)

/-- The first call's result array: the combination cut off below at zero. -/
def hidPad (X M : SP128.Idx → EReal) (Ws Wn : SW128.Idx → EReal) (B : SB.Idx → EReal) : SP32.Idx → EReal :=
  fun i => max (comb128 X M Ws Wn B (i 0) (i 1)) 0

/-- The second and third calls' result arrays: the combination. -/
def linPad (X M : SP32.Idx → EReal) (Ws Wn : SW32.Idx → EReal) (B : SB.Idx → EReal) : SP32.Idx → EReal :=
  fun i => comb32 X M Ws Wn B (i 0) (i 1)

/-- The decode call's result array. -/
def decPad (Z : SP32.Idx → EReal) : SPP.Idx → EReal :=
  fun i => Ideal.logistic (∑ k : Fin 32, Z (ix2 (i 0) k) * Z (ix2 (i 1) k))

end Vgae

end
-- ==== Proof.KernelIdeal.Final0.lean ====
/-
  What the first combine call leaves in its result array, as one function of the arrays it reads.

  Tile t writes rows 1024 t .. 1024 t + 1023 of the result; the ten tiles cover the 10240 rows, and each entry of a tile is
  the same function of the entries of the arrays read: own row times one weight matrix, second row times the other, plus
  the bias, cut off below at zero.
-/
import proofs.«401770_j62697932587536_1_alg».proof.Proof.KernelIdeal.Region0
import proofs.«401770_j62697932587536_1_alg».proof.Proof.KerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## A tile's entry: the body's arithmetic at row p, column q of the tile -/

/-- The product's left factor sits in the output's row, -/
theorem lhs_prod0_0 (i : S1024x32.Idx) (q : dot_S1024x128_S128x32_S1024x32_1_0_0_1_n_n.contr.Idx) :
    (dot_S1024x128_S128x32_S1024x32_1_0_0_1_n_n.lhsIdx i q 0).val = (i 0).val := by
  unfold DotDims.lhsIdx
  rw [dif_neg (show ¬(0 : Fin S1024x128.rank) ∈ dot_S1024x128_S128x32_S1024x32_1_0_0_1_n_n.lhsBatch by decide), dif_pos (show (0 : Fin S1024x128.rank) ∈ dot_S1024x128_S128x32_S1024x32_1_0_0_1_n_n.lhsNonContracting by decide)]
  rfl
/-- at the summed column; -/
theorem lhs_prod0_1 (i : S1024x32.Idx) (q : dot_S1024x128_S128x32_S1024x32_1_0_0_1_n_n.contr.Idx) :
    (dot_S1024x128_S128x32_S1024x32_1_0_0_1_n_n.lhsIdx i q 1).val = (q ⟨0, by decide⟩).val :=
  dot_S1024x128_S128x32_S1024x32_1_0_0_1_n_n.lhsIdx_val_of_single rfl i q
/-- the right factor in the summed row, -/
theorem rhs_prod0_0 (i : S1024x32.Idx) (q : dot_S1024x128_S128x32_S1024x32_1_0_0_1_n_n.contr.Idx) :
    (dot_S1024x128_S128x32_S1024x32_1_0_0_1_n_n.rhsIdx i q 0).val = (q ⟨0, by decide⟩).val :=
  dot_S1024x128_S128x32_S1024x32_1_0_0_1_n_n.rhsIdx_val_of_single rfl i q
/-- at the output's column. -/
theorem rhs_prod0_1 (i : S1024x32.Idx) (q : dot_S1024x128_S128x32_S1024x32_1_0_0_1_n_n.contr.Idx) :
    (dot_S1024x128_S128x32_S1024x32_1_0_0_1_n_n.rhsIdx i q 1).val = (i 1).val := by
  unfold DotDims.rhsIdx
  rw [dif_neg (show ¬(1 : Fin S128x32.rank) ∈ dot_S1024x128_S128x32_S1024x32_1_0_0_1_n_n.rhsBatch by decide), dif_pos (show (1 : Fin S128x32.rank) ∈ dot_S1024x128_S128x32_S1024x32_1_0_0_1_n_n.rhsNonContracting by decide)]
  rfl

/-- A [1024,128] block times a [128,32] matrix, accumulated from zero, at (p, q): row p of the block against column q
    of the matrix. -/
theorem prod0_apply (x : FVec Ideal S1024x128 .f32) (w : FVec Ideal S128x32 .f32) (p : Fin 1024) (q : Fin 32) :
    matmul (F := Ideal) dot_S1024x128_S128x32_S1024x32_1_0_0_1_n_n none x w (constant (F := Ideal) S1024x32 .f32 0x00000000#32) (ix2 p q)
      = ∑ k : Fin 128, x (ix2 p k) * w (ix2 k q) := by
  refine (Ideal.matmul_constant_zero_apply dot_S1024x128_S128x32_S1024x32_1_0_0_1_n_n none x w (ix2 p q)).trans ?_
  rw [← Equiv.sum_comp (contrEquiv1 dot_S1024x128_S128x32_S1024x32_1_0_0_1_n_n 128 rfl rfl).symm]
  refine Finset.sum_congr rfl fun k _ => ?_
  have hk := contrEquiv1_symm_val dot_S1024x128_S128x32_S1024x32_1_0_0_1_n_n 128 rfl rfl k
  have el : dot_S1024x128_S128x32_S1024x32_1_0_0_1_n_n.lhsIdx (ix2 p q) ((contrEquiv1 dot_S1024x128_S128x32_S1024x32_1_0_0_1_n_n 128 rfl rfl).symm k) = ix2 p k := funext fun a => Fin.ext (by
    match a with
    | ⟨0, _⟩ => exact lhs_prod0_0 _ _
    | ⟨1, _⟩ => exact (lhs_prod0_1 _ _).trans hk)
  have er : dot_S1024x128_S128x32_S1024x32_1_0_0_1_n_n.rhsIdx (ix2 p q) ((contrEquiv1 dot_S1024x128_S128x32_S1024x32_1_0_0_1_n_n 128 rfl rfl).symm k) = ix2 k q := funext fun a => Fin.ext (by
    match a with
    | ⟨0, _⟩ => exact (rhs_prod0_0 _ _).trans hk
    | ⟨1, _⟩ => exact rhs_prod0_1 _ _)
  rw [el, er]

/-- The bias row spread over the 1024 rows reads its column. -/
theorem bias0_apply (b : Vec Ideal S1x32 .f32) (p : Fin 1024) (q : Fin 32) :
    broadcastTo S1024x32 (shapeCast S1x32 b shapeCasts_S1x32_S1x32) broadcasts_S1x32_S1024x32 (ix2 p q) = b (ix2 (0 : Fin 1) q) := by
  rw [shapeCast_self]
  refine broadcastTo_apply b broadcasts_S1x32_S1024x32 (ix2 p q) (ix2 (0 : Fin 1) q) fun a => ?_
  match a with
  | ⟨0, _⟩ => rfl
  | ⟨1, _⟩ => rfl

/-- The body's arithmetic at (p, q): row p of the first block against column q of the first matrix, plus row p of the
    second block against column q of the second matrix, plus the bias at q, cut off below at zero. -/
theorem pay0_apply (x0 : Vec Ideal S1024x128 .f32) (w0 : Vec Ideal S128x32 .f32) (x1 : Vec Ideal S1024x128 .f32)
    (w1 : Vec Ideal S128x32 .f32) (b : Vec Ideal S1x32 .f32) (p : Fin 1024) (q : Fin 32) :
    k0_pay1 (F := Ideal) x0 w0 x1 w1 b (ix2 p q)
      = max (((∑ k : Fin 128, x0 (ix2 p k) * w0 (ix2 k q)) + (∑ k : Fin 128, x1 (ix2 p k) * w1 (ix2 k q))) + b (ix2 (0 : Fin 1) q)) 0 := by
  unfold k0_pay1
  refine (maximumf_apply _ _ _).trans ?_
  refine congrArg₂ max ?_ Ideal.ofBits_zero_f32
  refine (addf_apply _ _ _).trans ?_
  refine congrArg₂ (· + ·) ?_ (bias0_apply b p q)
  refine (addf_apply _ _ _).trans ?_
  refine congrArg₂ (· + ·) ?_ ?_
  · refine (congrArg (fun v : FVec Ideal S1024x128 .f32 => matmul (F := Ideal) (φ₁ := .f32) (φ₂ := .f32) dot_S1024x128_S128x32_S1024x32_1_0_0_1_n_n none v w0 (constant (F := Ideal) S1024x32 .f32 0x00000000#32) (ix2 p q)) (shapeCast_self x0 shapeCasts_S1024x128_S1024x128)).trans ?_
    exact prod0_apply x0 w0 p q
  · refine (congrArg (fun v : FVec Ideal S1024x128 .f32 => matmul (F := Ideal) (φ₁ := .f32) (φ₂ := .f32) dot_S1024x128_S128x32_S1024x32_1_0_0_1_n_n none v w1 (constant (F := Ideal) S1024x32 .f32 0x00000000#32) (ix2 p q)) (shapeCast_self x1 shapeCasts_S1024x128_S1024x128)).trans ?_
    exact prod0_apply x1 w1 p q

variable (V : (c : Dev nD) → (b : Ref sig .tc) → Buf (Elt Ideal) ((c : Thread nD τ).loc b))

/-! ## The arrays the call reads and the blocks of a tile, at their literal shapes -/

/-- The padded features, -/
abbrev featArr (c : Dev nD) : Vec Ideal S10240x128 .f32 := V c main_v9
/-- the padded neighbour means, -/
abbrev meanArr (c : Dev nD) : Vec Ideal S10240x128 .f32 := V c main_v22
/-- the weight matrix for a node's own row, -/
abbrev selfArr (c : Dev nD) : Vec Ideal S128x32 .f32 := V c main_arg4
/-- the weight matrix for the neighbour mean, -/
abbrev neighArr (c : Dev nD) : Vec Ideal S128x32 .f32 := V c main_arg5
/-- the bias row. -/
abbrev biasArr (c : Dev nD) : Vec Ideal S1x32 .f32 := V c main_v23

/-- Tile t's block of the features, -/
abbrev featBlk (c : Dev nD) (t : Fin cfg0.N) : Vec Ideal S1024x128 .f32 := iblk0 V c 0 t
/-- of the neighbour means, -/
abbrev meanBlk (c : Dev nD) (t : Fin cfg0.N) : Vec Ideal S1024x128 .f32 := iblk0 V c 1 t
/-- and the three whole-array blocks. -/
abbrev selfBlk (c : Dev nD) (t : Fin cfg0.N) : Vec Ideal S128x32 .f32 := iblk0 V c 2 t
abbrev neighBlk (c : Dev nD) (t : Fin cfg0.N) : Vec Ideal S128x32 .f32 := iblk0 V c 3 t
abbrev biasBlk (c : Dev nD) (t : Fin cfg0.N) : Vec Ideal S1x32 .f32 := iblk0 V c 4 t

theorem zeros2 : (![0, 0] : Fin 2 → Nat) = fun _ => 0 := funext fun a => by fin_cases a <;> rfl

/-- The block indices over the ten tiles: the two row-tiled inputs and the result sit at row block t, column block 0;
    the weights and the bias at block (0, 0) throughout. -/
theorem tile_idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of tile t's feature block is row 1024 t + p of the features. -/
theorem featBlk_apply (c : Dev nD) (t : Fin cfg0.N) (p : Fin 1024) (k : Fin 128) (r : Fin 10240) (hr : r.val = 1024 * t.val + p.val) :
    featBlk V c t (ix2 p k) = featArr V c (ix2 r k) := by
  obtain ⟨e0, e1, -⟩ := tile_idx0 t
  show V c main_v9 (((cfg0.win 0).blk t).view.emb (ix2 p k)) = V c main_v9 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 128 + 1 * k.val = k.val; omega

/-- Row p of tile t's block of the neighbour means is row 1024 t + p of the means. -/
theorem meanBlk_apply (c : Dev nD) (t : Fin cfg0.N) (p : Fin 1024) (k : Fin 128) (r : Fin 10240) (hr : r.val = 1024 * t.val + p.val) :
    meanBlk V c t (ix2 p k) = meanArr V c (ix2 r k) := by
  obtain ⟨-, -, e0, e1, -⟩ := tile_idx0 t
  show V c main_v22 (((cfg0.win 1).blk t).view.emb (ix2 p k)) = V c main_v22 (ix2 r k)
  refine congrArg _ (funext fun a => Fin.ext ?_)
  match a with
  | ⟨0, _⟩ => show win0_1.index t (0 : Fin 2) * 1024 + 1 * p.val = r.val; omega
  | ⟨1, _⟩ => show win0_1.index t (1 : Fin 2) * 128 + 1 * k.val = k.val; omega

/-- The weight blocks are the weight matrices, at every tile, -/
theorem selfBlk_apply (c : Dev nD) (t : Fin cfg0.N) (k : Fin 128) (q : Fin 32) :
    selfBlk V c t (ix2 k q) = selfArr V c (ix2 k q) := by
  obtain ⟨-, -, -, -, e0, e1, -⟩ := tile_idx0 t
  show V c main_arg4 (((cfg0.win 2).blk t).view.emb (ix2 k q)) = V c main_arg4 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 32 + 1 * q.val = q.val; omega

theorem neighBlk_apply (c : Dev nD) (t : Fin cfg0.N) (k : Fin 128) (q : Fin 32) :
    neighBlk V c t (ix2 k q) = neighArr V c (ix2 k q) := by
  obtain ⟨-, -, -, -, -, -, e0, e1, -⟩ := tile_idx0 t
  show V c main_arg5 (((cfg0.win 3).blk t).view.emb (ix2 k q)) = V c main_arg5 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 32 + 1 * q.val = q.val; omega

/-- and the bias block is the bias row. -/
theorem biasBlk_apply (c : Dev nD) (t : Fin cfg0.N) (z : Fin 1) (q : Fin 32) :
    biasBlk V c t (ix2 z q) = biasArr V c (ix2 z q) := by
  obtain ⟨-, -, -, -, -, -, -, -, e0, e1, -⟩ := tile_idx0 t
  show V c main_v23 (((cfg0.win 4).blk t).view.emb (ix2 z q)) = V c main_v23 (ix2 z q)
  refine congrArg _ (funext fun a => Fin.ext ?_)
  match a with
  | ⟨0, _⟩ => show win0_4.index t (0 : Fin 2) * 1 + 1 * z.val = z.val; omega
  | ⟨1, _⟩ => show win0_4.index t (1 : Fin 2) * 32 + 1 * q.val = q.val; omega

/-! ## A tile's entry is the closed form at its row of the array -/

/-- Blocks whose rows p are the arrays' rows r, and whose weight and bias entries are the arrays': the body's arithmetic
    at (p, q) is the closed form at (r, q). Both sides are the same two inner products plus the bias, cut off at zero. -/
theorem hid_of_blocks (X M : Vec Ideal S10240x128 .f32) (Ws Wn : Vec Ideal S128x32 .f32) (B : Vec Ideal S1x32 .f32)
    (x0 x1 : Vec Ideal S1024x128 .f32) (w0 w1 : Vec Ideal S128x32 .f32) (b : Vec Ideal S1x32 .f32)
    (p : Fin 1024) (q : Fin 32) (r : Fin 10240)
    (h0 : ∀ k : Fin 128, x0 (ix2 p k) = X (ix2 r k)) (h1 : ∀ k : Fin 128, x1 (ix2 p k) = M (ix2 r k))
    (hw0 : ∀ k : Fin 128, w0 (ix2 k q) = Ws (ix2 k q)) (hw1 : ∀ k : Fin 128, w1 (ix2 k q) = Wn (ix2 k q))
    (hb : b (ix2 (0 : Fin 1) q) = B (ix2 (0 : Fin 1) q)) :
    k0_pay1 (F := Ideal) x0 w0 x1 w1 b (ix2 p q) = Vgae.hidPad X M Ws Wn B (ix2 r q) := by
  refine (pay0_apply x0 w0 x1 w1 b p q).trans ?_
  show _ = max (((∑ k : Fin 128, X (ix2 r k) * Ws (ix2 k q)) + ∑ k : Fin 128, M (ix2 r k) * Wn (ix2 k q)) + B (ix2 (0 : Fin 1) q)) 0
  simp only [h0, h1, hw0, hw1, hb]

/-! ## What a tile writes back, and the cover -/

/-- Tile t writes back its block of the closed form of the arrays: the body's one store fills the buffer, each input
    buffer is read whole, and entry (p, q) of the tile is entry (1024 t + p, q) of the closed form. -/
theorem flushed0_eq (c : Dev nD) (t : Fin cfg0.N) :
    (dat0 (F := Ideal) V c).flushed 5 t
      = ((cfg0.win 5).blk t).view.read (Elt Ideal)
          (Vgae.hidPad (featArr V c) (meanArr V c) (selfArr V c) (neighArr V c) (biasArr V c)) := by
  show (cfg0.win 5).cut (grid0.coords t) ((dat0 (F := Ideal) V c).after 5 t) = _
  rw [after0_5]
  unfold out0_5
  rw [View.canon_unit_zero zeros2]
  simp only [View.ld_unit_zero (S := S1024x128) zeros2, View.ld_unit_zero (S := S128x32) zeros2, View.ld_unit_zero (S := S1x32) zeros2]
  funext j
  obtain ⟨p, q, rfl⟩ : ∃ (p : Fin 1024) (q : Fin 32), (j : S1024x32.Idx) = ix2 p q := ⟨j 0, j 1, eq_ix2 (n0 := 1024) (n1 := 32) j⟩
  obtain ⟨-, -, -, -, -, -, -, -, -, -, e0, e1⟩ := tile_idx0 t
  have hN : cfg0.N = 10 := N_0
  have ht : t.val < 10 := hN ▸ t.isLt
  have hp : 1024 * t.val + p.val < 10240 := by have := p.isLt; omega
  have hemb : ((cfg0.win 5).blk t).view.emb (ix2 p q) = (ix2 (⟨1024 * t.val + p.val, hp⟩ : Fin 10240) q : S10240x32.Idx) :=
    funext fun a => Fin.ext (by
      match a with
      | ⟨0, _⟩ => show win0_5.index t (0 : Fin 2) * 1024 + 1 * p.val = 1024 * t.val + p.val; omega
      | ⟨1, _⟩ => show win0_5.index t (1 : Fin 2) * 32 + 1 * q.val = q.val; omega)
  show k0_pay1 (F := Ideal) (featBlk V c t) (selfBlk V c t) (meanBlk V c t) (neighBlk V c t) (biasBlk V c t) (ix2 p q)
      = Vgae.hidPad (featArr V c) (meanArr V c) (selfArr V c) (neighArr V c) (biasArr V c) (((cfg0.win 5).blk t).view.emb (ix2 p q))
  rw [hemb]
  exact hid_of_blocks (featArr V c) (meanArr V c) (selfArr V c) (neighArr V c) (biasArr V c)
    (featBlk V c t) (meanBlk V c t) (selfBlk V c t) (neighBlk V c t) (biasBlk V c t) p q ⟨1024 * t.val + p.val, hp⟩
    (fun k => featBlk_apply V c t p k _ rfl) (fun k => meanBlk_apply V c t p k _ rfl)
    (fun k => selfBlk_apply V c t k q) (fun k => neighBlk_apply V c t k q) (biasBlk_apply V c t 0 q)

/-- An index of the result array is in tile t's block iff each coordinate is in the block's range on its axis. -/
theorem mem_tile0 (t : Fin cfg0.N) (i : S10240x32.Idx) :
    i ∈ ((cfg0.win 5).blk t).view.set
      ↔ ∀ a : Fin 2, win0_5.index t a * S1024x32.size a ≤ (i a).val ∧ (i a).val < win0_5.index t a * S1024x32.size a + S1024x32.size a := by
  show i ∈ ((View.whole main_v24).slice (win0_5.rect t)).set ↔ _
  rw [View.set_slice_whole, Rect.mem_set_unit]
  exact Iff.rfl

/-- Row r of the result lies in the tile r / 1024, and every tile is written back. -/
theorem cover0 (i : S10240x32.Idx) :
    ∃ t : Fin cfg0.N, (cfg0.win 5).flush t = true ∧ i ∈ ((cfg0.win 5).blk t).view.set := by
  have hN : cfg0.N = 10 := N_0
  have hi0 : (i 0).val < 10240 := (i 0).isLt
  have hi1 : (i 1).val < 32 := (i 1).isLt
  have htl : (i 0).val / 1024 < cfg0.N := by rw [hN]; omega
  obtain ⟨-, -, -, -, -, -, -, -, -, -, e0, e1⟩ := tile_idx0 ⟨(i 0).val / 1024, htl⟩
  refine ⟨⟨(i 0).val / 1024, htl⟩, flush0_5 _, ?_⟩
  rw [mem_tile0]
  intro a
  match a with
  | ⟨0, _⟩ =>
    show win0_5.index ⟨(i 0).val / 1024, htl⟩ (0 : Fin 2) * 1024 ≤ (i 0).val ∧ (i 0).val < win0_5.index ⟨(i 0).val / 1024, htl⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, htl⟩ (1 : Fin 2) * 32 ≤ (i 1).val ∧ (i 1).val < win0_5.index ⟨(i 0).val / 1024, htl⟩ (1 : Fin 2) * 32 + 32
    rw [e1]; omega

/-- The result array after the call. -/
theorem final0 (c : Dev nD) :
    (dat0 (F := Ideal) V c).arrAt 5 cfg0.N
      = Vgae.hidPad (V c main_v9) (V c main_v22) (V c main_arg4) (V c main_arg5) (V c main_v23) :=
  (dat0 (F := Ideal) V c).arrAt_eq_of_cover 5
    (Vgae.hidPad (featArr V c) (meanArr V c) (selfArr V c) (neighArr V c) (biasArr V c))
    (fun t _ => flushed0_eq V c t) cover0

end Cert.KernelIdeal.Hand

end
-- ==== Proof.KernelIdeal.Final1.lean ====
/-
  What the second combine call leaves in its result array, as one function of the arrays it reads.

  Tile t writes rows 1024 t .. 1024 t + 1023 of the result; the ten tiles cover the 10240 rows, and each entry of a tile is
  the same function of the entries of the arrays read: own row times one weight matrix, second row times the other, plus
  the bias.
-/
import proofs.«401770_j62697932587536_1_alg».proof.Proof.KernelIdeal.Region1
import proofs.«401770_j62697932587536_1_alg».proof.Proof.KerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## One entry of the tile's result -/

/-- The product's left factor sits in the row of the entry asked for ... -/
theorem mmLhsRow1 (i : S1024x32.Idx) (q : dot_S1024x32_S32x32_S1024x32_1_0_0_1_n_n.contr.Idx) :
    (dot_S1024x32_S32x32_S1024x32_1_0_0_1_n_n.lhsIdx i q 0).val = (i 0).val := by
  unfold DotDims.lhsIdx
  rw [dif_neg (show ¬(0 : Fin S1024x32.rank) ∈ dot_S1024x32_S32x32_S1024x32_1_0_0_1_n_n.lhsBatch by decide), dif_pos (show (0 : Fin S1024x32.rank) ∈ dot_S1024x32_S32x32_S1024x32_1_0_0_1_n_n.lhsNonContracting by decide)]
  rfl
/-- ... and in the column the sum runs over; -/
theorem mmLhsCol1 (i : S1024x32.Idx) (q : dot_S1024x32_S32x32_S1024x32_1_0_0_1_n_n.contr.Idx) :
    (dot_S1024x32_S32x32_S1024x32_1_0_0_1_n_n.lhsIdx i q 1).val = (q ⟨0, by decide⟩).val :=
  dot_S1024x32_S32x32_S1024x32_1_0_0_1_n_n.lhsIdx_val_of_single rfl i q
/-- the right factor sits in the row the sum runs over ... -/
theorem mmRhsRow1 (i : S1024x32.Idx) (q : dot_S1024x32_S32x32_S1024x32_1_0_0_1_n_n.contr.Idx) :
    (dot_S1024x32_S32x32_S1024x32_1_0_0_1_n_n.rhsIdx i q 0).val = (q ⟨0, by decide⟩).val :=
  dot_S1024x32_S32x32_S1024x32_1_0_0_1_n_n.rhsIdx_val_of_single rfl i q
/-- ... and in the column of the entry asked for. -/
theorem mmRhsCol1 (i : S1024x32.Idx) (q : dot_S1024x32_S32x32_S1024x32_1_0_0_1_n_n.contr.Idx) :
    (dot_S1024x32_S32x32_S1024x32_1_0_0_1_n_n.rhsIdx i q 1).val = (i 1).val := by
  unfold DotDims.rhsIdx
  rw [dif_neg (show ¬(1 : Fin S32x32.rank) ∈ dot_S1024x32_S32x32_S1024x32_1_0_0_1_n_n.rhsBatch by decide), dif_pos (show (1 : Fin S32x32.rank) ∈ dot_S1024x32_S32x32_S1024x32_1_0_0_1_n_n.rhsNonContracting by decide)]
  rfl

/-- A tile of rows times a weight matrix, added onto zero: entry (p, q) is row p of the tile times column q of the matrix. -/
theorem matmulAt1 (x : FVec Ideal S1024x32 .f32) (w : FVec Ideal S32x32 .f32) (p : Fin 1024) (q : Fin 32) :
    matmul (F := Ideal) dot_S1024x32_S32x32_S1024x32_1_0_0_1_n_n none x w (constant (F := Ideal) S1024x32 .f32 0x00000000#32) (ix2 p q)
      = ∑ k : Fin 32, x (ix2 p k) * w (ix2 k q) := by
  refine (Ideal.matmul_constant_zero_apply dot_S1024x32_S32x32_S1024x32_1_0_0_1_n_n none x w (ix2 p q)).trans ?_
  rw [← Equiv.sum_comp (ValueIdx.contrEquiv1 dot_S1024x32_S32x32_S1024x32_1_0_0_1_n_n 32 rfl rfl).symm]
  refine Finset.sum_congr rfl fun k _ => ?_
  have hk := ValueIdx.contrEquiv1_symm_val dot_S1024x32_S32x32_S1024x32_1_0_0_1_n_n 32 rfl rfl k
  have el : dot_S1024x32_S32x32_S1024x32_1_0_0_1_n_n.lhsIdx (ix2 p q) ((ValueIdx.contrEquiv1 dot_S1024x32_S32x32_S1024x32_1_0_0_1_n_n 32 rfl rfl).symm k) = ix2 p k := funext fun a => Fin.ext (by
    match a with
    | ⟨0, _⟩ => exact mmLhsRow1 _ _
    | ⟨1, _⟩ => exact (mmLhsCol1 _ _).trans hk)
  have er : dot_S1024x32_S32x32_S1024x32_1_0_0_1_n_n.rhsIdx (ix2 p q) ((ValueIdx.contrEquiv1 dot_S1024x32_S32x32_S1024x32_1_0_0_1_n_n 32 rfl rfl).symm k) = ix2 k q := funext fun a => Fin.ext (by
    match a with
    | ⟨0, _⟩ => exact (mmRhsRow1 _ _).trans hk
    | ⟨1, _⟩ => exact mmRhsCol1 _ _)
  rw [el, er]

/-- The bias row spread over the tile's rows: entry (p, q) is entry q of the row. -/
theorem biasAt1 (b : Vec Ideal S1x32 .f32) (p : Fin 1024) (q : Fin 32) :
    broadcastTo S1024x32 b broadcasts_S1x32_S1024x32 (ix2 p q) = b (ix2 (0 : Fin 1) q) :=
  broadcastTo_apply b broadcasts_S1x32_S1024x32 (ix2 p q) (ix2 (0 : Fin 1) q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])

/-- One entry of the tile's result: row p of the own rows times column q of the first matrix, plus row p of the second
    rows times column q of the second matrix, plus entry q of the bias row. -/
theorem payAt1 (x0 x1 : Vec Ideal S1024x32 .f32) (x2 x3 : Vec Ideal S32x32 .f32) (x4 : Vec Ideal S1x32 .f32)
    (p : Fin 1024) (q : Fin 32) :
    k1_pay1 (F := Ideal) x0 x2 x1 x3 x4 (ix2 p q)
      = ((∑ k : Fin 32, x0 (ix2 p k) * x2 (ix2 k q)) + (∑ k : Fin 32, x1 (ix2 p k) * x3 (ix2 k q))) + x4 (ix2 (0 : Fin 1) q) := by
  unfold k1_pay1
  show (matmul (F := Ideal) dot_S1024x32_S32x32_S1024x32_1_0_0_1_n_n none (shapeCast S1024x32 x0 shapeCasts_S1024x32_S1024x32 : FVec Ideal S1024x32 .f32) (x2 : FVec Ideal S32x32 .f32) (constant (F := Ideal) S1024x32 .f32 0x00000000#32) (ix2 p q)
        + matmul (F := Ideal) dot_S1024x32_S32x32_S1024x32_1_0_0_1_n_n none (shapeCast S1024x32 x1 shapeCasts_S1024x32_S1024x32 : FVec Ideal S1024x32 .f32) (x3 : FVec Ideal S32x32 .f32) (constant (F := Ideal) S1024x32 .f32 0x00000000#32) (ix2 p q))
      + broadcastTo S1024x32 (shapeCast S1x32 x4 shapeCasts_S1x32_S1x32) broadcasts_S1x32_S1024x32 (ix2 p q) = _
  rw [shapeCast_self x0, shapeCast_self x1, shapeCast_self x4, matmulAt1, matmulAt1, biasAt1]

variable (V : (c : Dev nD) → (b : Ref sig .tc) → Buf (Elt Ideal) ((c : Thread nD τ).loc b))

/-! ## The tile's input blocks, as rows of the arrays read -/

theorem hz1 : (![0, 0] : Fin 2 → Nat) = fun _ => 0 := funext fun a => match a with | ⟨0, _⟩ => rfl | ⟨1, _⟩ => rfl

/-- The own rows' block at tile t, -/
abbrev ownBlk1 (c : Dev nD) (t : Fin cfg1.N) : Vec Ideal S1024x32 .f32 := iblk1 V c 0 t
/-- the second rows' block, -/
abbrev nbrBlk1 (c : Dev nD) (t : Fin cfg1.N) : Vec Ideal S1024x32 .f32 := iblk1 V c 1 t
/-- the first weight matrix, -/
abbrev ownWts1 (c : Dev nD) (t : Fin cfg1.N) : Vec Ideal S32x32 .f32 := iblk1 V c 2 t
/-- the second weight matrix, -/
abbrev nbrWts1 (c : Dev nD) (t : Fin cfg1.N) : Vec Ideal S32x32 .f32 := iblk1 V c 3 t
/-- and the bias row, as the body reads them. -/
abbrev biasBlk1 (c : Dev nD) (t : Fin cfg1.N) : Vec Ideal S1x32 .f32 := iblk1 V c 4 t

/-- The arrays the call reads: own rows, second rows, the two weight matrices, the bias row. -/
abbrev ownArr1 (c : Dev nD) : S10240x32.Idx → EReal := V c main_v24
abbrev nbrArr1 (c : Dev nD) : S10240x32.Idx → EReal := V c main_v37
abbrev ownMat1 (c : Dev nD) : S32x32.Idx → EReal := V c main_arg7
abbrev nbrMat1 (c : Dev nD) : S32x32.Idx → EReal := V c main_arg8
abbrev biasRow1 (c : Dev nD) : S1x32.Idx → EReal := V c main_v38

/-- Where each window's block sits at tile t: the two row windows and the result window at block row t, the weight
    matrices and the bias row at their one block. -/
theorem idxFacts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the own rows' block at tile t is row 1024 t + p of the own rows. -/
theorem ownBlkAt1 (c : Dev nD) (t : Fin cfg1.N) (p : Fin 1024) (k : Fin 32) (r : Fin 10240) (hr : r.val = 1024 * t.val + p.val) :
    ownBlk1 V c t (ix2 p k) = ownArr1 V c (ix2 r k) := by
  obtain ⟨e0, e1, -⟩ := idxFacts1 t
  show iblk1 V c 0 t (ix2 p k) = _
  unfold iblk1
  rw [View.read_apply]
  show V c main_v24 _ = V c main_v24 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 32 + 1 * k.val = k.val; rw [e1]; omega

/-- Row p of the second rows' block at tile t is row 1024 t + p of the second rows. -/
theorem nbrBlkAt1 (c : Dev nD) (t : Fin cfg1.N) (p : Fin 1024) (k : Fin 32) (r : Fin 10240) (hr : r.val = 1024 * t.val + p.val) :
    nbrBlk1 V c t (ix2 p k) = nbrArr1 V c (ix2 r k) := by
  obtain ⟨-, -, e0, e1, -⟩ := idxFacts1 t
  show iblk1 V c 1 t (ix2 p k) = _
  unfold iblk1
  rw [View.read_apply]
  show V c main_v37 _ = V c main_v37 _
  congr 1
  funext a
  apply Fin.ext
  match a with
  | ⟨0, _⟩ => show win1_1.index t (0 : Fin 2) * 1024 + 1 * p.val = r.val; rw [e0, hr]; omega
  | ⟨1, _⟩ => show win1_1.index t (1 : Fin 2) * 32 + 1 * k.val = k.val; rw [e1]; omega

/-- The first weight matrix's block is the matrix. -/
theorem ownWtsAt1 (c : Dev nD) (t : Fin cfg1.N) (k q : Fin 32) :
    ownWts1 V c t (ix2 k q) = ownMat1 V c (ix2 k q) := by
  obtain ⟨-, -, -, -, e0, e1, -⟩ := idxFacts1 t
  show iblk1 V c 2 t (ix2 k q) = _
  unfold iblk1
  rw [View.read_apply]
  show V c main_arg7 _ = V c main_arg7 _
  congr 1
  funext a
  apply Fin.ext
  match a with
  | ⟨0, _⟩ => show win1_2.index t (0 : Fin 2) * 32 + 1 * k.val = k.val; rw [e0]; omega
  | ⟨1, _⟩ => show win1_2.index t (1 : Fin 2) * 32 + 1 * q.val = q.val; rw [e1]; omega

/-- The second weight matrix's block is the matrix. -/
theorem nbrWtsAt1 (c : Dev nD) (t : Fin cfg1.N) (k q : Fin 32) :
    nbrWts1 V c t (ix2 k q) = nbrMat1 V c (ix2 k q) := by
  obtain ⟨-, -, -, -, -, -, e0, e1, -⟩ := idxFacts1 t
  show iblk1 V c 3 t (ix2 k q) = _
  unfold iblk1
  rw [View.read_apply]
  show V c main_arg8 _ = V c main_arg8 _
  congr 1
  funext a
  apply Fin.ext
  match a with
  | ⟨0, _⟩ => show win1_3.index t (0 : Fin 2) * 32 + 1 * k.val = k.val; rw [e0]; omega
  | ⟨1, _⟩ => show win1_3.index t (1 : Fin 2) * 32 + 1 * q.val = q.val; rw [e1]; omega

/-- The bias row's block is the row. -/
theorem biasBlkAt1 (c : Dev nD) (t : Fin cfg1.N) (q : Fin 32) :
    biasBlk1 V c t (ix2 (0 : Fin 1) q) = biasRow1 V c (ix2 (0 : Fin 1) q) := by
  obtain ⟨-, -, -, -, -, -, -, -, e0, e1, -⟩ := idxFacts1 t
  show iblk1 V c 4 t (ix2 (0 : Fin 1) q) = _
  unfold iblk1
  rw [View.read_apply]
  show V c main_v38 _ = V c main_v38 _
  congr 1
  funext a
  apply Fin.ext
  match a with
  | ⟨0, _⟩ => show win1_4.index t (0 : Fin 2) * 1 + 1 * 0 = 0; rw [e0]
  | ⟨1, _⟩ => show win1_4.index t (1 : Fin 2) * 32 + 1 * q.val = q.val; rw [e1]; omega

/-! ## What a tile writes back, and the whole result -/

/-- Entry (p, q) of tile t's result is entry (1024 t + p, q) of the closed form of the arrays read. -/
theorem tileEntry1 (c : Dev nD) (t : Fin cfg1.N) (p : Fin 1024) (q : Fin 32) (r : Fin 10240) (hr : r.val = 1024 * t.val + p.val) :
    k1_pay1 (F := Ideal) (ownBlk1 V c t) (ownWts1 V c t) (nbrBlk1 V c t) (nbrWts1 V c t) (biasBlk1 V c t) (ix2 p q)
      = Vgae.comb32 (ownArr1 V c) (nbrArr1 V c) (ownMat1 V c) (nbrMat1 V c) (biasRow1 V c) r q := by
  refine (payAt1 (ownBlk1 V c t) (nbrBlk1 V c t) (ownWts1 V c t) (nbrWts1 V c t) (biasBlk1 V c t) p q).trans ?_
  unfold Vgae.comb32
  exact congrArg₂ (· + ·)
    (congrArg₂ (· + ·)
      (Finset.sum_congr rfl fun k _ => congrArg₂ (· * ·) (ownBlkAt1 V c t p k r hr) (ownWtsAt1 V c t k q))
      (Finset.sum_congr rfl fun k _ => congrArg₂ (· * ·) (nbrBlkAt1 V c t p k r hr) (nbrWtsAt1 V c t k q)))
    (biasBlkAt1 V c t q)

/-- What tile t writes back is block t of the closed form. -/
theorem flushedEq1 (c : Dev nD) (t : Fin cfg1.N) :
    (dat1 (F := Ideal) V c).flushed 5 t = ((cfg1.win 5).blk t).view.read (Elt Ideal)
      (Vgae.linPad (V c main_v24) (V c main_v37) (V c main_arg7) (V c main_arg8) (V c main_v38)) := by
  show (cfg1.win 5).cut (grid1.coords t) ((dat1 V c).after 5 t) = _
  rw [after1_5]
  unfold out1_5
  rw [View.canon_unit_zero hz1]
  simp only [View.ld_unit_zero (S := S1024x32) hz1, View.ld_unit_zero (S := S32x32) hz1, View.ld_unit_zero (S := S1x32) hz1]
  obtain ⟨-, -, -, -, -, -, -, -, -, -, e0, e1⟩ := idxFacts1 t
  funext j
  have ht : t.val < 10 := t.isLt
  have hp : (j 0).val < 1024 := (j 0).isLt
  have hq : (j 1).val < 32 := (j 1).isLt
  have hr : 1024 * t.val + (j 0).val < 10240 := by omega
  have hx : (cfg1.win 5).xinj (grid1.coords t) j = ix2 (⟨(j 0).val, hp⟩ : Fin 1024) (⟨(j 1).val, hq⟩ : Fin 32) :=
    funext fun a => match a with | ⟨0, _⟩ => rfl | ⟨1, _⟩ => rfl
  have hy : ((cfg1.win 5).blk t).view.emb j = ix2 (⟨1024 * t.val + (j 0).val, hr⟩ : Fin 10240) (⟨(j 1).val, hq⟩ : Fin 32) :=
    funext fun a => Fin.ext (by
      match a with
      | ⟨0, _⟩ => show win1_5.index t (0 : Fin 2) * 1024 + 1 * (j 0).val = 1024 * t.val + (j 0).val; rw [e0]; omega
      | ⟨1, _⟩ => show win1_5.index t (1 : Fin 2) * 32 + 1 * (j 1).val = (j 1).val; rw [e1]; omega)
  show k1_pay1 (F := Ideal) (ownBlk1 V c t) (ownWts1 V c t) (nbrBlk1 V c t) (nbrWts1 V c t) (biasBlk1 V c t) ((cfg1.win 5).xinj (grid1.coords t) j)
    = Vgae.linPad (ownArr1 V c) (nbrArr1 V c) (ownMat1 V c) (nbrMat1 V c) (biasRow1 V c) (((cfg1.win 5).blk t).view.emb j)
  refine (congrArg (k1_pay1 (F := Ideal) (ownBlk1 V c t) (ownWts1 V c t) (nbrBlk1 V c t) (nbrWts1 V c t) (biasBlk1 V c t)) hx).trans ?_
  refine Eq.trans ?_ (congrArg (Vgae.linPad (ownArr1 V c) (nbrArr1 V c) (ownMat1 V c) (nbrMat1 V c) (biasRow1 V c)) hy).symm
  exact tileEntry1 V c t ⟨(j 0).val, hp⟩ ⟨(j 1).val, hq⟩ ⟨1024 * t.val + (j 0).val, hr⟩ rfl

/-- An entry of the result array is in tile t's block iff its row is among the tile's 1024 rows. -/
theorem memBlk1 (t : Fin cfg1.N) (i : S10240x32.Idx) :
    i ∈ ((cfg1.win 5).blk t).view.set ↔ ∀ a : Fin 2, win1_5.index t a * S1024x32.size a ≤ (i a).val ∧ (i a).val < win1_5.index t a * S1024x32.size a + S1024x32.size a := by
  show i ∈ ((View.whole main_v39).slice (win1_5.rect t)).set ↔ _
  rw [View.set_slice_whole, Rect.mem_set_unit]
  exact Iff.rfl

/-- Every entry of the result array is written by a tile: row r by tile r / 1024. -/
theorem covered1 (i : S10240x32.Idx) :
    ∃ t : Fin cfg1.N, (cfg1.win 5).flush t = true ∧ i ∈ ((cfg1.win 5).blk t).view.set := by
  have hi0 : (i 0).val < 10240 := (i 0).isLt
  have hi1 : (i 1).val < 32 := (i 1).isLt
  have ht : (i 0).val / 1024 < 10 := by omega
  obtain ⟨-, -, -, -, -, -, -, -, -, -, e0, e1⟩ := idxFacts1 ⟨(i 0).val / 1024, ht⟩
  have e0' : win1_5.index ⟨(i 0).val / 1024, ht⟩ (0 : Fin 2) = (i 0).val / 1024 := e0
  refine ⟨⟨(i 0).val / 1024, ht⟩, flush1_5 _, ?_⟩
  rw [memBlk1]
  intro a
  match a with
  | ⟨0, _⟩ =>
    show win1_5.index ⟨(i 0).val / 1024, ht⟩ (0 : Fin 2) * 1024 ≤ (i 0).val ∧ (i 0).val < win1_5.index ⟨(i 0).val / 1024, ht⟩ (0 : Fin 2) * 1024 + 1024
    rw [e0']; omega
  | ⟨1, _⟩ =>
    show win1_5.index ⟨(i 0).val / 1024, ht⟩ (1 : Fin 2) * 32 ≤ (i 1).val ∧ (i 1).val < win1_5.index ⟨(i 0).val / 1024, ht⟩ (1 : Fin 2) * 32 + 32
    rw [e1]; omega

/-- The result array after the call. -/
theorem final1 (c : Dev nD) :
    (dat1 (F := Ideal) V c).arrAt 5 cfg1.N
      = Vgae.linPad (V c main_v24) (V c main_v37) (V c main_arg7) (V c main_arg8) (V c main_v38) :=
  (dat1 (F := Ideal) V c).arrAt_eq_of_cover 5
    (Vgae.linPad (V c main_v24) (V c main_v37) (V c main_arg7) (V c main_arg8) (V c main_v38))
    (fun t _ => flushedEq1 V c t) covered1

end Cert.KernelIdeal.Hand

end
-- ==== Proof.KernelIdeal.Final2.lean ====
/-
  What the third combine call leaves in its result array, as one function of the arrays it reads.

  Tile t writes rows 1024 t .. 1024 t + 1023 of the result; the ten tiles cover the 10240 rows, and each entry of a tile is
  the same function of the entries of the arrays read: own row times one weight matrix, second row times the other, plus
  the bias.
-/
import proofs.«401770_j62697932587536_1_alg».proof.Proof.KernelIdeal.Region2
import proofs.«401770_j62697932587536_1_alg».proof.Proof.KerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## One entry of the tile's result -/

/-- The product's left factor sits in the row of the entry asked for ... -/
theorem mmLhsRow2 (i : S1024x32.Idx) (q : dot_S1024x32_S32x32_S1024x32_1_0_0_1_n_n.contr.Idx) :
    (dot_S1024x32_S32x32_S1024x32_1_0_0_1_n_n.lhsIdx i q 0).val = (i 0).val := by
  unfold DotDims.lhsIdx
  rw [dif_neg (show ¬(0 : Fin S1024x32.rank) ∈ dot_S1024x32_S32x32_S1024x32_1_0_0_1_n_n.lhsBatch by decide), dif_pos (show (0 : Fin S1024x32.rank) ∈ dot_S1024x32_S32x32_S1024x32_1_0_0_1_n_n.lhsNonContracting by decide)]
  rfl
/-- ... and in the column the sum runs over; -/
theorem mmLhsCol2 (i : S1024x32.Idx) (q : dot_S1024x32_S32x32_S1024x32_1_0_0_1_n_n.contr.Idx) :
    (dot_S1024x32_S32x32_S1024x32_1_0_0_1_n_n.lhsIdx i q 1).val = (q ⟨0, by decide⟩).val :=
  dot_S1024x32_S32x32_S1024x32_1_0_0_1_n_n.lhsIdx_val_of_single rfl i q
/-- the right factor sits in the row the sum runs over ... -/
theorem mmRhsRow2 (i : S1024x32.Idx) (q : dot_S1024x32_S32x32_S1024x32_1_0_0_1_n_n.contr.Idx) :
    (dot_S1024x32_S32x32_S1024x32_1_0_0_1_n_n.rhsIdx i q 0).val = (q ⟨0, by decide⟩).val :=
  dot_S1024x32_S32x32_S1024x32_1_0_0_1_n_n.rhsIdx_val_of_single rfl i q
/-- ... and in the column of the entry asked for. -/
theorem mmRhsCol2 (i : S1024x32.Idx) (q : dot_S1024x32_S32x32_S1024x32_1_0_0_1_n_n.contr.Idx) :
    (dot_S1024x32_S32x32_S1024x32_1_0_0_1_n_n.rhsIdx i q 1).val = (i 1).val := by
  unfold DotDims.rhsIdx
  rw [dif_neg (show ¬(1 : Fin S32x32.rank) ∈ dot_S1024x32_S32x32_S1024x32_1_0_0_1_n_n.rhsBatch by decide), dif_pos (show (1 : Fin S32x32.rank) ∈ dot_S1024x32_S32x32_S1024x32_1_0_0_1_n_n.rhsNonContracting by decide)]
  rfl

/-- A tile of rows times a weight matrix, added onto zero: entry (p, q) is row p of the tile times column q of the matrix. -/
theorem matmulAt2 (x : FVec Ideal S1024x32 .f32) (w : FVec Ideal S32x32 .f32) (p : Fin 1024) (q : Fin 32) :
    matmul (F := Ideal) dot_S1024x32_S32x32_S1024x32_1_0_0_1_n_n none x w (constant (F := Ideal) S1024x32 .f32 0x00000000#32) (ix2 p q)
      = ∑ k : Fin 32, x (ix2 p k) * w (ix2 k q) := by
  refine (Ideal.matmul_constant_zero_apply dot_S1024x32_S32x32_S1024x32_1_0_0_1_n_n none x w (ix2 p q)).trans ?_
  rw [← Equiv.sum_comp (ValueIdx.contrEquiv1 dot_S1024x32_S32x32_S1024x32_1_0_0_1_n_n 32 rfl rfl).symm]
  refine Finset.sum_congr rfl fun k _ => ?_
  have hk := ValueIdx.contrEquiv1_symm_val dot_S1024x32_S32x32_S1024x32_1_0_0_1_n_n 32 rfl rfl k
  have el : dot_S1024x32_S32x32_S1024x32_1_0_0_1_n_n.lhsIdx (ix2 p q) ((ValueIdx.contrEquiv1 dot_S1024x32_S32x32_S1024x32_1_0_0_1_n_n 32 rfl rfl).symm k) = ix2 p k := funext fun a => Fin.ext (by
    match a with
    | ⟨0, _⟩ => exact mmLhsRow2 _ _
    | ⟨1, _⟩ => exact (mmLhsCol2 _ _).trans hk)
  have er : dot_S1024x32_S32x32_S1024x32_1_0_0_1_n_n.rhsIdx (ix2 p q) ((ValueIdx.contrEquiv1 dot_S1024x32_S32x32_S1024x32_1_0_0_1_n_n 32 rfl rfl).symm k) = ix2 k q := funext fun a => Fin.ext (by
    match a with
    | ⟨0, _⟩ => exact (mmRhsRow2 _ _).trans hk
    | ⟨1, _⟩ => exact mmRhsCol2 _ _)
  rw [el, er]

/-- The bias row spread over the tile's rows: entry (p, q) is entry q of the row. -/
theorem biasAt2 (b : Vec Ideal S1x32 .f32) (p : Fin 1024) (q : Fin 32) :
    broadcastTo S1024x32 b broadcasts_S1x32_S1024x32 (ix2 p q) = b (ix2 (0 : Fin 1) q) :=
  broadcastTo_apply b broadcasts_S1x32_S1024x32 (ix2 p q) (ix2 (0 : Fin 1) q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])

/-- One entry of the tile's result: row p of the own rows times column q of the first matrix, plus row p of the second
    rows times column q of the second matrix, plus entry q of the bias row. -/
theorem payAt2 (x0 x1 : Vec Ideal S1024x32 .f32) (x2 x3 : Vec Ideal S32x32 .f32) (x4 : Vec Ideal S1x32 .f32)
    (p : Fin 1024) (q : Fin 32) :
    k2_pay1 (F := Ideal) x0 x2 x1 x3 x4 (ix2 p q)
      = ((∑ k : Fin 32, x0 (ix2 p k) * x2 (ix2 k q)) + (∑ k : Fin 32, x1 (ix2 p k) * x3 (ix2 k q))) + x4 (ix2 (0 : Fin 1) q) := by
  unfold k2_pay1
  show (matmul (F := Ideal) dot_S1024x32_S32x32_S1024x32_1_0_0_1_n_n none (shapeCast S1024x32 x0 shapeCasts_S1024x32_S1024x32 : FVec Ideal S1024x32 .f32) (x2 : FVec Ideal S32x32 .f32) (constant (F := Ideal) S1024x32 .f32 0x00000000#32) (ix2 p q)
        + matmul (F := Ideal) dot_S1024x32_S32x32_S1024x32_1_0_0_1_n_n none (shapeCast S1024x32 x1 shapeCasts_S1024x32_S1024x32 : FVec Ideal S1024x32 .f32) (x3 : FVec Ideal S32x32 .f32) (constant (F := Ideal) S1024x32 .f32 0x00000000#32) (ix2 p q))
      + broadcastTo S1024x32 (shapeCast S1x32 x4 shapeCasts_S1x32_S1x32) broadcasts_S1x32_S1024x32 (ix2 p q) = _
  rw [shapeCast_self x0, shapeCast_self x1, shapeCast_self x4, matmulAt2, matmulAt2, biasAt2]

variable (V : (c : Dev nD) → (b : Ref sig .tc) → Buf (Elt Ideal) ((c : Thread nD τ).loc b))

/-! ## The tile's input blocks, as rows of the arrays read -/

theorem hz2 : (![0, 0] : Fin 2 → Nat) = fun _ => 0 := funext fun a => match a with | ⟨0, _⟩ => rfl | ⟨1, _⟩ => rfl

/-- The own rows' block at tile t, -/
abbrev ownBlk2 (c : Dev nD) (t : Fin cfg2.N) : Vec Ideal S1024x32 .f32 := iblk2 V c 0 t
/-- the second rows' block, -/
abbrev nbrBlk2 (c : Dev nD) (t : Fin cfg2.N) : Vec Ideal S1024x32 .f32 := iblk2 V c 1 t
/-- the first weight matrix, -/
abbrev ownWts2 (c : Dev nD) (t : Fin cfg2.N) : Vec Ideal S32x32 .f32 := iblk2 V c 2 t
/-- the second weight matrix, -/
abbrev nbrWts2 (c : Dev nD) (t : Fin cfg2.N) : Vec Ideal S32x32 .f32 := iblk2 V c 3 t
/-- and the bias row, as the body reads them. -/
abbrev biasBlk2 (c : Dev nD) (t : Fin cfg2.N) : Vec Ideal S1x32 .f32 := iblk2 V c 4 t

/-- The arrays the call reads: own rows, second rows, the two weight matrices, the bias row. -/
abbrev ownArr2 (c : Dev nD) : S10240x32.Idx → EReal := V c main_v24
abbrev nbrArr2 (c : Dev nD) : S10240x32.Idx → EReal := V c main_v37
abbrev ownMat2 (c : Dev nD) : S32x32.Idx → EReal := V c main_arg10
abbrev nbrMat2 (c : Dev nD) : S32x32.Idx → EReal := V c main_arg11
abbrev biasRow2 (c : Dev nD) : S1x32.Idx → EReal := V c main_v40

/-- Where each window's block sits at tile t: the two row windows and the result window at block row t, the weight
    matrices and the bias row at their one block. -/
theorem idxFacts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the own rows' block at tile t is row 1024 t + p of the own rows. -/
theorem ownBlkAt2 (c : Dev nD) (t : Fin cfg2.N) (p : Fin 1024) (k : Fin 32) (r : Fin 10240) (hr : r.val = 1024 * t.val + p.val) :
    ownBlk2 V c t (ix2 p k) = ownArr2 V c (ix2 r k) := by
  obtain ⟨e0, e1, -⟩ := idxFacts2 t
  show iblk2 V c 0 t (ix2 p k) = _
  unfold iblk2
  rw [View.read_apply]
  show V c main_v24 _ = V c main_v24 _
  congr 1
  funext a
  apply Fin.ext
  match a with
  | ⟨0, _⟩ => show win2_0.index t (0 : Fin 2) * 1024 + 1 * p.val = r.val; rw [e0, hr]; omega
  | ⟨1, _⟩ => show win2_0.index t (1 : Fin 2) * 32 + 1 * k.val = k.val; rw [e1]; omega

/-- Row p of the second rows' block at tile t is row 1024 t + p of the second rows. -/
theorem nbrBlkAt2 (c : Dev nD) (t : Fin cfg2.N) (p : Fin 1024) (k : Fin 32) (r : Fin 10240) (hr : r.val = 1024 * t.val + p.val) :
    nbrBlk2 V c t (ix2 p k) = nbrArr2 V c (ix2 r k) := by
  obtain ⟨-, -, e0, e1, -⟩ := idxFacts2 t
  show iblk2 V c 1 t (ix2 p k) = _
  unfold iblk2
  rw [View.read_apply]
  show V c main_v37 _ = V c main_v37 _
  congr 1
  funext a
  apply Fin.ext
  match a with
  | ⟨0, _⟩ => show win2_1.index t (0 : Fin 2) * 1024 + 1 * p.val = r.val; rw [e0, hr]; omega
  | ⟨1, _⟩ => show win2_1.index t (1 : Fin 2) * 32 + 1 * k.val = k.val; rw [e1]; omega

/-- The first weight matrix's block is the matrix. -/
theorem ownWtsAt2 (c : Dev nD) (t : Fin cfg2.N) (k q : Fin 32) :
    ownWts2 V c t (ix2 k q) = ownMat2 V c (ix2 k q) := by
  obtain ⟨-, -, -, -, e0, e1, -⟩ := idxFacts2 t
  show iblk2 V c 2 t (ix2 k q) = _
  unfold iblk2
  rw [View.read_apply]
  show V c main_arg10 _ = V c main_arg10 _
  congr 1
  funext a
  apply Fin.ext
  match a with
  | ⟨0, _⟩ => show win2_2.index t (0 : Fin 2) * 32 + 1 * k.val = k.val; rw [e0]; omega
  | ⟨1, _⟩ => show win2_2.index t (1 : Fin 2) * 32 + 1 * q.val = q.val; rw [e1]; omega

/-- The second weight matrix's block is the matrix. -/
theorem nbrWtsAt2 (c : Dev nD) (t : Fin cfg2.N) (k q : Fin 32) :
    nbrWts2 V c t (ix2 k q) = nbrMat2 V c (ix2 k q) := by
  obtain ⟨-, -, -, -, -, -, e0, e1, -⟩ := idxFacts2 t
  show iblk2 V c 3 t (ix2 k q) = _
  unfold iblk2
  rw [View.read_apply]
  show V c main_arg11 _ = V c main_arg11 _
  congr 1
  funext a
  apply Fin.ext
  match a with
  | ⟨0, _⟩ => show win2_3.index t (0 : Fin 2) * 32 + 1 * k.val = k.val; rw [e0]; omega
  | ⟨1, _⟩ => show win2_3.index t (1 : Fin 2) * 32 + 1 * q.val = q.val; rw [e1]; omega

/-- The bias row's block is the row. -/
theorem biasBlkAt2 (c : Dev nD) (t : Fin cfg2.N) (q : Fin 32) :
    biasBlk2 V c t (ix2 (0 : Fin 1) q) = biasRow2 V c (ix2 (0 : Fin 1) q) := by
  obtain ⟨-, -, -, -, -, -, -, -, e0, e1, -⟩ := idxFacts2 t
  show iblk2 V c 4 t (ix2 (0 : Fin 1) q) = _
  unfold iblk2
  rw [View.read_apply]
  show V c main_v40 _ = V c main_v40 _
  congr 1
  funext a
  apply Fin.ext
  match a with
  | ⟨0, _⟩ => show win2_4.index t (0 : Fin 2) * 1 + 1 * 0 = 0; rw [e0]
  | ⟨1, _⟩ => show win2_4.index t (1 : Fin 2) * 32 + 1 * q.val = q.val; rw [e1]; omega

/-! ## What a tile writes back, and the whole result -/

/-- Entry (p, q) of tile t's result is entry (1024 t + p, q) of the closed form of the arrays read. -/
theorem tileEntry2 (c : Dev nD) (t : Fin cfg2.N) (p : Fin 1024) (q : Fin 32) (r : Fin 10240) (hr : r.val = 1024 * t.val + p.val) :
    k2_pay1 (F := Ideal) (ownBlk2 V c t) (ownWts2 V c t) (nbrBlk2 V c t) (nbrWts2 V c t) (biasBlk2 V c t) (ix2 p q)
      = Vgae.comb32 (ownArr2 V c) (nbrArr2 V c) (ownMat2 V c) (nbrMat2 V c) (biasRow2 V c) r q := by
  refine (payAt2 (ownBlk2 V c t) (nbrBlk2 V c t) (ownWts2 V c t) (nbrWts2 V c t) (biasBlk2 V c t) p q).trans ?_
  unfold Vgae.comb32
  exact congrArg₂ (· + ·)
    (congrArg₂ (· + ·)
      (Finset.sum_congr rfl fun k _ => congrArg₂ (· * ·) (ownBlkAt2 V c t p k r hr) (ownWtsAt2 V c t k q))
      (Finset.sum_congr rfl fun k _ => congrArg₂ (· * ·) (nbrBlkAt2 V c t p k r hr) (nbrWtsAt2 V c t k q)))
    (biasBlkAt2 V c t q)

/-- What tile t writes back is block t of the closed form. -/
theorem flushedEq2 (c : Dev nD) (t : Fin cfg2.N) :
    (dat2 (F := Ideal) V c).flushed 5 t = ((cfg2.win 5).blk t).view.read (Elt Ideal)
      (Vgae.linPad (V c main_v24) (V c main_v37) (V c main_arg10) (V c main_arg11) (V c main_v40)) := by
  show (cfg2.win 5).cut (grid2.coords t) ((dat2 V c).after 5 t) = _
  rw [after2_5]
  unfold out2_5
  rw [View.canon_unit_zero hz2]
  simp only [View.ld_unit_zero (S := S1024x32) hz2, View.ld_unit_zero (S := S32x32) hz2, View.ld_unit_zero (S := S1x32) hz2]
  obtain ⟨-, -, -, -, -, -, -, -, -, -, e0, e1⟩ := idxFacts2 t
  funext j
  have ht : t.val < 10 := t.isLt
  have hp : (j 0).val < 1024 := (j 0).isLt
  have hq : (j 1).val < 32 := (j 1).isLt
  have hr : 1024 * t.val + (j 0).val < 10240 := by omega
  have hx : (cfg2.win 5).xinj (grid2.coords t) j = ix2 (⟨(j 0).val, hp⟩ : Fin 1024) (⟨(j 1).val, hq⟩ : Fin 32) :=
    funext fun a => match a with | ⟨0, _⟩ => rfl | ⟨1, _⟩ => rfl
  have hy : ((cfg2.win 5).blk t).view.emb j = ix2 (⟨1024 * t.val + (j 0).val, hr⟩ : Fin 10240) (⟨(j 1).val, hq⟩ : Fin 32) :=
    funext fun a => Fin.ext (by
      match a with
      | ⟨0, _⟩ => show win2_5.index t (0 : Fin 2) * 1024 + 1 * (j 0).val = 1024 * t.val + (j 0).val; rw [e0]; omega
      | ⟨1, _⟩ => show win2_5.index t (1 : Fin 2) * 32 + 1 * (j 1).val = (j 1).val; rw [e1]; omega)
  show k2_pay1 (F := Ideal) (ownBlk2 V c t) (ownWts2 V c t) (nbrBlk2 V c t) (nbrWts2 V c t) (biasBlk2 V c t) ((cfg2.win 5).xinj (grid2.coords t) j)
    = Vgae.linPad (ownArr2 V c) (nbrArr2 V c) (ownMat2 V c) (nbrMat2 V c) (biasRow2 V c) (((cfg2.win 5).blk t).view.emb j)
  refine (congrArg (k2_pay1 (F := Ideal) (ownBlk2 V c t) (ownWts2 V c t) (nbrBlk2 V c t) (nbrWts2 V c t) (biasBlk2 V c t)) hx).trans ?_
  refine Eq.trans ?_ (congrArg (Vgae.linPad (ownArr2 V c) (nbrArr2 V c) (ownMat2 V c) (nbrMat2 V c) (biasRow2 V c)) hy).symm
  exact tileEntry2 V c t ⟨(j 0).val, hp⟩ ⟨(j 1).val, hq⟩ ⟨1024 * t.val + (j 0).val, hr⟩ rfl

/-- An entry of the result array is in tile t's block iff its row is among the tile's 1024 rows. -/
theorem memBlk2 (t : Fin cfg2.N) (i : S10240x32.Idx) :
    i ∈ ((cfg2.win 5).blk t).view.set ↔ ∀ a : Fin 2, win2_5.index t a * S1024x32.size a ≤ (i a).val ∧ (i a).val < win2_5.index t a * S1024x32.size a + S1024x32.size a := by
  show i ∈ ((View.whole main_v41).slice (win2_5.rect t)).set ↔ _
  rw [View.set_slice_whole, Rect.mem_set_unit]
  exact Iff.rfl

/-- Every entry of the result array is written by a tile: row r by tile r / 1024. -/
theorem covered2 (i : S10240x32.Idx) :
    ∃ t : Fin cfg2.N, (cfg2.win 5).flush t = true ∧ i ∈ ((cfg2.win 5).blk t).view.set := by
  have hi0 : (i 0).val < 10240 := (i 0).isLt
  have hi1 : (i 1).val < 32 := (i 1).isLt
  have ht : (i 0).val / 1024 < 10 := by omega
  obtain ⟨-, -, -, -, -, -, -, -, -, -, e0, e1⟩ := idxFacts2 ⟨(i 0).val / 1024, ht⟩
  have e0' : win2_5.index ⟨(i 0).val / 1024, ht⟩ (0 : Fin 2) = (i 0).val / 1024 := e0
  refine ⟨⟨(i 0).val / 1024, ht⟩, flush2_5 _, ?_⟩
  rw [memBlk2]
  intro a
  match a with
  | ⟨0, _⟩ =>
    show win2_5.index ⟨(i 0).val / 1024, ht⟩ (0 : Fin 2) * 1024 ≤ (i 0).val ∧ (i 0).val < win2_5.index ⟨(i 0).val / 1024, ht⟩ (0 : Fin 2) * 1024 + 1024
    rw [e0']; omega
  | ⟨1, _⟩ =>
    show win2_5.index ⟨(i 0).val / 1024, ht⟩ (1 : Fin 2) * 32 ≤ (i 1).val ∧ (i 1).val < win2_5.index ⟨(i 0).val / 1024, ht⟩ (1 : Fin 2) * 32 + 32
    rw [e1]; omega

/-- The result array after the call. -/
theorem final2 (c : Dev nD) :
    (dat2 (F := Ideal) V c).arrAt 5 cfg2.N
      = Vgae.linPad (V c main_v24) (V c main_v37) (V c main_arg10) (V c main_arg11) (V c main_v40) :=
  (dat2 (F := Ideal) V c).arrAt_eq_of_cover 5
    (Vgae.linPad (V c main_v24) (V c main_v37) (V c main_arg10) (V c main_arg11) (V c main_v40))
    (fun t _ => flushedEq2 V c t) covered2

end Cert.KernelIdeal.Hand

end
-- ==== Proof.KernelIdeal.Final3.lean ====
/-
  What the decode call leaves in its result array, as one function of the array it reads.

  Tile (i, j) writes rows 1024 i .. and columns 1024 j .. of the result; the hundred tiles cover the 10240 x 10240 entries,
  and each entry is the logistic of the inner product of two rows of the padded codes.

  In order: the tile's entry (p, q) as a function of the two blocks of rows the tile reads (the product of the first
  block with the transpose of the second contracts the 32 columns of both; the logistic is entrywise); each block's
  entry as an entry of the padded codes (row block i starts at row 1024 i); so tile t = 10 i + j writes the tile
  (i, j) of the closed form; entry (r, s) lies in tile 10 (r / 1024) + s / 1024, so the tiles cover the array.
-/
import proofs.«401770_j62697932587536_1_alg».proof.Proof.KernelIdeal.Region3
import proofs.«401770_j62697932587536_1_alg».proof.Proof.KerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Decode

/-- The zero offsets of a whole-buffer access. -/
theorem hz3 : (![0, 0] : Fin 2 → Nat) = fun _ => 0 := funext fun a => by fin_cases a <;> rfl

/-! ## The tile's entry from the two blocks -/

/-- In the product of a [1024, 32] block with the transpose of another, the left operand is read at the result's
    row on its axis 0 -/
theorem lhs_dec_0 (i : S1024x1024.Idx) (q : dot_S1024x32_S1024x32_S1024x1024_1_1_0_0_n_n.contr.Idx) :
    (dot_S1024x32_S1024x32_S1024x1024_1_1_0_0_n_n.lhsIdx i q 0).val = (i 0).val := by
  unfold DotDims.lhsIdx
  rw [dif_neg (show ¬(0 : Fin S1024x32.rank) ∈ dot_S1024x32_S1024x32_S1024x1024_1_1_0_0_n_n.lhsBatch by decide), dif_pos (show (0 : Fin S1024x32.rank) ∈ dot_S1024x32_S1024x32_S1024x1024_1_1_0_0_n_n.lhsNonContracting by decide)]
  rfl
/-- and at the summation index on its axis 1; -/
theorem lhs_dec_1 (i : S1024x1024.Idx) (q : dot_S1024x32_S1024x32_S1024x1024_1_1_0_0_n_n.contr.Idx) :
    (dot_S1024x32_S1024x32_S1024x1024_1_1_0_0_n_n.lhsIdx i q 1).val = (q ⟨0, by decide⟩).val :=
  dot_S1024x32_S1024x32_S1024x1024_1_1_0_0_n_n.lhsIdx_val_of_single rfl i q
/-- the right operand is read at the result's COLUMN on its axis 0 (it enters transposed) -/
theorem rhs_dec_0 (i : S1024x1024.Idx) (q : dot_S1024x32_S1024x32_S1024x1024_1_1_0_0_n_n.contr.Idx) :
    (dot_S1024x32_S1024x32_S1024x1024_1_1_0_0_n_n.rhsIdx i q 0).val = (i 1).val := by
  unfold DotDims.rhsIdx
  rw [dif_neg (show ¬(0 : Fin S1024x32.rank) ∈ dot_S1024x32_S1024x32_S1024x1024_1_1_0_0_n_n.rhsBatch by decide), dif_pos (show (0 : Fin S1024x32.rank) ∈ dot_S1024x32_S1024x32_S1024x1024_1_1_0_0_n_n.rhsNonContracting by decide)]
  rfl
/-- and at the summation index on its axis 1. -/
theorem rhs_dec_1 (i : S1024x1024.Idx) (q : dot_S1024x32_S1024x32_S1024x1024_1_1_0_0_n_n.contr.Idx) :
    (dot_S1024x32_S1024x32_S1024x1024_1_1_0_0_n_n.rhsIdx i q 1).val = (q ⟨0, by decide⟩).val :=
  dot_S1024x32_S1024x32_S1024x1024_1_1_0_0_n_n.rhsIdx_val_of_single rfl i q

/-- The product of the first block with the transpose of the second, added onto zero, at entry (p, q): the inner
    product of row p of the first and row q of the second. -/
theorem gram_apply (x0 x1 : FVec Ideal S1024x32 .f32) (p q : Fin 1024) :
    matmul (F := Ideal) dot_S1024x32_S1024x32_S1024x1024_1_1_0_0_n_n none x0 x1 (constant (F := Ideal) S1024x1024 .f32 0x00000000#32) (ix2 p q)
      = ∑ k : Fin 32, x0 (ix2 p k) * x1 (ix2 q k) := by
  refine (Ideal.matmul_constant_zero_apply dot_S1024x32_S1024x32_S1024x1024_1_1_0_0_n_n none x0 x1 (ix2 p q)).trans ?_
  rw [← Equiv.sum_comp (ValueIdx.contrEquiv1 dot_S1024x32_S1024x32_S1024x1024_1_1_0_0_n_n 32 rfl rfl).symm]
  refine Finset.sum_congr rfl fun k _ => ?_
  have hk := ValueIdx.contrEquiv1_symm_val dot_S1024x32_S1024x32_S1024x1024_1_1_0_0_n_n 32 rfl rfl k
  have el : dot_S1024x32_S1024x32_S1024x1024_1_1_0_0_n_n.lhsIdx (ix2 p q) ((ValueIdx.contrEquiv1 dot_S1024x32_S1024x32_S1024x1024_1_1_0_0_n_n 32 rfl rfl).symm k) = ix2 p k := funext fun a => Fin.ext (by
    match a with
    | ⟨0, _⟩ => exact lhs_dec_0 _ _
    | ⟨1, _⟩ => exact (lhs_dec_1 _ _).trans hk)
  have er : dot_S1024x32_S1024x32_S1024x1024_1_1_0_0_n_n.rhsIdx (ix2 p q) ((ValueIdx.contrEquiv1 dot_S1024x32_S1024x32_S1024x1024_1_1_0_0_n_n 32 rfl rfl).symm k) = ix2 q k := funext fun a => Fin.ext (by
    match a with
    | ⟨0, _⟩ => exact rhs_dec_0 _ _
    | ⟨1, _⟩ => exact (rhs_dec_1 _ _).trans hk)
  rw [el, er]

/-- The tile's entry (p, q): the logistic of the inner product of row p of the first block and row q of the second
    (the two casts of a shape to itself change nothing). -/
theorem pay3_apply (x0 x1 : Vec Ideal S1024x32 .f32) (p q : Fin 1024) :
    k3_pay1 (F := Ideal) x0 x1 (ix2 p q) = Ideal.logistic (∑ k : Fin 32, x0 (ix2 p k) * x1 (ix2 q k)) := by
  unfold k3_pay1
  show Ideal.logistic (matmul (F := Ideal) dot_S1024x32_S1024x32_S1024x1024_1_1_0_0_n_n none (shapeCast S1024x32 x0 shapeCasts_S1024x32_S1024x32) (shapeCast S1024x32 x1 shapeCasts_S1024x32_S1024x32) (constant (F := Ideal) S1024x1024 .f32 0x00000000#32) (ix2 p q)) = _
  refine congrArg Ideal.logistic ?_
  refine (gram_apply _ _ p q).trans ?_
  refine Finset.sum_congr rfl fun k _ => ?_
  exact congrArg₂ (· * ·) (congrFun (shapeCast_self x0 _) _) (congrFun (shapeCast_self x1 _) _)

/-! ## The blocks as rows of the padded codes -/

variable (V : (c : Dev nD) → (b : Ref sig .tc) → Buf (Elt Ideal) ((c : Thread nD τ).loc b))

/-- The padded codes as the call finds them. -/
abbrev codes (c : Dev nD) : S10240x32.Idx → EReal := V c main_v47
/-- The block of rows a tile reads for its rows (the first input window's block), -/
abbrev rowBlk (c : Dev nD) (t : Fin cfg3.N) : Vec Ideal S1024x32 .f32 := iblk3 V c 0 t
/-- and the block of rows it reads for its columns (the second input window's block, of the same array). -/
abbrev colBlk (c : Dev nD) (t : Fin cfg3.N) : Vec Ideal S1024x32 .f32 := iblk3 V c 1 t

/-- The index maps over the grid: tile t = 10 i + j reads row block i and row block j, each over all 32 columns, and
    writes tile (i, j). -/
theorem tile_coords : ∀ t : Fin cfg3.N, win3_0.index t (0 : Fin 2) = t.val / 10 ∧ win3_0.index t (1 : Fin 2) = 0
    ∧ win3_1.index t (0 : Fin 2) = t.val % 10 ∧ win3_1.index t (1 : Fin 2) = 0
    ∧ win3_2.index t (0 : Fin 2) = t.val / 10 ∧ win3_2.index t (1 : Fin 2) = t.val % 10 :=
  (by decide +kernel : ∀ t : Fin grid3.N, _)

/-- Entry (p, k) of the row block of tile t is entry (1024 (t / 10) + p, k) of the codes. -/
theorem rowBlk_apply (c : Dev nD) (t : Fin cfg3.N) (y : S1024x32.Idx) (k : S10240x32.Idx)
    (hk0 : (k 0).val = 1024 * (t.val / 10) + (y 0).val) (hk1 : (k 1).val = (y 1).val) :
    rowBlk V c t y = codes V c k := by
  obtain ⟨e0, e1, -, -, -, -⟩ := tile_coords t
  show ((cfg3.win 0).blk t).view.read (Elt Ideal) (V c (Pipeline.arrRef spec3 0)) y = V c main_v47 k
  rw [View.read_apply]
  show V c main_v47 _ = V c main_v47 _
  refine congrArg (V c main_v47) ?_
  funext a
  apply Fin.ext
  match a with
  | ⟨0, _⟩ => show win3_0.index t (0 : Fin 2) * 1024 + 1 * (y 0).val = (k 0).val; rw [e0, hk0]; omega
  | ⟨1, _⟩ => show win3_0.index t (1 : Fin 2) * 32 + 1 * (y 1).val = (k 1).val; rw [e1, hk1]; omega

/-- Entry (q, k) of the column block of tile t is entry (1024 (t % 10) + q, k) of the codes. -/
theorem colBlk_apply (c : Dev nD) (t : Fin cfg3.N) (y : S1024x32.Idx) (k : S10240x32.Idx)
    (hk0 : (k 0).val = 1024 * (t.val % 10) + (y 0).val) (hk1 : (k 1).val = (y 1).val) :
    colBlk V c t y = codes V c k := by
  obtain ⟨-, -, e2, e3, -, -⟩ := tile_coords t
  show ((cfg3.win 1).blk t).view.read (Elt Ideal) (V c (Pipeline.arrRef spec3 1)) y = V c main_v47 k
  rw [View.read_apply]
  show V c main_v47 _ = V c main_v47 _
  refine congrArg (V c main_v47) ?_
  funext a
  apply Fin.ext
  match a with
  | ⟨0, _⟩ => show win3_1.index t (0 : Fin 2) * 1024 + 1 * (y 0).val = (k 0).val; rw [e2, hk0]; omega
  | ⟨1, _⟩ => show win3_1.index t (1 : Fin 2) * 32 + 1 * (y 1).val = (k 1).val; rw [e3, hk1]; omega

/-! ## From tiles to the array -/

/-- What tile t = 10 i + j writes back is the tile (i, j) of the closed form: its entry (p, q) sits at row
    1024 i + p and column 1024 j + q of the result, and is the logistic of the inner product of rows 1024 i + p and
    1024 j + q of the codes. -/
theorem tile_eq (c : Dev nD) (t : Fin cfg3.N) :
    (dat3 (F := Ideal) V c).flushed 2 t = ((cfg3.win 2).blk t).view.read (Elt Ideal) (Vgae.decPad (codes V c)) := by
  show (cfg3.win 2).cut (grid3.coords t) ((dat3 V c).after 2 t) = _
  rw [after3_2]
  unfold out3_2
  rw [View.canon_unit_zero hz3]
  simp only [View.ld_unit_zero (S := S1024x32) hz3]
  obtain ⟨-, -, -, -, e4, e5⟩ := tile_coords t
  have ht : t.val < 100 := t.isLt
  funext j
  have hp : (j 0).val < 1024 := (j 0).isLt
  have hq : (j 1).val < 1024 := (j 1).isLt
  have eL : (cfg3.win 2).xinj (grid3.coords t) j = ix2 (⟨(j 0).val, hp⟩ : Fin 1024) (⟨(j 1).val, hq⟩ : Fin 1024) :=
    funext fun a => Fin.ext (by match a with | ⟨0, _⟩ => rfl | ⟨1, _⟩ => rfl)
  have eR : ((cfg3.win 2).blk t).view.emb j
      = ix2 (⟨1024 * (t.val / 10) + (j 0).val, by omega⟩ : Fin 10240) (⟨1024 * (t.val % 10) + (j 1).val, by omega⟩ : Fin 10240) :=
    funext fun a => Fin.ext (by
      match a with
      | ⟨0, _⟩ => show win3_2.index t (0 : Fin 2) * 1024 + 1 * (j 0).val = 1024 * (t.val / 10) + (j 0).val; rw [e4]; omega
      | ⟨1, _⟩ => show win3_2.index t (1 : Fin 2) * 1024 + 1 * (j 1).val = 1024 * (t.val % 10) + (j 1).val; rw [e5]; omega)
  show k3_pay1 (F := Ideal) (rowBlk V c t) (colBlk V c t) ((cfg3.win 2).xinj (grid3.coords t) j)
    = Vgae.decPad (codes V c) (((cfg3.win 2).blk t).view.emb j)
  rw [eL, eR]
  refine (pay3_apply (rowBlk V c t) (colBlk V c t) ⟨(j 0).val, hp⟩ ⟨(j 1).val, hq⟩).trans ?_
  show Ideal.logistic _ = Ideal.logistic _
  refine congrArg Ideal.logistic (Finset.sum_congr rfl fun k _ => ?_)
  exact congrArg₂ (· * ·) (rowBlk_apply V c t _ _ rfl rfl) (colBlk_apply V c t _ _ rfl rfl)

/-- An entry of the result lies in tile t iff each coordinate lies in the tile's range on its axis. -/
theorem mem_tile (t : Fin cfg3.N) (i : S10240x10240.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v48).slice (win3_2.rect t)).set ↔ _
  rw [View.set_slice_whole, Rect.mem_set_unit]
  exact Iff.rfl

/-- Entry (r, s) lies in tile 10 (r / 1024) + s / 1024: the hundred tiles cover the result. -/
theorem tiles_cover (i : S10240x10240.Idx) :
    ∃ t : Fin cfg3.N, (cfg3.win 2).flush t = true ∧ i ∈ ((cfg3.win 2).blk t).view.set := by
  have hi0 : (i 0).val < 10240 := (i 0).isLt
  have hi1 : (i 1).val < 10240 := (i 1).isLt
  have hN : cfg3.N = 100 := N_3
  obtain ⟨t, ht⟩ : ∃ t : Fin cfg3.N, t.val = 10 * ((i 0).val / 1024) + (i 1).val / 1024 :=
    ⟨⟨10 * ((i 0).val / 1024) + (i 1).val / 1024, by rw [hN]; omega⟩, rfl⟩
  obtain ⟨-, -, -, -, e4, e5⟩ := tile_coords t
  refine ⟨t, flush3_2 t, ?_⟩
  rw [mem_tile]
  intro a
  match a with
  | ⟨0, _⟩ => show win3_2.index t (0 : Fin 2) * 1024 ≤ (i 0).val ∧ (i 0).val < win3_2.index t (0 : Fin 2) * 1024 + 1024; rw [e4, ht]; omega
  | ⟨1, _⟩ => show win3_2.index t (1 : Fin 2) * 1024 ≤ (i 1).val ∧ (i 1).val < win3_2.index t (1 : Fin 2) * 1024 + 1024; rw [e5, ht]; omega

end Decode

variable (V : (c : Dev nD) → (b : Ref sig .tc) → Buf (Elt Ideal) ((c : Thread nD τ).loc b))

/-- The result array after the call. -/
theorem final3 (c : Dev nD) :
    (dat3 (F := Ideal) V c).arrAt 2 cfg3.N = Vgae.decPad (V c main_v47) :=
  (dat3 (F := Ideal) V c).arrAt_eq_of_cover 2 (Vgae.decPad (Decode.codes V c)) (fun t _ => Decode.tile_eq V c t) Decode.tiles_cover

end Cert.KernelIdeal.Hand

end
-- ==== Proof.Spec.lean ====
/-
  The graph autoencoder, entry by entry, on the extended reals.

  Nodes 0 .. 9999, edges 0 .. 319999; an edge e sends the row of its source node to its destination node.  A layer's
  neighbour mean of a node is the sum of the rows sent to it divided by the number of edges into it, that number taken
  as at least one.  A layer adds the node's own row times one weight matrix, its neighbour mean times another, and a
  bias.  The hidden layer is such a layer of the features, cut off below at zero; the mean and the log-deviation are such
  layers of the hidden rows; the code is mean + noise · exp(log-deviation); the decoded adjacency of two nodes is the
  logistic of the inner product of their codes.

  The source of an edge is the row a gather reads for its index word: the word read signed, a negative word moved up
  by the number of rows, the result clamped into the table.  The destination is the word itself, read signed: a word
  that names no node receives nothing.
-/
import Idealize.ShloMosaic.PureOps.Ideal
import Idealize.ShloMosaic.PureOps.Ideal.Laws
import Idealize.ShloMosaic.Lib.ValueIdx

noncomputable section

namespace Vgae

open Idealize.ShloMosaic Idealize.ShloMosaic.ValueIdx

abbrev SN128 : Shape := ⟨2, ![10000, 128]⟩
abbrev SN32 : Shape := ⟨2, ![10000, 32]⟩
abbrev SNN : Shape := ⟨2, ![10000, 10000]⟩
abbrev SE : Shape := ⟨1, ![320000]⟩
abbrev S128x32 : Shape := ⟨2, ![128, 32]⟩
abbrev S32x32 : Shape := ⟨2, ![32, 32]⟩
abbrev S32 : Shape := ⟨1, ![32]⟩

/-- The row a gather from a table of 10000 rows reads for an edge's source word: a negative word moved up by 10000,
    the result read signed and clamped into the table. -/
def srcRow (src : IVec SE 32) (e : Fin 320000) : Fin 10000 :=
  ⟨min ((if (src (ix1 e)).slt 0#32 then src (ix1 e) + 10000#32 else src (ix1 e)).toInt.toNat) 9999, by omega⟩

/-- The number of edges into node r. -/
def inDeg (dst : IVec SE 32) (r : Fin 10000) : EReal :=
  ∑ e : Fin 320000, if (dst (ix1 e)).toInt = (r.val : ℤ) then (1 : EReal) else 0

/-- The sum of the rows sent to node r, column q. -/
def nsum {C : ℕ} (f : Fin 10000 → Fin C → EReal) (src dst : IVec SE 32) (r : Fin 10000) (q : Fin C) : EReal :=
  ∑ e : Fin 320000, if (dst (ix1 e)).toInt = (r.val : ℤ) then f (srcRow src e) q else 0

/-- The neighbour mean: the sum of the rows sent to r over the number of edges into r taken as at least one. -/
def nmean {C : ℕ} (f : Fin 10000 → Fin C → EReal) (src dst : IVec SE 32) (r : Fin 10000) (q : Fin C) : EReal :=
  Ideal.div (nsum f src dst r q) (max (inDeg dst r) 1)

/-- One layer at node r, output column j: own row times Ws, neighbour mean times Wn, plus the bias. -/
def layer {K : ℕ} (f : Fin 10000 → Fin K → EReal) (Ws Wn : Fin K → Fin 32 → EReal) (b : Fin 32 → EReal)
    (src dst : IVec SE 32) (r : Fin 10000) (j : Fin 32) : EReal :=
  ((∑ k : Fin K, f r k * Ws k j) + (∑ k : Fin K, nmean f src dst r k * Wn k j)) + b j

section
variable (x : SN128.Idx → EReal) (src dst : IVec SE 32) (eps : SN32.Idx → EReal)
  (W1s W1n : S128x32.Idx → EReal) (b1 : S32.Idx → EReal)
  (Wms Wmn : S32x32.Idx → EReal) (bm : S32.Idx → EReal)
  (Wls Wln : S32x32.Idx → EReal) (bl : S32.Idx → EReal)

/-- The hidden rows. -/
def hid (r : Fin 10000) (j : Fin 32) : EReal :=
  max (layer (fun r k => x (ix2 r k)) (fun k j => W1s (ix2 k j)) (fun k j => W1n (ix2 k j)) (fun j => b1 (ix1 j)) src dst r j) 0

/-- The mean. -/
def mu (r : Fin 10000) (j : Fin 32) : EReal :=
  layer (hid x src dst W1s W1n b1) (fun k j => Wms (ix2 k j)) (fun k j => Wmn (ix2 k j)) (fun j => bm (ix1 j)) src dst r j

/-- The log-deviation. -/
def logstd (r : Fin 10000) (j : Fin 32) : EReal :=
  layer (hid x src dst W1s W1n b1) (fun k j => Wls (ix2 k j)) (fun k j => Wln (ix2 k j)) (fun j => bl (ix1 j)) src dst r j

/-- The code. -/
def code (r : Fin 10000) (j : Fin 32) : EReal :=
  mu x src dst W1s W1n b1 Wms Wmn bm r j + eps (ix2 r j) * Ideal.exp (logstd x src dst W1s W1n b1 Wls Wln bl r j)

/-- The decoded adjacency. -/
def adj (i j : Fin 10000) : EReal :=
  Ideal.logistic (∑ k : Fin 32, code x src dst eps W1s W1n b1 Wms Wmn bm Wls Wln bl i k
    * code x src dst eps W1s W1n b1 Wms Wmn bm Wls Wln bl j k)

/-- The three results as arrays. -/
def adjArr : SNN.Idx → EReal := fun i => adj x src dst eps W1s W1n b1 Wms Wmn bm Wls Wln bl (i 0) (i 1)
def muArr : SN32.Idx → EReal := fun i => mu x src dst W1s W1n b1 Wms Wmn bm (i 0) (i 1)
def logstdArr : SN32.Idx → EReal := fun i => logstd x src dst W1s W1n b1 Wls Wln bl (i 0) (i 1)
end

end Vgae

end
-- ==== Proof.LibRows.lean ====
/-
  A row gather and a segment sum, read at an index.

  gather_rows: the gather that x[idx] of a matrix lowers to (start indices an [E,1] column, the row axis collapsed and
  start-indexed, the column axis an offset axis) reads, at (e, q), the matrix at the row that idx (e,0) names — read signed
  and clamped into the table — and column q.
  scatterAdd_rows / scatterAdd_vec: the accumulating scatter that a segment sum lowers to adds, to the operand's entry at
  row r, every update row e whose index word, read signed and not clamped, is r; a word outside the table adds nowhere.
-/
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

theorem gather_rows {α : Type} {N E C w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  have hb : ∀ a, a ∉ d.operandBatchingDims := by intro a; rw [hob]; exact List.not_mem_nil
  have hq : ∀ x : Fin 2, x = 1 → ((ix2 e q : (⟨2, ![E, C]⟩ : Shape).Idx) x).val = q.val := by
    intro x hx; subst hx; rfl
  have he : ∀ x : Fin 2, x = 0 → ((ix2 e q : (⟨2, ![E, C]⟩ : Shape).Idx) x).val = e.val := by
    intro x hx; subst hx; rfl
  -- the result's one offset axis is axis 1, its one batch axis is axis 0
  have hoffall : ∀ y ∈ d.offsetDims, y = 1 := by
    intro y hy; rw [hoff] at hy; exact List.mem_singleton.mp hy
  have hbatall : ∀ y ∈ d.batchDims, y = 0 := by
    intro y hy
    have hy1 : y ∉ d.offsetDims := by
      have := (List.mem_filter.mp hy).2
      simpa using this
    rw [hoff] at hy1
    match y with
    | ⟨0, _⟩ => rfl
    | ⟨1, _⟩ => exact absurd (List.mem_singleton.mpr rfl) hy1
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- every component of the start index of (e, q) is read at (e, 0)
    have hsi : ∀ c, d.siIdx (ix2 e q) c = ix2 e (0 : Fin 1) := by
      intro c
      funext b
      match b with
      | ⟨0, _⟩ =>
        unfold GatherDims.siIdx
        rw [dif_neg (by rw [hivd]; simp)]
        unfold GatherDims.siCoord
        apply Fin.ext
        simp only [Fin.val_cast]
        exact he _ (hbatall _ (List.getElem_mem _))
      | ⟨1, _⟩ =>
        unfold GatherDims.siIdx
        rw [dif_pos (by rw [hivd])]
        apply Fin.ext
        show c.val = 0
        have := c.isLt
        omega
    show d.start (ix2 e q) idx 0 + d.batchCoord (ix2 e q) 0 + d.offCoord (ix2 e q) 0 = min _ (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = _
    rw [hsl]
  | ⟨1, _⟩ =>
    have hk : (1 : Fin 2) ∈ d.sKept := by rw [GatherDims.mem_sKept, hcoll]; exact ⟨by simp, hb _⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (hoffall _ (List.getElem_mem _))

/-! The accumulating scatter of rows: on axis 0 the window starts at the index word read signed and has no extent, on
    axis 1 it starts at 0 and its coordinate is the update's column. -/

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

/-- An update entry (e, q') lands on the operand entry (r, q) exactly when its index word, read signed, is r and its
    column is q. -/
private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

/-! The accumulating scatter of a vector: the same with no column. -/

private theorem vec_siIdx {R E : ℕ} (d : ScatterDims ⟨1, ![R]⟩ ⟨2, ![E, 1]⟩ ⟨1, ![E]⟩)
    (hsd : d.scatterDimsToOperandDims = [0]) (hivd : d.indexVectorDim = 1)
    (e : Fin E) (c : Fin d.scatterDimsToOperandDims.length) :
    d.siIdx (ix1 e) c = ix2 e (0 : Fin 1) := by
  have he : ∀ x : Fin 1, ((ix1 e : (⟨1, ![E]⟩ : Shape).Idx) x).val = e.val := by
    intro x
    obtain rfl : x = 0 := Subsingleton.elim _ _
    rfl
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _
  | ⟨1, _⟩ =>
    unfold ScatterDims.siIdx
    rw [dif_pos (by rw [hivd])]
    apply Fin.ext
    show c.val = 0
    have := c.isLt
    omega

private theorem vec_start0 {R E w : ℕ} (d : ScatterDims ⟨1, ![R]⟩ ⟨2, ![E, 1]⟩ ⟨1, ![E]⟩)
    (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d hsd hivd]

private theorem vec_window0 {R E : ℕ} (d : ScatterDims ⟨1, ![R]⟩ ⟨2, ![E, 1]⟩ ⟨1, ![E]⟩)
    (hins : d.insertedWindowDims = [0]) (e : Fin E) :
    d.window (ix1 e) 0 = 0 := by
  have hk : (0 : Fin 1) ∉ d.sKept := by
    intro h
    have := (List.mem_filter.mp h).2
    rw [hins] at this
    simp at this
  unfold ScatterDims.window
  rw [dif_neg hk]

/-- An update entry e lands on the operand entry r exactly when its index word, read signed, is r. -/
private theorem vec_resultIdx_iff {R E w : ℕ} (d : ScatterDims ⟨1, ![R]⟩ ⟨2, ![E, 1]⟩ ⟨1, ![E]⟩)
    (hins : d.insertedWindowDims = [0]) (hsd : d.scatterDimsToOperandDims = [0])
    (hivd : d.indexVectorDim = 1) (idx : IVec ⟨2, ![E, 1]⟩ w) (e : Fin E) (r : Fin R) :
    d.resultIdx? (ix1 e) idx = some (ix1 r) ↔ (idx (ix2 e (0 : Fin 1))).toInt = (r.val : ℤ) := by
  have hs0 := vec_start0 d hsd hivd idx e
  have hw0 := vec_window0 d hins e
  have hr := r.isLt
  unfold ScatterDims.resultIdx?
  constructor
  · intro h
    split at h
    · rename_i hh
      have hf := Option.some.inj h
      have h0 : (d.start (ix1 e) idx 0 + (d.window (ix1 e) 0 : ℤ)).toNat = r.val :=
        congrArg (fun f : (⟨1, ![R]⟩ : Shape).Idx => (f 0).val) hf
      have hh0 : 0 ≤ d.start (ix1 e) idx 0 + (d.window (ix1 e) 0 : ℤ) := (hh 0).1
      rw [hs0, hw0] at h0 hh0
      omega
    · exact absurd h (by simp)
  · intro h0
    have hh : ∀ a, 0 ≤ d.start (ix1 e) idx a + (d.window (ix1 e) a : ℤ)
        ∧ d.start (ix1 e) idx a + (d.window (ix1 e) a : ℤ) < ((⟨1, ![R]⟩ : Shape).size a : ℤ) := by
      intro a
      match a with
      | ⟨0, _⟩ =>
        show 0 ≤ d.start (ix1 e) idx 0 + (d.window (ix1 e) 0 : ℤ)
          ∧ d.start (ix1 e) idx 0 + (d.window (ix1 e) 0 : ℤ) < (R : ℤ)
        rw [hs0, hw0]; omega
    rw [dif_pos hh]
    congr 1
    funext a
    apply Fin.ext
    match a with
    | ⟨0, _⟩ =>
      show (d.start (ix1 e) idx 0 + (d.window (ix1 e) 0 : ℤ)).toNat = r.val
      rw [hs0, hw0]; omega

theorem scatterAdd_vec {R E w : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![R]⟩ : Shape).Idx → EReal) (idx : IVec ⟨2, ![E, 1]⟩ w) (upd : (⟨1, ![E]⟩ : Shape).Idx → EReal)
    (r : Fin R) :
    Ideal.hostScatterAdd d x idx upd (ix1 r)
      = x (ix1 r) + ∑ e : Fin E, if (idx (ix2 e (0 : Fin 1))).toInt = (r.val : ℤ) then upd (ix1 e) else 0 := by
  unfold Ideal.hostScatterAdd
  congr 1
  -- a rank-1 index set is its coordinate range
  rw [Finset.sum_filter,
    ← Equiv.sum_comp (⟨ix1, fun i => i 0, fun _ => rfl, fun i => (eq_ix1 i).symm⟩ : Fin E ≃ (⟨1, ![E]⟩ : Shape).Idx)]
  refine Finset.sum_congr rfl fun e _ => ?_
  exact if_congr (vec_resultIdx_iff d hins hsd hivd idx e r) rfl rfl

end Gcn.Rows

end
-- ==== Proof.KerHost.lean ====
/-
  The kernel program's host operations between its calls, read entry by entry at the ideal instance.

  Padding a 10000-row array to 10240 rows keeps the rows below 10000 and fills the rest with zero; slicing back keeps the
  leading rows (and columns).  The bias vector laid out as a one-row matrix reads the vector.  The kernel's neighbour mean
  is the segment sum of the gathered rows TIMES the reciprocal of the clamped edge count; dividing one by a nonzero number
  and multiplying is dividing, so it is the specification's neighbour mean.  The second gather reads the padded hidden
  rows, with a negative index word moved up by 10240: for source words in 0 .. 9999 it reads the row the word names.
-/
import proofs.«401770_j62697932587536_1_alg».proof.Proof.Gen.KernelIdeal
import proofs.«401770_j62697932587536_1_alg».proof.Proof.Spec
import proofs.«401770_j62697932587536_1_alg».proof.Proof.LibRows
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

namespace Cert.KernelIdeal.Host

open Idealize.ShloMosaic Idealize.ShloMosaic.ValueIdx
open Cert.KernelIdeal Cert.KernelIdeal.Gen

variable {F : FTy → Type} [FloatOps F]

/-! ## The host stretches' terms -/

/-- The reciprocal of each node's clamped edge count, as a column. -/
def invDegCol (dst : IVec S320000 32) : FVec F S10000x1 .f32 :=
  broadcastInDim S10000x1 ![0] bcast_S10000_S10000x1_0
    (Host.divf (broadcastInDim S10000 ![] bcast_S_S10000 (constant S_ .f32 0x3F800000#32))
      (maximumf
        (Host.scatterAdd scatter_S10000_S320000x1_S320000_n_0_0_1
          (broadcastInDim S10000 ![] bcast_S_S10000 (constant S_ .f32 0x00000000#32))
          (broadcastInDim S320000x1 ![0] bcast_S320000_S320000x1_0 dst)
          (broadcastInDim S320000 ![] bcast_S_S320000 (constant S_ .f32 0x3F800000#32)))
        (broadcastInDim S10000 ![] bcast_S_S10000 (constant S_ .f32 0x3F800000#32))))

/-- The first layer's neighbour means: the segment sums of the gathered feature rows times the reciprocal counts. -/
def kmean128 (x : FVec F S10000x128 .f32) (src dst : IVec S320000 32) : FVec F S10000x128 .f32 :=
  mulf
    (Host.scatterAdd scatter_S10000x128_S320000x1_S320000x128_1_0_0_1
      (broadcastInDim S10000x128 ![] bcast_S_S10000x128 (constant S_ .f32 0x00000000#32))
      (broadcastInDim S320000x1 ![0] bcast_S320000_S320000x1_0 dst)
      (Host.gather gather_S10000x128_S320000x1_S320000x128_1_0_n_n_0_1_1128 x
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 10000#32))) src))))
    (broadcastInDim S10000x128 ![0, 1] bcast_S10000x1_S10000x128_0_1 (invDegCol dst))

/-- The second layer's neighbour means: the same of the rows gathered from the padded hidden rows. -/
def kmean32 (H : FVec F S10240x32 .f32) (src dst : IVec S320000 32) : FVec F S10000x32 .f32 :=
  mulf
    (Host.scatterAdd scatter_S10000x32_S320000x1_S320000x32_1_0_0_1
      (broadcastInDim S10000x32 ![] bcast_S_S10000x32 (constant S_ .f32 0x00000000#32))
      (broadcastInDim S320000x1 ![0] bcast_S320000_S320000x1_0 dst)
      (Host.gather gather_S10240x32_S320000x1_S320000x32_1_0_n_n_0_1_132 H
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 10240#32))) src))))
    (broadcastInDim S10000x32 ![0, 1] bcast_S10000x1_S10000x32_0_1 (invDegCol dst))

/-- Padding to 10240 rows with the converted integer zero. -/
def pad128 (x : FVec F S10000x128 .f32) : FVec F S10240x128 .f32 :=
  pad S10240x128 ![0, 0] ![240, 0] ![0, 0] x (sitofp .f32 (constantI S_ 32 0#32) : FVec F S_ .f32) pads_S10000x128_S10240x128_02400_000 h_S_
def pad32 (x : FVec F S10000x32 .f32) : FVec F S10240x32 .f32 :=
  pad S10240x32 ![0, 0] ![240, 0] ![0, 0] x (sitofp .f32 (constantI S_ 32 0#32) : FVec F S_ .f32) pads_S10000x32_S10240x32_02400_000 h_S_

/-! ## Read at an index, at the ideal instance -/

theorem pad128_apply (x : FVec Ideal S10000x128 .f32) (r : Fin 10240) (k : Fin 128) :
    pad128 x (ix2 r k) = if hr : r.val < 10000 then x (ix2 (⟨r.val, hr⟩ : Fin 10000) k) else 0 := by
  unfold pad128
  by_cases hr : r.val < 10000
  · rw [dif_pos hr]
    -- inside the operand: no low padding, no interior steps, so the row and the column are kept
    refine pad_apply_of_inside _ _ _ x _ pads_S10000x128_S10240x128_02400_000 h_S_ (ix2 r k)
      (ix2 (⟨r.val, hr⟩ : Fin 10000) k) ?_
    intro a
    match a with
    | ⟨0, _⟩ => show r.val = 0 + r.val * (0 + 1); omega
    | ⟨1, _⟩ => show k.val = 0 + k.val * (0 + 1); omega
  · rw [dif_neg hr]
    -- past the operand's last row: the padding value, the integer zero converted
    refine (pad_apply_of_not_inside _ _ _ x _ pads_S10000x128_S10240x128_02400_000 h_S_ (ix2 r k) (0 : Fin 2) ?_).trans ?_
    · intro hin
      have h2 : (r.val - 0) / (0 + 1) < 10000 := hin.2.2
      omega
    · exact sitofp_zero (φ := .f32)

theorem pad32_apply (x : FVec Ideal S10000x32 .f32) (r : Fin 10240) (k : Fin 32) :
    pad32 x (ix2 r k) = if hr : r.val < 10000 then x (ix2 (⟨r.val, hr⟩ : Fin 10000) k) else 0 := by
  unfold pad32
  by_cases hr : r.val < 10000
  · rw [dif_pos hr]
    refine pad_apply_of_inside _ _ _ x _ pads_S10000x32_S10240x32_02400_000 h_S_ (ix2 r k)
      (ix2 (⟨r.val, hr⟩ : Fin 10000) k) ?_
    intro a
    match a with
    | ⟨0, _⟩ => show r.val = 0 + r.val * (0 + 1); omega
    | ⟨1, _⟩ => show k.val = 0 + k.val * (0 + 1); omega
  · rw [dif_neg hr]
    refine (pad_apply_of_not_inside _ _ _ x _ pads_S10000x32_S10240x32_02400_000 h_S_ (ix2 r k) (0 : Fin 2) ?_).trans ?_
    · intro hin
      have h2 : (r.val - 0) / (0 + 1) < 10000 := hin.2.2
      omega
    · exact sitofp_zero (φ := .f32)

theorem slice32_apply (y : FVec Ideal S10240x32 .f32) (r : Fin 10000) (k : Fin 32) :
    extractStridedSlice S10000x32 ![0, 0] y slices_S10240x32_S10000x32_0_0 (ix2 r k)
      = y (ix2 (Fin.castLE (by decide : 10000 ≤ 10240) r) k) := by
  -- offsets zero on both axes: the entry of the same row and column
  refine extractStridedSlice_apply _ y slices_S10240x32_S10000x32_0_0 (ix2 r k) _ ?_
  intro a
  match a with
  | ⟨0, _⟩ => show r.val = 0 + r.val; omega
  | ⟨1, _⟩ => show k.val = 0 + k.val; omega

theorem sliceNN_apply (y : FVec Ideal S10240x10240 .f32) (i j : Fin 10000) :
    extractStridedSlice S10000x10000 ![0, 0] y slices_S10240x10240_S10000x10000_0_0 (ix2 i j)
      = y (ix2 (Fin.castLE (by decide : 10000 ≤ 10240) i) (Fin.castLE (by decide : 10000 ≤ 10240) j)) := by
  refine extractStridedSlice_apply _ y slices_S10240x10240_S10000x10000_0_0 (ix2 i j) _ ?_
  intro a
  match a with
  | ⟨0, _⟩ => show i.val = 0 + i.val; omega
  | ⟨1, _⟩ => show j.val = 0 + j.val; omega

theorem biasRow_apply (b : FVec Ideal S32 .f32) (j : Fin 32) :
    shapeCast S1x32 b shapeCasts_S32_S1x32 (ix2 (0 : Fin 1) j) = b (ix1 j) := by
  -- the row-major position of (0, j) in one row of 32 is j, the position of j in the vector
  refine shapeCast_apply b shapeCasts_S32_S1x32 (ix2 (0 : Fin 1) j) (ix1 j) ?_
  rw [Shape.rowMajor_val_one, Shape.rowMajor_val_two]
  show j.val = 0 * 32 + j.val
  omega

/-! ## The pieces of a neighbour mean -/

/-- The scalar zero spread over any shape reads zero. -/
private theorem zeros_apply {T : Shape} (h : S_.BroadcastsInDim T ![]) (j : T.Idx) :
    broadcastInDim T ![] h (constant (F := Ideal) S_ .f32 0x00000000#32) j = 0 :=
  (broadcastInDim_scalar_apply h _ j).trans Ideal.ofBits_zero_f32

/-- The scalar one spread over any shape reads one. -/
private theorem ones_apply {T : Shape} (h : S_.BroadcastsInDim T ![]) (j : T.Idx) :
    broadcastInDim T ![] h (constant (F := Ideal) S_ .f32 0x3F800000#32) j = 1 :=
  (broadcastInDim_scalar_apply h _ j).trans Ideal.ofBits_one_f32

/-- An edge vector laid out as a one-column matrix reads, at (e, 0), the vector at e. -/
private theorem col_apply {α : Type} (v : S320000.Idx → α) (e : Fin 320000) :
    broadcastInDim S320000x1 ![0] bcast_S320000_S320000x1_0 v (ix2 e (0 : Fin 1)) = v (ix1 e) := by
  refine broadcastInDim_apply _ bcast_S320000_S320000x1_0 v (ix2 e (0 : Fin 1)) (ix1 e) ?_
  intro a
  match a with
  | ⟨0, _⟩ =>
    show e.val = if (320000 : ℕ) = 1 then 0 else e.val
    rw [if_neg (by decide)]

/-- A node column spread along the rows of a matrix reads, at (r, k), the column at (r, 0). -/
private theorem rowBcast_apply {C : ℕ} (h : S10000x1.BroadcastsInDim ⟨2, ![10000, C]⟩ ![0, 1])
    (v : S10000x1.Idx → EReal) (r : Fin 10000) (k : Fin C) :
    broadcastInDim ⟨2, ![10000, C]⟩ ![0, 1] h v (ix2 r k) = v (ix2 r (0 : Fin 1)) := by
  refine broadcastInDim_apply _ h v (ix2 r k) (ix2 r (0 : Fin 1)) ?_
  intro a
  match a with
  | ⟨0, _⟩ =>
    show r.val = if (10000 : ℕ) = 1 then 0 else r.val
    rw [if_neg (by decide)]
  | ⟨1, _⟩ =>
    show (0 : ℕ) = if (1 : ℕ) = 1 then 0 else k.val
    rw [if_pos rfl]

/-- The gather's index word of edge e: the source word, moved up by m when it is negative. -/
private theorem srcWord_apply (src : IVec S320000 32) (m : BitVec 32) (e : Fin 320000) :
    select (cmpi .slt src (broadcastInDim S320000 ![] bcast_S_S320000 (constantI S_ 32 0#32)))
        (addi src (broadcastInDim S320000 ![] bcast_S_S320000 (constantI S_ 32 m))) src (ix1 e)
      = if (src (ix1 e)).slt 0#32 then src (ix1 e) + m else src (ix1 e) := by
  show Scalar.select (BitVec.ofBool ((src (ix1 e)).slt 0#32)) (src (ix1 e) + m) (src (ix1 e)) = _
  by_cases h : (src (ix1 e)).slt 0#32 = true
  · rw [if_pos h, h]
    exact select_one _ _
  · rw [if_neg h, Bool.eq_false_iff.mpr h]
    exact select_zero _ _

/-- The reciprocal-count column at node r: one over the number of edges into r, taken as at least one. -/
private theorem invDegCol_apply (dst : IVec S320000 32) (r : Fin 10000) :
    invDegCol (F := Ideal) dst (ix2 r (0 : Fin 1)) = Ideal.div 1 (max (Vgae.inDeg dst r) 1) := by
  unfold invDegCol
  refine (broadcastInDim_apply _ bcast_S10000_S10000x1_0 _ (ix2 r (0 : Fin 1)) (ix1 r) ?_).trans ?_
  · intro a
    match a with
    | ⟨0, _⟩ =>
      show r.val = if (10000 : ℕ) = 1 then 0 else r.val
      rw [if_neg (by decide)]
  · refine (hostDivf_apply _ _ _).trans ?_
    rw [maximumf_apply, ones_apply]
    refine congrArg (fun t => Ideal.div 1 (max t 1)) ?_
    -- the count: zero plus one for every edge whose destination word is r
    show Ideal.hostScatterAdd _ _ _ _ (ix1 r) = _
    refine (Gcn.Rows.scatterAdd_vec scatter_S10000_S320000x1_S320000_n_0_0_1 rfl rfl rfl rfl _ _ _ r).trans ?_
    rw [zeros_apply, zero_add]
    unfold Vgae.inDeg
    refine Finset.sum_congr rfl fun e _ => ?_
    rw [col_apply, ones_apply]

/-- Equal factors give equal products. -/
private theorem mul_both {a a' b b' : EReal} (h1 : a = a') (h2 : b = b') : a * b = a' * b' := by rw [h1, h2]

/-- The clamped count is at least one, so it is not zero. -/
private theorem clampedDeg_ne_zero (dst : IVec S320000 32) (r : Fin 10000) : max (Vgae.inDeg dst r) 1 ≠ 0 :=
  (lt_of_lt_of_le zero_lt_one (le_max_right _ _)).ne'

/-- The first layer's neighbour mean is the specification's. -/
theorem kmean128_apply (x : FVec Ideal S10000x128 .f32) (src dst : IVec S320000 32) (r : Fin 10000) (k : Fin 128) :
    kmean128 (F := Ideal) x src dst (ix2 r k) = Vgae.nmean (fun r k => x (ix2 r k)) src dst r k := by
  unfold kmean128 Vgae.nmean
  -- a product with the reciprocal of a number that is not zero is the quotient
  refine Eq.trans ?_ (Ideal.mul_one_div (clampedDeg_ne_zero dst r))
  refine (mulf_apply _ _ _).trans ?_
  refine mul_both ?_ ?_
  · -- the segment sum: zero plus, for every edge into r, the gathered row's entry
    show Ideal.hostScatterAdd _ _ _ _ (ix2 r k) = _
    refine (Gcn.Rows.scatterAdd_rows scatter_S10000x128_S320000x1_S320000x128_1_0_0_1 rfl rfl rfl rfl _ _ _ r k).trans ?_
    rw [zeros_apply, zero_add]
    unfold Vgae.nsum
    refine Finset.sum_congr rfl fun e _ => ?_
    rw [col_apply]
    refine if_congr Iff.rfl ?_ rfl
    -- the gathered row is the row the index word names; the word is the one the source row is defined from
    refine (Gcn.Rows.gather_rows gather_S10000x128_S320000x1_S320000x128_1_0_n_n_0_1_1128 rfl rfl rfl rfl rfl rfl
      x _ e k (by decide)).trans ?_
    refine congrArg (fun i => x (ix2 i k)) (Fin.ext ?_)
    show min (_ : BitVec 32).toInt.toNat 9999 = min (_ : BitVec 32).toInt.toNat 9999
    rw [col_apply, srcWord_apply]
  · exact (rowBcast_apply _ _ r k).trans (invDegCol_apply dst r)

/-- The second layer's neighbour mean is the specification's of the leading 10000 rows, when every source word names a
    node. -/
theorem kmean32_apply (H : FVec Ideal S10240x32 .f32) (src dst : IVec S320000 32)
    (hsrc : ∀ e : Fin 320000, 0 ≤ (src (ix1 e)).toInt ∧ (src (ix1 e)).toInt < 10000) (r : Fin 10000) (k : Fin 32) :
    kmean32 (F := Ideal) H src dst (ix2 r k)
      = Vgae.nmean (fun r k => H (ix2 (Fin.castLE (by decide : 10000 ≤ 10240) r) k)) src dst r k := by
  unfold kmean32 Vgae.nmean
  refine Eq.trans ?_ (Ideal.mul_one_div (clampedDeg_ne_zero dst r))
  refine (mulf_apply _ _ _).trans ?_
  refine mul_both ?_ ?_
  · show Ideal.hostScatterAdd _ _ _ _ (ix2 r k) = _
    refine (Gcn.Rows.scatterAdd_rows scatter_S10000x32_S320000x1_S320000x32_1_0_0_1 rfl rfl rfl rfl _ _ _ r k).trans ?_
    rw [zeros_apply, zero_add]
    unfold Vgae.nsum
    refine Finset.sum_congr rfl fun e _ => ?_
    rw [col_apply]
    refine if_congr Iff.rfl ?_ rfl
    refine (Gcn.Rows.gather_rows gather_S10240x32_S320000x1_S320000x32_1_0_n_n_0_1_132 rfl rfl rfl rfl rfl rfl
      H _ e k (by decide)).trans ?_
    refine congrArg (fun i => H (ix2 i k)) (Fin.ext ?_)
    show min (_ : BitVec 32).toInt.toNat 10239 = min (_ : BitVec 32).toInt.toNat 9999
    rw [col_apply, srcWord_apply]
    -- a source word in 0 .. 9999 is not negative: neither wrap is taken, and neither clamp binds
    obtain ⟨h0, h1⟩ := hsrc e
    have hslt : ¬ ((src (ix1 e)).slt 0#32 = true) := by
      intro h
      have hlt := BitVec.slt_iff_toInt_lt.mp h
      rw [BitVec.toInt_zero] at hlt
      omega
    rw [if_neg hslt, if_neg hslt]
    omega
  · exact (rowBcast_apply _ _ r k).trans (invDegCol_apply dst r)

end Cert.KernelIdeal.Host

end
-- ==== Proof.KerVal.lean ====
/-
  The kernel program's arrays as functions of its arguments, at the ideal instance: the padded hidden rows, the padded
  second-layer neighbour means, the padded means and log-deviations, their leading 10000 rows, the codes, and the decoded
  adjacency.  Each is the closed form of the call that writes it (KerSpec.lean) or the host operations that compute it
  (KerHost.lean) applied to the arrays before it.
-/
import proofs.«401770_j62697932587536_1_alg».proof.Proof.KerHost
import proofs.«401770_j62697932587536_1_alg».proof.Proof.KerSpec

noncomputable section

namespace Cert.KernelIdeal.Host

open Idealize.ShloMosaic Idealize.ShloMosaic.ValueIdx
open Cert.KernelIdeal Cert.KernelIdeal.Gen

/-- A bias vector laid out as a one-row matrix. -/
def biasRow (b : FVec Ideal S32 .f32) : FVec Ideal S1x32 .f32 := fun i => shapeCast S1x32 b shapeCasts_S32_S1x32 i

section
variable (x : FVec Ideal S10000x128 .f32) (src dst : IVec S320000 32) (eps : FVec Ideal S10000x32 .f32)
  (W1s W1n : FVec Ideal S128x32 .f32) (b1 : FVec Ideal S32 .f32)
  (Wms Wmn : FVec Ideal S32x32 .f32) (bm : FVec Ideal S32 .f32)
  (Wls Wln : FVec Ideal S32x32 .f32) (bl : FVec Ideal S32 .f32)

/-- The padded hidden rows: the first call's result. -/
def kH : FVec Ideal S10240x32 .f32 :=
  Vgae.hidPad (pad128 x) (pad128 (kmean128 x src dst)) W1s W1n (biasRow b1)

/-- The padded second-layer neighbour means. -/
def kM2 : FVec Ideal S10240x32 .f32 := pad32 (kmean32 (kH x src dst W1s W1n b1) src dst)

/-- The padded means: the second call's result. -/
def kMU : FVec Ideal S10240x32 .f32 :=
  Vgae.linPad (kH x src dst W1s W1n b1) (kM2 x src dst W1s W1n b1) Wms Wmn (biasRow bm)

/-- The padded log-deviations: the third call's result. -/
def kLS : FVec Ideal S10240x32 .f32 :=
  Vgae.linPad (kH x src dst W1s W1n b1) (kM2 x src dst W1s W1n b1) Wls Wln (biasRow bl)

/-- The means: the leading 10000 rows. -/
def kmu : FVec Ideal S10000x32 .f32 :=
  extractStridedSlice S10000x32 ![0, 0] (kMU x src dst W1s W1n b1 Wms Wmn bm) slices_S10240x32_S10000x32_0_0

/-- The log-deviations: the leading 10000 rows. -/
def kls : FVec Ideal S10000x32 .f32 :=
  extractStridedSlice S10000x32 ![0, 0] (kLS x src dst W1s W1n b1 Wls Wln bl) slices_S10240x32_S10000x32_0_0

/-- The codes. -/
def kz : FVec Ideal S10000x32 .f32 :=
  addf (kmu x src dst W1s W1n b1 Wms Wmn bm) (mulf eps (Host.exp (kls x src dst W1s W1n b1 Wls Wln bl)))

/-- The decoded adjacency: the leading 10000 x 10000 entries of the decode call's result on the padded codes. -/
def kadj : FVec Ideal S10000x10000 .f32 :=
  extractStridedSlice S10000x10000 ![0, 0] (Vgae.decPad (pad32 (kz x src dst eps W1s W1n b1 Wms Wmn bm Wls Wln bl)))
    slices_S10240x10240_S10000x10000_0_0
end

end Cert.KernelIdeal.Host

end
-- ==== Proof.KernelIdeal.Values.lean ====
/-
  The return's contents at the program's three result buffers, read down the fold to the kernel's arrays of KerVal.lean.

  A host stretch's result at a buffer is its operations' term of the contents before it; a call's result array is its
  closed form of the arrays it reads; a buffer an item does not write holds what it held before.  Item by item: the first
  call reads the padded features, the padded first-layer neighbour means, its weights and its bias row, and leaves the
  padded hidden rows; the second and third read those and the padded second-layer neighbour means and leave the padded
  means and log-deviations; their leading rows give the codes; the decode call reads the padded codes.
-/
import proofs.«401770_j62697932587536_1_alg».proof.Proof.KernelIdeal.Fold
import proofs.«401770_j62697932587536_1_alg».proof.Proof.KernelIdeal.Final0
import proofs.«401770_j62697932587536_1_alg».proof.Proof.KernelIdeal.Final1
import proofs.«401770_j62697932587536_1_alg».proof.Proof.KernelIdeal.Final2
import proofs.«401770_j62697932587536_1_alg».proof.Proof.KernelIdeal.Final3
import proofs.«401770_j62697932587536_1_alg».proof.Proof.KerVal
import Idealize.ShloMosaic.Lib.StableHlo.Run

set_option maxRecDepth 16384
set_option maxHeartbeats 2000000

noncomputable section

namespace Cert.KernelIdeal.Hand

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Host

variable (m : (ℓ : Loc nD τ sig) → Buf (Elt Ideal) ℓ) (ρ : Dev nD → PrngReg) (c : Dev nD)

/-! ## Before the first call -/

theorem W5_arg1 : W5 m ρ c (Proc.devRef .tc main_arg1) = m ((c : Thread nD τ).loc main_arg1) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_arg2 : W5 m ρ c (Proc.devRef .tc main_arg2) = m ((c : Thread nD τ).loc main_arg2) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_arg3 : W5 m ρ c (Proc.devRef .tc main_arg3) = m ((c : Thread nD τ).loc main_arg3) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_arg4 : W5 m ρ c (Proc.devRef .tc main_arg4) = m ((c : Thread nD τ).loc main_arg4) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_arg5 : W5 m ρ c (Proc.devRef .tc main_arg5) = m ((c : Thread nD τ).loc main_arg5) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_arg7 : W5 m ρ c (Proc.devRef .tc main_arg7) = m ((c : Thread nD τ).loc main_arg7) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_arg8 : W5 m ρ c (Proc.devRef .tc main_arg8) = m ((c : Thread nD τ).loc main_arg8) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_arg9 : W5 m ρ c (Proc.devRef .tc main_arg9) = m ((c : Thread nD τ).loc main_arg9) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_arg10 : W5 m ρ c (Proc.devRef .tc main_arg10) = m ((c : Thread nD τ).loc main_arg10) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_arg11 : W5 m ρ c (Proc.devRef .tc main_arg11) = m ((c : Thread nD τ).loc main_arg11) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_arg12 : W5 m ρ c (Proc.devRef .tc main_arg12) = m ((c : Thread nD τ).loc main_arg12) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem W5_v8 : W5 m ρ c (Proc.devRef .tc main_v8) = invDegCol (F := Ideal) (m ((c : Thread nD τ).loc main_arg2)) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem V5_v9 : V5 m ρ c main_v9 = pad128 (F := Ideal) (m ((c : Thread nD τ).loc main_arg0)) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem V5_v22 : V5 m ρ c main_v22 = pad128 (F := Ideal) (kmean128 (F := Ideal) (m ((c : Thread nD τ).loc main_arg0)) (m ((c : Thread nD τ).loc main_arg1)) (m ((c : Thread nD τ).loc main_arg2))) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem V5_v23 : V5 m ρ c main_v23 = biasRow (m ((c : Thread nD τ).loc main_arg6)) := by
  dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
theorem V5_arg4 : V5 m ρ c main_arg4 = (m ((c : Thread nD τ).loc main_arg4)) := W5_arg4 m ρ c
theorem V5_arg5 : V5 m ρ c main_arg5 = (m ((c : Thread nD τ).loc main_arg5)) := W5_arg5 m ρ c

/-! ## The first call -/

/-- The padded hidden rows. -/
theorem W6_v24 : W6 m ρ c (Proc.devRef .tc main_v24) = kH (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W6_arr m ρ c 5).trans ((final0 (V5 m ρ) c).trans (by rw [V5_v9, V5_v22, V5_arg4, V5_arg5, V5_v23]; rfl))

/-- A buffer that is none of the first call's arrays is as before it. -/
theorem W6_keep (r : Ref sig .tc) (h : ∀ w, Pipeline.arrRef spec0 w ≠ r) :
    W6 m ρ c (Proc.devRef .tc r) = W5 m ρ c (Proc.devRef .tc r) := W6_of_ne m ρ c r h

/-! ## Before the second call -/

theorem V9_v24 : V9 m ρ c main_v24 = kH (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  have e : V9 m ρ c main_v24 = W6 m ρ c (Proc.devRef .tc main_v24) := by
    dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
  exact e.trans (W6_v24 m ρ c)
theorem V9_v37 : V9 m ρ c main_v37 = kM2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  have e : V9 m ρ c main_v37 = pad32 (F := Ideal) (kmean32 (F := Ideal) (W6 m ρ c (Proc.devRef .tc main_v24)) (W6 m ρ c (Proc.devRef .tc main_arg1)) (W6 m ρ c (Proc.devRef .tc main_arg2))) := by
    have hv8 : W6 m ρ c (Proc.devRef .tc main_v8) = invDegCol (F := Ideal) (W6 m ρ c (Proc.devRef .tc main_arg2)) := by
      rw [W6_keep m ρ c main_v8 (by decide), W6_keep m ρ c main_arg2 (by decide), W5_v8, W5_arg2]
    dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp; simp only [cast_eq]; rw [hv8]; rfl
  rw [e, W6_v24, W6_keep m ρ c main_arg1 (by decide), W6_keep m ρ c main_arg2 (by decide), W5_arg1, W5_arg2]; rfl
theorem V9_arg7 : V9 m ρ c main_arg7 = (m ((c : Thread nD τ).loc main_arg7)) := by
  have e : V9 m ρ c main_arg7 = W6 m ρ c (Proc.devRef .tc main_arg7) := by
    dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
  rw [e, W6_keep m ρ c main_arg7 (by decide), W5_arg7]
theorem V9_arg8 : V9 m ρ c main_arg8 = (m ((c : Thread nD τ).loc main_arg8)) := by
  have e : V9 m ρ c main_arg8 = W6 m ρ c (Proc.devRef .tc main_arg8) := by
    dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
  rw [e, W6_keep m ρ c main_arg8 (by decide), W5_arg8]
theorem V9_v38 : V9 m ρ c main_v38 = biasRow (m ((c : Thread nD τ).loc main_arg9)) := by
  have e : V9 m ρ c main_v38 = biasRow (W6 m ρ c (Proc.devRef .tc main_arg9)) := by
    dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
  rw [e, W6_keep m ρ c main_arg9 (by decide), W5_arg9]
/-- The buffers the later items still read, before the second call. -/
theorem W9_keep (r : Ref sig .tc) (h6 : r ∉ hostOps1_W) (h7 : r ∉ hostOps1_1_W) (h8 : r ∉ hostOps1_2_W) :
    W9 m ρ c (Proc.devRef .tc r) = W6 m ρ c (Proc.devRef .tc r) :=
  (StableHlo.after_of_writes_sub hostOps1_2 _ hostOps1_2_writes h8).trans
    ((StableHlo.after_of_writes_sub hostOps1_1 _ hostOps1_1_writes h7).trans (StableHlo.after_of_writes_sub hostOps1 _ hostOps1_writes h6))

/-! ## The second call -/

/-- The padded means. -/
theorem W10_v39 : W10 m ρ c (Proc.devRef .tc main_v39) = kMU (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W10_arr m ρ c 5).trans ((final1 (V9 m ρ) c).trans (by rw [V9_v24, V9_v37, V9_arg7, V9_arg8, V9_v38]; rfl))
theorem W10_v24 : W10 m ρ c (Proc.devRef .tc main_v24) = kH (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W10_arr m ρ c 0).trans ((((dat1 (V9 m ρ) c).arrAt_in 0 rfl _).trans (A_eq1 (V9 m ρ) c 0)).trans (V9_v24 m ρ c))
theorem W10_v37 : W10 m ρ c (Proc.devRef .tc main_v37) = kM2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W10_arr m ρ c 1).trans ((((dat1 (V9 m ρ) c).arrAt_in 1 rfl _).trans (A_eq1 (V9 m ρ) c 1)).trans (V9_v37 m ρ c))
theorem W10_keep (r : Ref sig .tc) (h : ∀ w, Pipeline.arrRef spec1 w ≠ r) :
    W10 m ρ c (Proc.devRef .tc r) = W9 m ρ c (Proc.devRef .tc r) := W10_of_ne m ρ c r h

/-- An argument the later items read, carried from the launch to after the second call. -/
theorem W10_arg (r : Ref sig .tc) (h5 : W5 m ρ c (Proc.devRef .tc r) = m ((c : Thread nD τ).loc r))
    (h0 : ∀ w, Pipeline.arrRef spec0 w ≠ r) (h6 : r ∉ hostOps1_W) (h7 : r ∉ hostOps1_1_W) (h8 : r ∉ hostOps1_2_W)
    (h1 : ∀ w, Pipeline.arrRef spec1 w ≠ r) : W10 m ρ c (Proc.devRef .tc r) = m ((c : Thread nD τ).loc r) := by
  rw [W10_keep m ρ c r h1, W9_keep m ρ c r h6 h7 h8, W6_keep m ρ c r h0, h5]

/-! ## The third call -/

theorem V11_v24 : V11 m ρ c main_v24 = kH (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (StableHlo.after_of_writes_sub hostOps2 _ hostOps2_writes (by decide)).trans (W10_v24 m ρ c)
theorem V11_v37 : V11 m ρ c main_v37 = kM2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (StableHlo.after_of_writes_sub hostOps2 _ hostOps2_writes (by decide)).trans (W10_v37 m ρ c)
theorem V11_arg10 : V11 m ρ c main_arg10 = (m ((c : Thread nD τ).loc main_arg10)) :=
  (StableHlo.after_of_writes_sub hostOps2 _ hostOps2_writes (by decide)).trans
    (W10_arg m ρ c main_arg10 (W5_arg10 m ρ c) (by decide) (by decide) (by decide) (by decide) (by decide))
theorem V11_arg11 : V11 m ρ c main_arg11 = (m ((c : Thread nD τ).loc main_arg11)) :=
  (StableHlo.after_of_writes_sub hostOps2 _ hostOps2_writes (by decide)).trans
    (W10_arg m ρ c main_arg11 (W5_arg11 m ρ c) (by decide) (by decide) (by decide) (by decide) (by decide))
theorem V11_v40 : V11 m ρ c main_v40 = biasRow (m ((c : Thread nD τ).loc main_arg12)) := by
  have e : V11 m ρ c main_v40 = biasRow (W10 m ρ c (Proc.devRef .tc main_arg12)) := by
    dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
  rw [e, W10_arg m ρ c main_arg12 (W5_arg12 m ρ c) (by decide) (by decide) (by decide) (by decide) (by decide)]

/-- The padded log-deviations. -/
theorem W12_v41 : W12 m ρ c (Proc.devRef .tc main_v41) = kLS (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) :=
  (W12_arr m ρ c 5).trans ((final2 (V11 m ρ) c).trans (by rw [V11_v24, V11_v37, V11_arg10, V11_arg11, V11_v40]; rfl))
theorem W12_v39 : W12 m ρ c (Proc.devRef .tc main_v39) = kMU (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W12_of_ne m ρ c main_v39 (by decide)).trans
    ((StableHlo.after_of_writes_sub hostOps2 _ hostOps2_writes (by decide)).trans (W10_v39 m ρ c))
theorem W12_arg3 : W12 m ρ c (Proc.devRef .tc main_arg3) = (m ((c : Thread nD τ).loc main_arg3)) :=
  (W12_of_ne m ρ c main_arg3 (by decide)).trans
    ((StableHlo.after_of_writes_sub hostOps2 _ hostOps2_writes (by decide)).trans
      (W10_arg m ρ c main_arg3 (W5_arg3 m ρ c) (by decide) (by decide) (by decide) (by decide) (by decide)))

/-! ## The codes and the decode call -/

theorem W13_v42 : W13 m ρ c (Proc.devRef .tc main_v42) = kmu (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e : W13 m ρ c (Proc.devRef .tc main_v42)
      = extractStridedSlice S10000x32 ![0, 0] (W12 m ρ c (Proc.devRef .tc main_v39)) slices_S10240x32_S10000x32_0_0 := by
    dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
  rw [e, W12_v39]; rfl
theorem W13_v43 : W13 m ρ c (Proc.devRef .tc main_v43) = kls (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) := by
  have e : W13 m ρ c (Proc.devRef .tc main_v43)
      = extractStridedSlice S10000x32 ![0, 0] (W12 m ρ c (Proc.devRef .tc main_v41)) slices_S10240x32_S10000x32_0_0 := by
    dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
  rw [e, W12_v41]; rfl
theorem V14_v47 : V14 m ρ c main_v47
    = pad32 (F := Ideal) (kz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  have e : V14 m ρ c main_v47
      = pad32 (F := Ideal) (addf (extractStridedSlice S10000x32 ![0, 0] (W12 m ρ c (Proc.devRef .tc main_v39)) slices_S10240x32_S10000x32_0_0)
          (mulf (W12 m ρ c (Proc.devRef .tc main_arg3))
            (Host.exp (extractStridedSlice S10000x32 ![0, 0] (W12 m ρ c (Proc.devRef .tc main_v41)) slices_S10240x32_S10000x32_0_0)))) := by
    dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
  rw [e, W12_v39, W12_v41, W12_arg3]; rfl

/-- The three results at the return. -/
theorem W16_v42 : W16 m ρ c (Proc.devRef .tc main_v42) = kmu (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (StableHlo.after_of_writes_sub hostOps4 _ hostOps4_writes (by decide)).trans
    ((W15_of_ne m ρ c main_v42 (by decide)).trans
      ((StableHlo.after_of_writes_sub hostOps3_1 _ hostOps3_1_writes (by decide)).trans (W13_v42 m ρ c)))
theorem W16_v43 : W16 m ρ c (Proc.devRef .tc main_v43) = kls (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) :=
  (StableHlo.after_of_writes_sub hostOps4 _ hostOps4_writes (by decide)).trans
    ((W15_of_ne m ρ c main_v43 (by decide)).trans
      ((StableHlo.after_of_writes_sub hostOps3_1 _ hostOps3_1_writes (by decide)).trans (W13_v43 m ρ c)))
theorem W16_v49 : W16 m ρ c (Proc.devRef .tc main_v49)
    = kadj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e : W16 m ρ c (Proc.devRef .tc main_v49)
      = extractStridedSlice S10000x10000 ![0, 0] (W15 m ρ c (Proc.devRef .tc main_v48)) slices_S10240x10240_S10000x10000_0_0 := by
    dsimp only [W0, W1, W2, W3, W4, W5, V5, W7, W8, W9, V9, W11, V11, W13, W14, V14, W16, hostOps0, hostOps0_1, hostOps0_2, hostOps0_3, hostOps0_4, hostOps1, hostOps1_1, hostOps1_2, hostOps2, hostOps3, hostOps3_1, hostOps4]; after_results_simp <;> (try simp only [cast_eq]) <;> rfl
  rw [e, W15_out, final3 (V14 m ρ) c, V14_v47]; rfl

end Cert.KernelIdeal.Hand

end
-- ==== Proof.Bridge.lean ====
/-
  The kernel program's arrays are the specification's.

  Below row 10000 the padded arrays hold the unpadded ones, and no kept entry reads a padding row: a combine call's entry
  (r, j) reads row r of its operands only; the second layer's gather reads, for source words in 0 .. 9999, the row the
  word names; the decode's entry (i, j) reads rows i and j of the codes; the contracted axes (128, 32 and 32 columns) are
  not padded.  So the hidden rows, the means, the log-deviations, the codes and the decoded adjacency are, entry by
  entry, those of Spec.lean.
-/
import proofs.«401770_j62697932587536_1_alg».proof.Proof.KerVal
import proofs.«401770_j62697932587536_1_alg».proof.Proof.Spec

noncomputable section

namespace Cert.KernelIdeal.Host

open Idealize.ShloMosaic Idealize.ShloMosaic.ValueIdx
open Cert.KernelIdeal Cert.KernelIdeal.Gen

/-! ## The calls' closed forms at an index given by its two coordinates -/

/-- Entry (r, j) of the first call's result: the combination at (r, j), cut off below at zero. -/
theorem hidPad_ix2 (X M : Vgae.SP128.Idx → EReal) (Ws Wn : Vgae.SW128.Idx → EReal) (B : Vgae.SB.Idx → EReal)
    (r : Fin 10240) (j : Fin 32) :
    Vgae.hidPad X M Ws Wn B (ix2 r j) = max (Vgae.comb128 X M Ws Wn B r j) 0 := rfl

/-- Entry (r, j) of the second and third calls' results: the combination at (r, j). -/
theorem linPad_ix2 (X M : Vgae.SP32.Idx → EReal) (Ws Wn : Vgae.SW32.Idx → EReal) (B : Vgae.SB.Idx → EReal)
    (r : Fin 10240) (j : Fin 32) :
    Vgae.linPad X M Ws Wn B (ix2 r j) = Vgae.comb32 X M Ws Wn B r j := rfl

/-- Entry (i, j) of the decode call's result: the logistic of the inner product of rows i and j. -/
theorem decPad_ix2 (Z : Vgae.SP32.Idx → EReal) (i j : Fin 10240) :
    Vgae.decPad Z (ix2 i j) = Ideal.logistic (∑ k : Fin 32, Z (ix2 i k) * Z (ix2 j k)) := rfl

/-! ## Padding, read below row 10000 -/

/-- A row below 10000 of the padded array is the operand's row. -/
theorem pad128_castLE (y : FVec Ideal S10000x128 .f32) (r : Fin 10000) (k : Fin 128) :
    pad128 y (ix2 (Fin.castLE (by decide : 10000 ≤ 10240) r) k) = y (ix2 r k) := by
  rw [pad128_apply, dif_pos (show (Fin.castLE (by decide : 10000 ≤ 10240) r).val < 10000 from r.isLt)]
  rfl

theorem pad32_castLE (y : FVec Ideal S10000x32 .f32) (r : Fin 10000) (k : Fin 32) :
    pad32 y (ix2 (Fin.castLE (by decide : 10000 ≤ 10240) r) k) = y (ix2 r k) := by
  rw [pad32_apply, dif_pos (show (Fin.castLE (by decide : 10000 ≤ 10240) r).val < 10000 from r.isLt)]
  rfl

/-- The bias laid out as one row, read at column j, is entry j of the vector. -/
theorem biasRow_ix2 (b : FVec Ideal S32 .f32) (j : Fin 32) : biasRow b (ix2 (0 : Fin 1) j) = b (ix1 j) :=
  biasRow_apply b j

variable (x : FVec Ideal S10000x128 .f32) (src dst : IVec S320000 32) (eps : FVec Ideal S10000x32 .f32)
  (W1s W1n : FVec Ideal S128x32 .f32) (b1 : FVec Ideal S32 .f32)
  (Wms Wmn : FVec Ideal S32x32 .f32) (bm : FVec Ideal S32 .f32)
  (Wls Wln : FVec Ideal S32x32 .f32) (bl : FVec Ideal S32 .f32)
  (hsrc : ∀ e : Fin 320000, 0 ≤ (src (ix1 e)).toInt ∧ (src (ix1 e)).toInt < 10000)

/-! ## The hidden rows -/

/-- Row r < 10000 of the padded hidden rows is the specification's hidden row: the two padded operands are read at row r,
    where they are the features and their neighbour means, and the sums run over the same 128 columns. -/
theorem kH_apply (r : Fin 10000) (j : Fin 32) :
    kH x src dst W1s W1n b1 (ix2 (Fin.castLE (by decide : 10000 ≤ 10240) r) j) = Vgae.hid x src dst W1s W1n b1 r j := by
  unfold kH
  rw [hidPad_ix2]
  unfold Vgae.comb128 Vgae.hid Vgae.layer
  simp only [pad128_castLE, kmean128_apply, biasRow_ix2]

include hsrc

/-- Row r < 10000 of the padded second-layer neighbour means is the specification's neighbour mean of the hidden rows:
    every source word names a node, so the gather reads rows below 10000 of the padded hidden rows only. -/
theorem kM2_apply (r : Fin 10000) (k : Fin 32) :
    kM2 x src dst W1s W1n b1 (ix2 (Fin.castLE (by decide : 10000 ≤ 10240) r) k)
      = Vgae.nmean (Vgae.hid x src dst W1s W1n b1) src dst r k := by
  unfold kM2
  rw [pad32_castLE, kmean32_apply _ src dst hsrc]
  have h : (fun (r : Fin 10000) (k : Fin 32) =>
      kH x src dst W1s W1n b1 (ix2 (Fin.castLE (by decide : 10000 ≤ 10240) r) k)) = Vgae.hid x src dst W1s W1n b1 :=
    funext fun r => funext fun k => kH_apply x src dst W1s W1n b1 r k
  rw [h]

/-- A second-layer combine call at row r < 10000 is the specification's layer of the hidden rows with the same weights
    and bias. -/
theorem lin_apply (Ws Wn : FVec Ideal S32x32 .f32) (b : FVec Ideal S32 .f32) (r : Fin 10000) (j : Fin 32) :
    Vgae.linPad (kH x src dst W1s W1n b1) (kM2 x src dst W1s W1n b1) Ws Wn (biasRow b)
        (ix2 (Fin.castLE (by decide : 10000 ≤ 10240) r) j)
      = Vgae.layer (Vgae.hid x src dst W1s W1n b1) (fun k j => Ws (ix2 k j)) (fun k j => Wn (ix2 k j))
          (fun j => b (ix1 j)) src dst r j := by
  rw [linPad_ix2]
  unfold Vgae.comb32 Vgae.layer
  simp only [kH_apply, kM2_apply x src dst W1s W1n b1 hsrc, biasRow_ix2]

/-- The means. -/
theorem kmu_eq : kmu x src dst W1s W1n b1 Wms Wmn bm = Vgae.muArr x src dst W1s W1n b1 Wms Wmn bm := by
  funext i
  obtain ⟨p, q, rfl⟩ : ∃ (p : Fin 10000) (q : Fin 32), i = ix2 p q := ⟨i 0, i 1, eq_ix2 i⟩
  unfold kmu kMU
  rw [slice32_apply, lin_apply x src dst W1s W1n b1 hsrc]
  rfl

/-- The log-deviations. -/
theorem kls_eq : kls x src dst W1s W1n b1 Wls Wln bl = Vgae.logstdArr x src dst W1s W1n b1 Wls Wln bl := by
  funext i
  obtain ⟨p, q, rfl⟩ : ∃ (p : Fin 10000) (q : Fin 32), i = ix2 p q := ⟨i 0, i 1, eq_ix2 i⟩
  unfold kls kLS
  rw [slice32_apply, lin_apply x src dst W1s W1n b1 hsrc]
  rfl

/-- The codes: mean + noise times the exponential of the log-deviation, entry by entry. -/
theorem kz_apply (r : Fin 10000) (j : Fin 32) :
    kz x src dst eps W1s W1n b1 Wms Wmn bm Wls Wln bl (ix2 r j)
      = Vgae.code x src dst eps W1s W1n b1 Wms Wmn bm Wls Wln bl r j := by
  unfold kz
  rw [addf_apply, mulf_apply, kmu_eq x src dst W1s W1n b1 Wms Wmn bm hsrc]
  show _ + eps (ix2 r j) * Ideal.exp (kls x src dst W1s W1n b1 Wls Wln bl (ix2 r j)) = _
  rw [kls_eq x src dst W1s W1n b1 Wls Wln bl hsrc]
  rfl

/-- The decoded adjacency. -/
theorem kadj_eq :
    kadj x src dst eps W1s W1n b1 Wms Wmn bm Wls Wln bl = Vgae.adjArr x src dst eps W1s W1n b1 Wms Wmn bm Wls Wln bl := by
  funext i
  obtain ⟨p, q, rfl⟩ : ∃ (p q : Fin 10000), i = ix2 p q := ⟨i 0, i 1, eq_ix2 i⟩
  unfold kadj
  rw [sliceNN_apply, decPad_ix2]
  simp only [pad32_castLE, kz_apply x src dst eps W1s W1n b1 Wms Wmn bm Wls Wln bl hsrc]
  rfl

end Cert.KernelIdeal.Host

end
-- ==== Proof.PreSrc.lean ====
/-
  The precondition, read for the edge sources: every source word, read signed, names a node (0 .. 9999).

  The precondition is a conjunction of whole-array tests folded by "and"; its last conjunct tests every source word for
  0 ≤ word and word < 10000, both signed.
-/
import proofs.«401770_j62697932587536_1_alg».proof.Pre_finite_inputs
import proofs.«401770_j62697932587536_1_alg».proof.Proof.Gen.Pre_finite_inputs
import Idealize.ShloMosaic.Lib.StableHlo.Predicate
import Idealize.ShloMosaic.Lib.ReduceAll
import Idealize.ShloMosaic.Lib.ValueIdx

noncomputable section

namespace Cert.PreSrc

open Idealize.ShloMosaic Idealize.ShloMosaic.ValueIdx
open Cert.Pre_finite_inputs Cert.Pre_finite_inputs.Gen

variable {F : FTy → Type} [FloatOps F]

/-- The scalar shape has one index. -/
instance : Subsingleton S_.Idx := ⟨fun a b => funext fun d => d.elim0⟩

/-- A word that tests 0 ≤ word and word < 10000, both signed, lies in 0 .. 9999 read signed: a signed comparison of words
    is the comparison of their signed readings, and the words 0 and 10000 read 0 and 10000. -/
theorem word_range (w : BitVec 32) (h0 : IntOp.cmpi .sge w (0#32) = 1#1) (h1 : IntOp.cmpi .slt w (10000#32) = 1#1) :
    0 ≤ w.toInt ∧ w.toInt < 10000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (10000#32 : BitVec 32).toInt = 10000 := by decide
  rw [e0] at h0
  rw [e1] at h1
  exact ⟨h0, h1⟩

/-- If the precondition holds of the arguments, every source word names a node. -/
theorem src_range (a0 : FVec F S10000x128 .f32) (a1 a2 : IVec S320000 32) (a3 : FVec F S10000x32 .f32)
    (a4 a5 : FVec F S128x32 .f32) (a6 : FVec F S32 .f32) (a7 a8 : FVec F S32x32 .f32) (a9 : FVec F S32 .f32)
    (a10 a11 : FVec F S32x32 .f32) (a12 : FVec F S32 .f32)
    (h : fn (F := F) a0 a1 a2 a3 a4 a5 a6 a7 a8 a9 a10 a11 a12 = fun _ => 1#1) (e : Fin 320000) :
    0 ≤ (a1 (ix1 e)).toInt ∧ (a1 (ix1 e)).toInt < 10000 := by
  -- the precondition at the one index of its scalar result
  have hs := congrFun h ValueIdx.ix0
  dsimp only [fn, fn_part1, fn_part2, fn_part3] at hs
  -- the outermost "and": its second operand is the fold of the source test
  obtain ⟨-, hall⟩ := IntOp.andi_eq_one.1 hs
  -- a fold by "and" over every word that came out 1 met a 1 at every word
  have he := Host.reduce_andi_all _ _ _ _ _ hall (ix1 e)
  -- at one word the test is the "and" of the two comparisons against the broadcast constants
  obtain ⟨hge, hlt⟩ := IntOp.andi_eq_one.1 he
  exact word_range _ hge hlt

end Cert.PreSrc

end
-- ==== Proof.RefDecode.lean ====
/-
  The reference's decode, given its mean and log-deviation: if the stages that compute the mean and the log-deviation are
  the specification's arrays, the stage that computes the decoded adjacency is the specification's.

  The code is mean + noise · exp(log-deviation), entry by entry; the reference transposes the codes, contracts the 32 code
  columns of row i with those of row j, and applies 1 / (1 + exp(-·)), which is the logistic.
-/
import proofs.«401770_j62697932587536_1_alg».proof.Proof.Gen.ReferenceIdeal.Read
import proofs.«401770_j62697932587536_1_alg».proof.Proof.Spec
import Idealize.ShloMosaic.Lib.IdealHost

noncomputable section

namespace Cert.ReferenceIdeal.RefDecode

open Idealize.ShloMosaic Idealize.ShloMosaic.ValueIdx
open Cert.ReferenceIdeal Cert.ReferenceIdeal.Gen Cert.ReferenceIdeal.Read

/-- The code, entry by entry: the stage that adds the mean to the noise times the exponential of the log-deviation is,
    at row r and column k, the specification's code. -/
theorem code_of_stages (x0 : (⟨S10000x128, .f32⟩ : BufTy).Contents (Elt Ideal)) (x1 x2 : (⟨S320000, .i32⟩ : BufTy).Contents (Elt Ideal)) (x3 : (⟨S10000x32, .f32⟩ : BufTy).Contents (Elt Ideal))
    (x4 x5 : (⟨S128x32, .f32⟩ : BufTy).Contents (Elt Ideal)) (x6 : (⟨S32, .f32⟩ : BufTy).Contents (Elt Ideal)) (x7 x8 : (⟨S32x32, .f32⟩ : BufTy).Contents (Elt Ideal)) (x9 : (⟨S32, .f32⟩ : BufTy).Contents (Elt Ideal))
    (x10 x11 : (⟨S32x32, .f32⟩ : BufTy).Contents (Elt Ideal)) (x12 : (⟨S32, .f32⟩ : BufTy).Contents (Elt Ideal))
    (hmu : val_main_v50 (F := Ideal) x0 x1 x2 x4 x5 x6 x7 x8 x9 = Vgae.muArr x0 x1 x2 x4 x5 x6 x7 x8 x9)
    (hls : val_main_v75 (F := Ideal) x0 x1 x2 x4 x5 x6 x10 x11 x12 = Vgae.logstdArr x0 x1 x2 x4 x5 x6 x10 x11 x12)
    (r : Fin 10000) (k : Fin 32) :
    val_main_v78 (F := Ideal) x0 x1 x2 x3 x4 x5 x6 x7 x8 x9 x10 x11 x12 (ix2 r k)
      = Vgae.code x0 x1 x2 x3 x4 x5 x6 x7 x8 x9 x10 x11 x12 r k := by
  rw [val_main_v78_apply, val_main_v77_apply, val_main_v76_apply, hmu, hls]
  rfl

theorem adj_of_stages (x0 : (⟨S10000x128, .f32⟩ : BufTy).Contents (Elt Ideal)) (x1 x2 : (⟨S320000, .i32⟩ : BufTy).Contents (Elt Ideal)) (x3 : (⟨S10000x32, .f32⟩ : BufTy).Contents (Elt Ideal))
    (x4 x5 : (⟨S128x32, .f32⟩ : BufTy).Contents (Elt Ideal)) (x6 : (⟨S32, .f32⟩ : BufTy).Contents (Elt Ideal)) (x7 x8 : (⟨S32x32, .f32⟩ : BufTy).Contents (Elt Ideal)) (x9 : (⟨S32, .f32⟩ : BufTy).Contents (Elt Ideal))
    (x10 x11 : (⟨S32x32, .f32⟩ : BufTy).Contents (Elt Ideal)) (x12 : (⟨S32, .f32⟩ : BufTy).Contents (Elt Ideal))
    (hmu : val_main_v50 (F := Ideal) x0 x1 x2 x4 x5 x6 x7 x8 x9 = Vgae.muArr x0 x1 x2 x4 x5 x6 x7 x8 x9)
    (hls : val_main_v75 (F := Ideal) x0 x1 x2 x4 x5 x6 x10 x11 x12 = Vgae.logstdArr x0 x1 x2 x4 x5 x6 x10 x11 x12) :
    val_main_v86 (F := Ideal) x0 x1 x2 x3 x4 x5 x6 x7 x8 x9 x10 x11 x12
      = Vgae.adjArr x0 x1 x2 x3 x4 x5 x6 x7 x8 x9 x10 x11 x12 := by
  funext i
  obtain ⟨p, q, rfl⟩ : ∃ (p q : Fin 10000), i = ix2 p q := ⟨i 0, i 1, eq_ix2 i⟩
  -- the left factor of the k-th product is read at row p, column k
  have hl : ∀ k : Fin 32, lidx_main_v80 (ix2 p q) k = ix2 p k := fun k =>
    funext fun a => Fin.ext (by match a with | ⟨0, _⟩ => rfl | ⟨1, _⟩ => rfl)
  -- the right factor, through the transpose, at row q, column k
  have hr : ∀ k : Fin 32, idx_main_v79 (ridx_main_v80 (ix2 p q) k) = ix2 q k := fun k =>
    funext fun a => Fin.ext (by match a with | ⟨0, _⟩ => rfl | ⟨1, _⟩ => rfl)
  rw [val_main_v86_apply, val_main_v85_apply, val_main_cst_17_apply, val_main_v84_apply, val_main_v83_apply,
    val_main_cst_16_apply, val_main_v82_apply, val_main_v81_apply, val_main_v80_apply]
  simp only [val_main_v79_apply, hl, hr, code_of_stages x0 x1 x2 x3 x4 x5 x6 x7 x8 x9 x10 x11 x12 hmu hls]
  rw [Ideal.hostDivf_def, Ideal.addf_def, Ideal.hostUnary_exp_def, Ideal.hostNegf_def, Ideal.negf_def, Ideal.ofBits_def,
    Ideal.ofBits_one_f32]
  rfl

end Cert.ReferenceIdeal.RefDecode

end
-- ==== Proof.RefValue.lean ====
/-
  The reference program computes the specification: its three results, read entry by entry, are the decoded adjacency,
  the mean and the log-deviation of Spec.lean.
-/
import proofs.«401770_j62697932587536_1_alg».proof.Proof.Gen.ReferenceIdeal.Run
import proofs.«401770_j62697932587536_1_alg».proof.Proof.Gen.ReferenceIdeal.Read
import proofs.«401770_j62697932587536_1_alg».proof.Proof.Spec
import proofs.«401770_j62697932587536_1_alg».proof.Proof.LibRows
import proofs.«401770_j62697932587536_1_alg».proof.Proof.RefDecode
import Idealize.ShloMosaic.Lib.IdealHost

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value Cert.ReferenceIdeal.Read

/-! ## Index words -/

/-- The column [E,1] of an edge array reads the edge's word. -/
theorem col_ix (e : Fin 320000) :
    (fun a => match a with | ⟨0, _⟩ => ⟨((ix2 e (0 : Fin 1) : S320000x1.Idx) 0).val, ((ix2 e (0 : Fin 1) : S320000x1.Idx) 0).isLt⟩ : S320000.Idx)
      = ix1 e := by
  funext a; match a with | ⟨0, _⟩ => rfl

/-- The source word as the gather reads it: a negative word moved up by the number of rows. -/
theorem srcWord (x1 : (⟨S320000, .i32⟩ : BufTy).Contents (Elt Ideal)) (e : Fin 320000) :
    val_main_v5 (F := Ideal) x1 (ix2 e (0 : Fin 1))
      = (if (x1 (ix1 e)).slt 0#32 then x1 (ix1 e) + 10000#32 else x1 (ix1 e)) := by
  have hi : idx_main_v5 (ix2 e (0 : Fin 1)) = ix1 e := col_ix e
  rw [val_main_v5_apply, val_main_v4_apply, val_main_v1_apply, val_main_v3_apply, val_main_v0_apply,
    val_main_v2_apply, val_main_c_apply, val_main_c_0_apply, hi]
  unfold Scalar.select IntOp.cmpi IntOp.addi
  generalize (x1 (ix1 e)).slt 0#32 = b
  cases b <;> rfl

/-- The destination word of an edge. -/
theorem dstWord (x2 : (⟨S320000, .i32⟩ : BufTy).Contents (Elt Ideal)) (e : Fin 320000) :
    val_main_v8 (F := Ideal) x2 (ix2 e (0 : Fin 1)) = x2 (ix1 e) := by
  have hi : idx_main_v8 (ix2 e (0 : Fin 1)) = ix1 e := col_ix e
  rw [val_main_v8_apply, hi]

/-! ## The gather by source words and the segment sums by destination words -/

/-- The row gather by the source words reads the table at the edge's source row. -/
theorem gather_src {C : ℕ} (d : GatherDims ⟨2, ![10000, C]⟩ ⟨2, ![320000, 1]⟩ ⟨2, ![320000, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (t : (⟨2, ![10000, C]⟩ : Shape).Idx → EReal) (x1 : (⟨S320000, .i32⟩ : BufTy).Contents (Elt Ideal))
    (e : Fin 320000) (q : Fin C) :
    Host.gather d t (val_main_v5 (F := Ideal) x1) (ix2 e q) = t (ix2 (Vgae.srcRow x1 e) q) := by
  rw [Gcn.Rows.gather_rows d hoff hcoll hob hsb hsim hivd t (val_main_v5 (F := Ideal) x1) e q (by decide)]
  refine congrArg (fun r : Fin 10000 => t (ix2 r q)) (Fin.ext ?_)
  show min (val_main_v5 (F := Ideal) x1 (ix2 e (0 : Fin 1))).toInt.toNat (10000 - 1) = (Vgae.srcRow x1 e).val
  rw [srcWord]
  rfl

/-- The segment sum of rows by the destination words, from a zero table. -/
theorem scatter_rows_dst {C : ℕ} (d : ScatterDims ⟨2, ![10000, C]⟩ ⟨2, ![320000, 1]⟩ ⟨2, ![320000, C]⟩)
    (huw : d.updateWindowDims = [1]) (hins : d.insertedWindowDims = [0]) (hsd : d.scatterDimsToOperandDims = [0])
    (hivd : d.indexVectorDim = 1)
    (z : (⟨2, ![10000, C]⟩ : Shape).Idx → EReal) (hz : ∀ i, z i = 0)
    (x2 : (⟨S320000, .i32⟩ : BufTy).Contents (Elt Ideal)) (upd : (⟨2, ![320000, C]⟩ : Shape).Idx → EReal)
    (r : Fin 10000) (q : Fin C) :
    Host.scatterAdd (F := Ideal) (φ := .f32) d z (val_main_v8 (F := Ideal) x2) upd (ix2 r q)
      = ∑ e : Fin 320000, if (x2 (ix1 e)).toInt = (r.val : ℤ) then upd (ix2 e q) else 0 := by
  show Ideal.hostScatterAdd d z (val_main_v8 (F := Ideal) x2) upd (ix2 r q) = _
  rw [Gcn.Rows.scatterAdd_rows d huw hins hsd hivd, hz, zero_add]
  refine Finset.sum_congr rfl fun e _ => ?_
  rw [dstWord]

/-- The number of edges into a node: the segment sum of ones by the destination words, from zero. -/
theorem degree (x2 : (⟨S320000, .i32⟩ : BufTy).Contents (Elt Ideal)) (r : Fin 10000) :
    val_main_v13 (F := Ideal) x2 (ix1 r) = Vgae.inDeg x2 r := by
  unfold val_main_v13
  show Ideal.hostScatterAdd scatter_S10000_S320000x1_S320000_n_0_0_1 (val_main_v11 (F := Ideal))
    (val_main_v12 (F := Ideal) x2) (val_main_v10 (F := Ideal)) (ix1 r) = _
  rw [Gcn.Rows.scatterAdd_vec _ rfl rfl rfl rfl, val_main_v11_apply, val_main_cst_2_apply, Ideal.ofBits_def,
    Ideal.ofBits_zero_f32, zero_add]
  unfold Vgae.inDeg
  refine Finset.sum_congr rfl fun e _ => ?_
  have hi : idx_main_v12 (ix2 e (0 : Fin 1)) = ix1 e := col_ix e
  rw [val_main_v12_apply, hi, val_main_v10_apply, val_main_cst_1_apply, Ideal.ofBits_def, Ideal.ofBits_one_f32]

/-- The divisor of a neighbour mean: the number of edges into the node, taken as at least one. -/
theorem degMax (x2 : (⟨S320000, .i32⟩ : BufTy).Contents (Elt Ideal)) (r : Fin 10000) :
    val_main_v15 (F := Ideal) x2 (ix1 r) = max (Vgae.inDeg x2 r) 1 := by
  rw [val_main_v15_apply, degree, val_main_v14_apply, val_main_cst_3_apply, Ideal.ofBits_def, Ideal.ofBits_one_f32,
    Ideal.maximumf_def]

/-- The divisor spread over the 128 feature columns. -/
theorem degCol128 (x2 : (⟨S320000, .i32⟩ : BufTy).Contents (Elt Ideal)) (r : Fin 10000) (q : Fin 128) :
    val_main_v17 (F := Ideal) x2 (ix2 r q) = max (Vgae.inDeg x2 r) 1 := by
  have hi : idx_main_v16 (idx_main_v17 (ix2 r q)) = ix1 r := by
    funext a; match a with | ⟨0, _⟩ => rfl
  rw [val_main_v17_apply, val_main_v16_apply, hi, degMax]

/-- The divisor spread over the 32 hidden columns. -/
theorem degCol32 (x2 : (⟨S320000, .i32⟩ : BufTy).Contents (Elt Ideal)) (r : Fin 10000) (q : Fin 32) :
    val_main_v43 (F := Ideal) x2 (ix2 r q) = max (Vgae.inDeg x2 r) 1 := by
  have hi : idx_main_v42 (idx_main_v43 (ix2 r q)) = ix1 r := by
    funext a; match a with | ⟨0, _⟩ => rfl
  have h41 : val_main_v41 (F := Ideal) x2 = val_main_v15 (F := Ideal) x2 := rfl
  rw [val_main_v43_apply, val_main_v42_apply, hi, h41, degMax]

/-- The neighbour mean of a table: rows gathered by source, summed by destination from zero, divided by the divisor. -/
theorem nmean_read {K : ℕ} (dg : GatherDims ⟨2, ![10000, K]⟩ ⟨2, ![320000, 1]⟩ ⟨2, ![320000, K]⟩)
    (hoff : dg.offsetDims = [1]) (hcoll : dg.collapsedSliceDims = [0]) (hob : dg.operandBatchingDims = [])
    (hsb : dg.startIndicesBatchingDims = []) (hsim : dg.startIndexMap = [0]) (hgivd : dg.indexVectorDim = 1)
    (ds : ScatterDims ⟨2, ![10000, K]⟩ ⟨2, ![320000, 1]⟩ ⟨2, ![320000, K]⟩)
    (huw : ds.updateWindowDims = [1]) (hins : ds.insertedWindowDims = [0]) (hsd : ds.scatterDimsToOperandDims = [0])
    (hsivd : ds.indexVectorDim = 1)
    (tbl z : (⟨2, ![10000, K]⟩ : Shape).Idx → EReal) (hz : ∀ i, z i = 0)
    (x1 x2 : (⟨S320000, .i32⟩ : BufTy).Contents (Elt Ideal))
    (D : (⟨2, ![10000, K]⟩ : Shape).Idx → EReal) (hD : ∀ r q, D (ix2 r q) = max (Vgae.inDeg x2 r) 1)
    (r : Fin 10000) (q : Fin K) :
    Host.divf (F := Ideal) (φ := .f32)
        (Host.scatterAdd (F := Ideal) (φ := .f32) ds z (val_main_v8 (F := Ideal) x2)
          (Host.gather dg tbl (val_main_v5 (F := Ideal) x1))) D (ix2 r q)
      = Vgae.nmean (fun r k => tbl (ix2 r k)) x1 x2 r q := by
  show Ideal.div (Host.scatterAdd (F := Ideal) (φ := .f32) ds z (val_main_v8 (F := Ideal) x2)
          (Host.gather dg tbl (val_main_v5 (F := Ideal) x1)) (ix2 r q)) (D (ix2 r q)) = _
  rw [scatter_rows_dst ds huw hins hsd hsivd z hz, hD]
  unfold Vgae.nmean Vgae.nsum
  refine congrArg (fun s => Ideal.div s (max (Vgae.inDeg x2 r) 1)) (Finset.sum_congr rfl fun e _ => ?_)
  rw [gather_src dg hoff hcoll hob hsb hsim hgivd]

/-! ## The hidden layer -/

/-- The neighbour mean of the features. -/
theorem mean1 (x0 : (⟨S10000x128, .f32⟩ : BufTy).Contents (Elt Ideal))
    (x1 x2 : (⟨S320000, .i32⟩ : BufTy).Contents (Elt Ideal)) (r : Fin 10000) (q : Fin 128) :
    val_main_v18 (F := Ideal) x0 x1 x2 (ix2 r q) = Vgae.nmean (fun r k => x0 (ix2 r k)) x1 x2 r q := by
  unfold val_main_v18 val_main_v9 val_main_v6
  exact nmean_read gather_S10000x128_S320000x1_S320000x128_1_0_n_n_0_1_1128 rfl rfl rfl rfl rfl rfl
    scatter_S10000x128_S320000x1_S320000x128_1_0_0_1 rfl rfl rfl rfl x0 (val_main_v7 (F := Ideal))
    (fun i => by rw [val_main_v7_apply, val_main_cst_apply, Ideal.ofBits_def, Ideal.ofBits_zero_f32])
    x1 x2 (val_main_v17 (F := Ideal) x2) (degCol128 x2) r q

/-- The hidden rows. -/
theorem hidden (x0 : (⟨S10000x128, .f32⟩ : BufTy).Contents (Elt Ideal))
    (x1 x2 : (⟨S320000, .i32⟩ : BufTy).Contents (Elt Ideal)) (x4 x5 : (⟨S128x32, .f32⟩ : BufTy).Contents (Elt Ideal))
    (x6 : (⟨S32, .f32⟩ : BufTy).Contents (Elt Ideal)) (r : Fin 10000) (j : Fin 32) :
    val_main_v25 (F := Ideal) x0 x1 x2 x4 x5 x6 (ix2 r j) = Vgae.hid x0 x1 x2 x4 x5 x6 r j := by
  have hl19 : ∀ k, lidx_main_v19 (ix2 r j) k = ix2 r k := fun k => by
    funext a; match a with | ⟨0, _⟩ => rfl | ⟨1, _⟩ => rfl
  have hr19 : ∀ k, ridx_main_v19 (ix2 r j) k = ix2 k j := fun k => by
    funext a; match a with | ⟨0, _⟩ => rfl | ⟨1, _⟩ => rfl
  have hl20 : ∀ k, lidx_main_v20 (ix2 r j) k = ix2 r k := fun k => by
    funext a; match a with | ⟨0, _⟩ => rfl | ⟨1, _⟩ => rfl
  have hr20 : ∀ k, ridx_main_v20 (ix2 r j) k = ix2 k j := fun k => by
    funext a; match a with | ⟨0, _⟩ => rfl | ⟨1, _⟩ => rfl
  have hb : idx_main_v22 (idx_main_v23 (ix2 r j)) = ix1 j := by
    funext a; match a with | ⟨0, _⟩ => rfl
  rw [val_main_v25_apply, val_main_v24_apply, val_main_v21_apply, val_main_v19_apply, val_main_v20_apply,
    val_main_v23_apply, val_main_v22_apply, hb, val_main_call0_v0_apply, val_main_call0_cst_apply, Ideal.ofBits_def,
    Ideal.ofBits_zero_f32]
  unfold Vgae.hid Vgae.layer
  simp only [Ideal.maximumf_def, Ideal.addf_def, hl19, hr19, hl20, hr20, mean1]

/-! ## The mean and the log-deviation -/

/-- The neighbour mean of the hidden rows. -/
theorem mean2 (x0 : (⟨S10000x128, .f32⟩ : BufTy).Contents (Elt Ideal))
    (x1 x2 : (⟨S320000, .i32⟩ : BufTy).Contents (Elt Ideal)) (x4 x5 : (⟨S128x32, .f32⟩ : BufTy).Contents (Elt Ideal))
    (x6 : (⟨S32, .f32⟩ : BufTy).Contents (Elt Ideal)) (r : Fin 10000) (q : Fin 32) :
    val_main_v44 (F := Ideal) x0 x1 x2 x4 x5 x6 (ix2 r q) = Vgae.nmean (Vgae.hid x0 x1 x2 x4 x5 x6) x1 x2 r q := by
  have h : val_main_v44 (F := Ideal) x0 x1 x2 x4 x5 x6 (ix2 r q)
      = Vgae.nmean (fun r k => val_main_v25 (F := Ideal) x0 x1 x2 x4 x5 x6 (ix2 r k)) x1 x2 r q := by
    unfold val_main_v44 val_main_v35 val_main_v32
    exact nmean_read gather_S10000x32_S320000x1_S320000x32_1_0_n_n_0_1_132 rfl rfl rfl rfl rfl rfl
      scatter_S10000x32_S320000x1_S320000x32_1_0_0_1 rfl rfl rfl rfl (val_main_v25 (F := Ideal) x0 x1 x2 x4 x5 x6)
      (val_main_v33 (F := Ideal))
      (fun i => by rw [val_main_v33_apply, val_main_cst_6_apply, Ideal.ofBits_def, Ideal.ofBits_zero_f32])
      x1 x2 (val_main_v43 (F := Ideal) x2) (degCol32 x2) r q
  have hf : (fun r k => val_main_v25 (F := Ideal) x0 x1 x2 x4 x5 x6 (ix2 r k)) = Vgae.hid x0 x1 x2 x4 x5 x6 :=
    funext fun r => funext fun k => hidden x0 x1 x2 x4 x5 x6 r k
  rw [h, hf]

/-- The stage that computes the mean is the specification's mean. -/
theorem stage_mu (x0 : (⟨S10000x128, .f32⟩ : BufTy).Contents (Elt Ideal))
    (x1 x2 : (⟨S320000, .i32⟩ : BufTy).Contents (Elt Ideal)) (x4 x5 : (⟨S128x32, .f32⟩ : BufTy).Contents (Elt Ideal))
    (x6 : (⟨S32, .f32⟩ : BufTy).Contents (Elt Ideal)) (x7 x8 : (⟨S32x32, .f32⟩ : BufTy).Contents (Elt Ideal))
    (x9 : (⟨S32, .f32⟩ : BufTy).Contents (Elt Ideal)) :
    val_main_v50 (F := Ideal) x0 x1 x2 x4 x5 x6 x7 x8 x9 = Vgae.muArr x0 x1 x2 x4 x5 x6 x7 x8 x9 := by
  funext i
  obtain ⟨r, j, rfl⟩ : ∃ (r : Fin 10000) (j : Fin 32), i = ix2 r j := ⟨i 0, i 1, eq_ix2 i⟩
  have hl45 : ∀ k, lidx_main_v45 (ix2 r j) k = ix2 r k := fun k => by
    funext a; match a with | ⟨0, _⟩ => rfl | ⟨1, _⟩ => rfl
  have hr45 : ∀ k, ridx_main_v45 (ix2 r j) k = ix2 k j := fun k => by
    funext a; match a with | ⟨0, _⟩ => rfl | ⟨1, _⟩ => rfl
  have hl46 : ∀ k, lidx_main_v46 (ix2 r j) k = ix2 r k := fun k => by
    funext a; match a with | ⟨0, _⟩ => rfl | ⟨1, _⟩ => rfl
  have hr46 : ∀ k, ridx_main_v46 (ix2 r j) k = ix2 k j := fun k => by
    funext a; match a with | ⟨0, _⟩ => rfl | ⟨1, _⟩ => rfl
  have hb : idx_main_v48 (idx_main_v49 (ix2 r j)) = ix1 j := by
    funext a; match a with | ⟨0, _⟩ => rfl
  rw [val_main_v50_apply, val_main_v47_apply, val_main_v45_apply, val_main_v46_apply, val_main_v49_apply,
    val_main_v48_apply, hb]
  show _ = Vgae.mu x0 x1 x2 x4 x5 x6 x7 x8 x9 r j
  unfold Vgae.mu Vgae.layer
  simp only [Ideal.addf_def, hl45, hr45, hl46, hr46, mean2, hidden]

/-- The stage that computes the log-deviation is the specification's log-deviation: it is the mean's stage at the
    other weights, as the log-deviation is the mean's layer at the other weights. -/
theorem stage_logstd (x0 : (⟨S10000x128, .f32⟩ : BufTy).Contents (Elt Ideal))
    (x1 x2 : (⟨S320000, .i32⟩ : BufTy).Contents (Elt Ideal)) (x4 x5 : (⟨S128x32, .f32⟩ : BufTy).Contents (Elt Ideal))
    (x6 : (⟨S32, .f32⟩ : BufTy).Contents (Elt Ideal)) (x10 x11 : (⟨S32x32, .f32⟩ : BufTy).Contents (Elt Ideal))
    (x12 : (⟨S32, .f32⟩ : BufTy).Contents (Elt Ideal)) :
    val_main_v75 (F := Ideal) x0 x1 x2 x4 x5 x6 x10 x11 x12 = Vgae.logstdArr x0 x1 x2 x4 x5 x6 x10 x11 x12 := by
  have h : val_main_v75 (F := Ideal) x0 x1 x2 x4 x5 x6 x10 x11 x12
      = val_main_v50 (F := Ideal) x0 x1 x2 x4 x5 x6 x10 x11 x12 := rfl
  rw [h, stage_mu]
  rfl

/-! ## The three results -/

variable (m : (ℓ : Loc nD τ sig) → Buf (Elt Ideal) ℓ) (c : Dev nD)

/-- The decoded adjacency. -/
theorem out0_eq :
    res_out0 (F := Ideal) m c
      = Vgae.adjArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) :=
  (val_main_v86_eq (F := Ideal) m c).trans
    (Cert.ReferenceIdeal.RefDecode.adj_of_stages _ _ _ _ _ _ _ _ _ _ _ _ _ (stage_mu _ _ _ _ _ _ _ _ _) (stage_logstd _ _ _ _ _ _ _ _ _))

/-- The mean. -/
theorem out1_eq :
    res_out1 (F := Ideal) m c
      = Vgae.muArr (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) :=
  (val_main_v50_eq (F := Ideal) m c).trans (stage_mu _ _ _ _ _ _ _ _ _)

/-- The log-deviation. -/
theorem out2_eq :
    res_out2 (F := Ideal) m c
      = Vgae.logstdArr (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg10)) (m ((c.tc : Thread nD τ).loc main_arg11)) (m ((c.tc : Thread nD τ).loc main_arg12)) :=
  (val_main_v75_eq (F := Ideal) m c).trans (stage_logstd _ _ _ _ _ _ _ _ _)

end Cert.ReferenceIdeal.RefValue

end
-- ==== Proof.lean ====
/-
  The certificate: a graph autoencoder (two mean-aggregation layers, a reparameterised code, a dot-product decode) whose
  dense steps run as four tiled calls over arrays padded from 10000 to 10240 rows, against the plain reference.

  Frames.  The kernel program, read over words and over the extended reals alike, is sixteen items, host stretches and the
  four calls; each item is entered from what the one before it left, every call's tiles run to the end on whole staging
  buffers, and no item writes an argument array (Kernel/Frame.lean, KernelIdeal/Frame.lean, one text at two instances).
  The reference has no call: its frame is its run with the results dropped.

  Values, over the extended reals.  Both programs compute, entry by entry, the specification of Spec.lean: the reference
  directly (RefValue.lean); the kernel program through its calls' closed forms on the padded arrays (KernelIdeal/Final0 ..
  Final3, KernelIdeal/Values.lean) and the observation that no kept entry reads a padding row (Bridge.lean).  Two things
  join the sides.  The kernel multiplies a neighbour sum by the reciprocal of the clamped edge count where the reference
  divides by the count: the count is at least one, so not zero, and dividing one by it and multiplying is dividing.  And the
  kernel gathers the second layer's rows from the PADDED hidden rows, moving a negative index word up by 10240 where the
  reference moves it up by 10000: for source words that name a node, 0 .. 9999, both read the row the word names.  That
  range is the one thing asked of the inputs beyond what is stated for every program of this kind (PreSrc.lean reads it off
  the precondition); no finiteness is used.
-/
import proofs.«401770_j62697932587536_1_alg».proof.Defs
import proofs.«401770_j62697932587536_1_alg».proof.Proof.Gen.Kernel
import proofs.«401770_j62697932587536_1_alg».proof.Proof.Gen.KernelIdeal
import proofs.«401770_j62697932587536_1_alg».proof.Proof.Gen.ReferenceIdeal
import proofs.«401770_j62697932587536_1_alg».proof.Proof.Gen.Pre_finite_inputs
import proofs.«401770_j62697932587536_1_alg».proof.Proof.Gen.ReferenceIdeal.Run
import proofs.«401770_j62697932587536_1_alg».proof.Proof.Kernel.Frame
import proofs.«401770_j62697932587536_1_alg».proof.Proof.KernelIdeal.Frame
import proofs.«401770_j62697932587536_1_alg».proof.Proof.KernelIdeal.Values
import proofs.«401770_j62697932587536_1_alg».proof.Proof.Bridge
import proofs.«401770_j62697932587536_1_alg».proof.Proof.PreSrc
import proofs.«401770_j62697932587536_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- The specification's arrays depend on the arguments only: equal arguments, equal arrays. -/
theorem adjArr_congr {x x' : Vgae.SN128.Idx → EReal} {s s' d d' : IVec Vgae.SE 32} {e e' : Vgae.SN32.Idx → EReal}
    {a a' b b' : Vgae.S128x32.Idx → EReal} {c1 c1' : Vgae.S32.Idx → EReal}
    {p p' q q' : Vgae.S32x32.Idx → EReal} {c2 c2' : Vgae.S32.Idx → EReal}
    {u u' v v' : Vgae.S32x32.Idx → EReal} {c3 c3' : Vgae.S32.Idx → EReal}
    (h0 : x' = x) (h1 : s' = s) (h2 : d' = d) (h3 : e' = e) (h4 : a' = a) (h5 : b' = b) (h6 : c1' = c1)
    (h7 : p' = p) (h8 : q' = q) (h9 : c2' = c2) (h10 : u' = u) (h11 : v' = v) (h12 : c3' = c3) :
    Vgae.adjArr x' s' d' e' a' b' c1' p' q' c2' u' v' c3' = Vgae.adjArr x s d e a b c1 p q c2 u v c3 := by
  subst h0 h1 h2 h3 h4 h5 h6 h7 h8 h9 h10 h11 h12; rfl

theorem muArr_congr {x x' : Vgae.SN128.Idx → EReal} {s s' d d' : IVec Vgae.SE 32}
    {a a' b b' : Vgae.S128x32.Idx → EReal} {c1 c1' : Vgae.S32.Idx → EReal}
    {p p' q q' : Vgae.S32x32.Idx → EReal} {c2 c2' : Vgae.S32.Idx → EReal}
    (h0 : x' = x) (h1 : s' = s) (h2 : d' = d) (h4 : a' = a) (h5 : b' = b) (h6 : c1' = c1)
    (h7 : p' = p) (h8 : q' = q) (h9 : c2' = c2) :
    Vgae.muArr x' s' d' a' b' c1' p' q' c2' = Vgae.muArr x s d a b c1 p q c2 := by
  subst h0 h1 h2 h4 h5 h6 h7 h8 h9; rfl

theorem logstdArr_congr {x x' : Vgae.SN128.Idx → EReal} {s s' d d' : IVec Vgae.SE 32}
    {a a' b b' : Vgae.S128x32.Idx → EReal} {c1 c1' : Vgae.S32.Idx → EReal}
    {u u' v v' : Vgae.S32x32.Idx → EReal} {c3 c3' : Vgae.S32.Idx → EReal}
    (h0 : x' = x) (h1 : s' = s) (h2 : d' = d) (h4 : a' = a) (h5 : b' = b) (h6 : c1' = c1)
    (h10 : u' = u) (h11 : v' = v) (h12 : c3' = c3) :
    Vgae.logstdArr x' s' d' a' b' c1' u' v' c3' = Vgae.logstdArr x s d a b c1 u v c3 := by
  subst h0 h1 h2 h4 h5 h6 h10 h11 h12; rfl

set_option maxHeartbeats 4000000 in
open Cert.KernelIdeal.Hand Cert.KernelIdeal.Host in
theorem algebraic : Cert.algebraic_KernelIdeal_ReferenceIdeal := by
  intro m ρ m' ρ' hpre hagree
  have hsrc : ∀ (c : Dev Cert.KernelIdeal.nD) (e : Fin 320000),
      0 ≤ ((m ((c.tc : Thread Cert.KernelIdeal.nD Cert.KernelIdeal.τ).loc Cert.KernelIdeal.main_arg1)) (ix1 e)).toInt ∧ ((m ((c.tc : Thread Cert.KernelIdeal.nD Cert.KernelIdeal.τ).loc Cert.KernelIdeal.main_arg1)) (ix1 e)).toInt < 10000 :=
    fun c e => Cert.PreSrc.src_range _ _ _ _ _ _ _ _ _ _ _ _ _ (hpre c) e
  refine ⟨fun c => kadj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => kmu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => kls (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun _ h c => ?_) (run_ref m ρ)
    exact ⟨(h c Cert.KernelIdeal.main_v49 (by decide)).trans (W16_v49 m ρ c),
      (h c Cert.KernelIdeal.main_v42 (by decide)).trans (W16_v42 m ρ c),
      (h c Cert.KernelIdeal.main_v43 (by decide)).trans (W16_v43 m ρ c),
      (h c Cert.KernelIdeal.main_arg0 (by decide)).trans (W16_arg m ρ c Cert.KernelIdeal.main_arg0 (by decide)),
      (h c Cert.KernelIdeal.main_arg1 (by decide)).trans (W16_arg m ρ c Cert.KernelIdeal.main_arg1 (by decide)),
      (h c Cert.KernelIdeal.main_arg2 (by decide)).trans (W16_arg m ρ c Cert.KernelIdeal.main_arg2 (by decide)),
      (h c Cert.KernelIdeal.main_arg3 (by decide)).trans (W16_arg m ρ c Cert.KernelIdeal.main_arg3 (by decide)),
      (h c Cert.KernelIdeal.main_arg4 (by decide)).trans (W16_arg m ρ c Cert.KernelIdeal.main_arg4 (by decide)),
      (h c Cert.KernelIdeal.main_arg5 (by decide)).trans (W16_arg m ρ c Cert.KernelIdeal.main_arg5 (by decide)),
      (h c Cert.KernelIdeal.main_arg6 (by decide)).trans (W16_arg m ρ c Cert.KernelIdeal.main_arg6 (by decide)),
      (h c Cert.KernelIdeal.main_arg7 (by decide)).trans (W16_arg m ρ c Cert.KernelIdeal.main_arg7 (by decide)),
      (h c Cert.KernelIdeal.main_arg8 (by decide)).trans (W16_arg m ρ c Cert.KernelIdeal.main_arg8 (by decide)),
      (h c Cert.KernelIdeal.main_arg9 (by decide)).trans (W16_arg m ρ c Cert.KernelIdeal.main_arg9 (by decide)),
      (h c Cert.KernelIdeal.main_arg10 (by decide)).trans (W16_arg m ρ c Cert.KernelIdeal.main_arg10 (by decide)),
      (h c Cert.KernelIdeal.main_arg11 (by decide)).trans (W16_arg m ρ c Cert.KernelIdeal.main_arg11 (by decide)),
      (h c Cert.KernelIdeal.main_arg12 (by decide)).trans (W16_arg m ρ c Cert.KernelIdeal.main_arg12 (by decide))⟩
  · refine (θ_run Cert.ReferenceIdeal.defs _ _).mono (fun _ h c => ?_) (Cert.ReferenceIdeal.Value.run (F := Ideal) m' ρ')
    obtain ⟨h0, h1, h2, hargs⟩ := h c
    obtain ⟨e0, e1, e2, e3, e4, e5, e6, e7, e8, e9, e10, e11, e12⟩ := hagree c
    refine ⟨h0.trans ?_, h1.trans ?_, h2.trans ?_, hargs⟩
    · exact ((Cert.ReferenceIdeal.RefValue.out0_eq m' c).trans (adjArr_congr e0 e1 e2 e3 e4 e5 e6 e7 e8 e9 e10 e11 e12)).trans
        (kadj_eq _ _ _ _ _ _ _ _ _ _ _ _ _ (hsrc c)).symm
    · exact ((Cert.ReferenceIdeal.RefValue.out1_eq m' c).trans (muArr_congr e0 e1 e2 e4 e5 e6 e7 e8 e9)).trans
        (kmu_eq _ _ _ _ _ _ _ _ _ (hsrc c)).symm
    · exact ((Cert.ReferenceIdeal.RefValue.out2_eq m' c).trans (logstdArr_congr e0 e1 e2 e4 e5 e6 e10 e11 e12)).trans
        (kls_eq _ _ _ _ _ _ _ _ _ (hsrc c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
